-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S1200000x16 : Shape := ⟨2, ![1200000, 16]⟩
abbrev S128x64 : Shape := ⟨2, ![128, 64]⟩
abbrev S64 : Shape := ⟨1, ![64]⟩
abbrev S16x64 : Shape := ⟨2, ![16, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1200000x16 : S_.BroadcastsInDim S1200000x16 (![] : Fin 0 → Fin S1200000x16.rank)
  reducesTo_S1200000x16_S_d0_1 : S1200000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S64x64 .f32) (main_arg20 : FVec F S64 .f32) (main_arg21 : FVec F S64x1 .f32) (main_arg22 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg21
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S64x64 .f32) (main_arg16 : FVec F S64 .f32) (main_arg17 : FVec F S16x64 .f32) (main_arg18 : FVec F S64 .f32) (main_arg19 : FVec F S64x64 .f32) (main_arg20 : FVec F S64 .f32) (main_arg21 : FVec F S64x1 .f32) (main_arg22 : FVec F S1 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S16x64 .f32 := Host.absf main_arg17
  let main_cst_30 : FVec F S_ .f32 := constant S_ .f32 0x7F800000#32
  let main_v80 : FVec F S16x64 .f32 := broadcastInDim S16x64 ![] bcast_S_S16x64 main_cst_30
  let main_v81 : IVec S16x64 1 := cmpf .olt main_v79 main_v80
  let main_c_31 : IVec S_ 1 := constantI S_ 1 1#1
  let main_v82 : IVec S_ 1 := (fun x v => Host.reduce IntOp.andi x v reducesTo_S16x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S16x64 .f32) (main_arg18 : FVec F S64 .f32) (main_arg19 : FVec F S64x64 .f32) (main_arg20 : FVec F S64 .f32) (main_arg21 : FVec F S64x1 .f32) (main_arg22 : FVec F S1 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S64 .f32) (main_arg9 : FVec F S64x64 .f32) (main_arg10 : FVec F S64 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S16x64 .f32) (main_arg18 : FVec F S64 .f32) (main_arg19 : FVec F S64x64 .f32) (main_arg20 : FVec F S64 .f32) (main_arg21 : FVec F S64x1 .f32) (main_arg22 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S16x64 .f32 := Host.absf main_arg11
  let main_cst_18 : FVec F S_ .f32 := constant S_ .f32 0x7F800000#32
  let main_v50 : FVec F S16x64 .f32 := broadcastInDim S16x64 ![] bcast_S_S16x64 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S16x64 .f32) (main_arg6 : FVec F S64 .f32) (main_arg7 : FVec F S128x64 .f32) (main_arg8 : FVec F S64 .f32) (main_arg9 : FVec F S64x64 .f32) (main_arg10 : FVec F S64 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S16x64 .f32) (main_arg18 : FVec F S64 .f32) (main_arg19 : FVec F S64x64 .f32) (main_arg20 : FVec F S64 .f32) (main_arg21 : FVec F S64x1 .f32) (main_arg22 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S2x1200000 32) (main_arg2 : FVec F S1200000x16 .f32) (main_arg3 : FVec F S128x64 .f32) (main_arg4 : FVec F S64 .f32) (main_arg5 : FVec F S16x64 .f32) (main_arg6 : FVec F S64 .f32) (main_arg7 : FVec F S128x64 .f32) (main_arg8 : FVec F S64 .f32) (main_arg9 : FVec F S64x64 .f32) (main_arg10 : FVec F S64 .f32) (main_arg11 : FVec F S16x64 .f32) (main_arg12 : FVec F S64 .f32) (main_arg13 : FVec F S64x64 .f32) (main_arg14 : FVec F S64 .f32) (main_arg15 : FVec F S64x64 .f32) (main_arg16 : FVec F S64 .f32) (main_arg17 : FVec F S16x64 .f32) (main_arg18 : FVec F S64 .f32) (main_arg19 : FVec F S64x64 .f32) (main_arg20 : FVec F S64 .f32) (main_arg21 : FVec F S64x1 .f32) (main_arg22 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1200000x16 .f32 := Host.absf main_arg2
  let main_cst_0 : FVec F S_ .f32 := constant S_ .f32 0x7F800000#32
  let main_v5 : FVec F S1200000x16 .f32 := broadcastInDim S1200000x16 ![] bcast_S_S1200000x16 main_cst_0
  let main_v6 : IVec S1200000x16 1 := cmpf .olt main_v4 main_v5
  let main_c_1 : IVec S_ 1 := constantI S_ 1 1#1
  let main_v7 : IVec S_ 1 := (fun x v => Host.reduce IntOp.andi x v reducesTo_S1200000x16_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S2x1200000 : Shape := ⟨2, ![2, 1200000]⟩
abbrev S1200000x16 : Shape := ⟨2, ![1200000, 16]⟩
abbrev S128x64 : Shape := ⟨2, ![128, 64]⟩
abbrev S64 : Shape := ⟨1, ![64]⟩
abbrev S16x64 : Shape := ⟨2, ![16, 64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S1x64 : Shape := ⟨2, ![1, 64]⟩
abbrev S1200000x64 : Shape := ⟨2, ![1200000, 64]⟩
abbrev S9600x128 : Shape := ⟨2, ![9600, 128]⟩
abbrev S9600x16 : Shape := ⟨2, ![9600, 16]⟩
abbrev S9600x64 : Shape := ⟨2, ![9600, 64]⟩
abbrev S100000x64 : Shape := ⟨2, ![100000, 64]⟩
abbrev S10000x128 : Shape := ⟨2, ![10000, 128]⟩
abbrev S10000x64 : Shape := ⟨2, ![10000, 64]⟩
abbrev S100000x1 : Shape := ⟨2, ![100000, 1]⟩
abbrev S1x1 : Shape := ⟨2, ![1, 1]⟩
abbrev S100000x65 : Shape := ⟨2, ![100000, 65]⟩

abbrev nBuf : Space → Nat
  | .hbm => 94
  | .vmem => 54
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S1200000x16, .f32⟩
  | .hbm, ⟨3, _⟩ => ⟨S128x64, .f32⟩
  | .hbm, ⟨4, _⟩ => ⟨S64, .f32⟩
  | .hbm, ⟨5, _⟩ => ⟨S16x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S16x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S16x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x1, .f32⟩
  | .hbm, ⟨22, _⟩ => ⟨S1, .f32⟩
  | .hbm, ⟨23, _⟩ => ⟨S1x1200000, .i32⟩
  | .hbm, ⟨24, _⟩ => ⟨S1200000, .i32⟩
  | .hbm, ⟨25, _⟩ => ⟨S1x1200000, .i32⟩
  | .hbm, ⟨26, _⟩ => ⟨S1200000, .i32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x128, .f32⟩
  | .hbm, ⟨36, _⟩ => ⟨S1x64, .f32⟩
  | .hbm, ⟨37, _⟩ => ⟨S1x64, .f32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1200000x64, .f32⟩
  | .hbm, ⟨54, _⟩ => ⟨S1x64, .f32⟩
  | .hbm, ⟨55, _⟩ => ⟨S1x64, .f32⟩
  | .hbm, ⟨56, _⟩ => ⟨S1200000x64, .f32⟩
  | .hbm, ⟨57, _⟩ => ⟨S_, .f32⟩
  | .hbm, ⟨58, _⟩ => ⟨S100000x64, .f32⟩
  | .hbm, ⟨59, _⟩ => ⟨S1200000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1200000, .i32⟩
  | .hbm, ⟨65, _⟩ => ⟨S1200000, .i1⟩
  | .hbm, ⟨66, _⟩ => ⟨S_, .i32⟩
  | .hbm, ⟨67, _⟩ => ⟨S1200000, .i32⟩
  | .hbm, ⟨68, _⟩ => ⟨S1200000, .i32⟩
  | .hbm, ⟨69, _⟩ => ⟨S1200000, .i32⟩
  | .hbm, ⟨70, _⟩ => ⟨S1200000x1, .i32⟩
  | .hbm, ⟨71, _⟩ => ⟨S1200000x64, .f32⟩
  | .hbm, ⟨72, _⟩ => ⟨S1x64, .f32⟩
  | .hbm, ⟨73, _⟩ => ⟨S1x64, .f32⟩
  | .hbm, ⟨74, _⟩ => ⟨S1200000x64, .f32⟩
  | .hbm, ⟨75, _⟩ => ⟨S_, .f32⟩
  | .hbm, ⟨76, _⟩ => ⟨S100000x64, .f32⟩
  | .hbm, ⟨77, _⟩ => ⟨S1200000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | .hbm, ⟨85, _⟩ => ⟨S100000x1, .f32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x65, .f32⟩
  | .local _ .vmem, ⟨0, _⟩ => ⟨S9600x128, .f32⟩
  | .local _ .vmem, ⟨1, _⟩ => ⟨S9600x128, .f32⟩
  | .local _ .vmem, ⟨2, _⟩ => ⟨S9600x16, .f32⟩
  | .local _ .vmem, ⟨3, _⟩ => ⟨S9600x16, .f32⟩
  | .local _ .vmem, ⟨4, _⟩ => ⟨S128x64, .f32⟩
  | .local _ .vmem, ⟨5, _⟩ => ⟨S1x64, .f32⟩
  | .local _ .vmem, ⟨6, _⟩ => ⟨S16x64, .f32⟩
  | .local _ .vmem, ⟨7, _⟩ => ⟨S1x64, .f32⟩
  | .local _ .vmem, ⟨8, _⟩ => ⟨S9600x64, .f32⟩
  | .local _ .vmem, ⟨9, _⟩ => ⟨S9600x64, .f32⟩
  | .local _ .vmem, ⟨10, _⟩ => ⟨S10000x128, .f32⟩
  | .local _ .vmem, ⟨11, _⟩ => ⟨S10000x128, .f32⟩
  | .local _ .vmem, ⟨12, _⟩ => ⟨S10000x64, .f32⟩
  | .local _ .vmem, ⟨13, _⟩ => ⟨S10000x64, .f32⟩
  | .local _ .vmem, ⟨14, _⟩ => ⟨S128x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S9600x64, .f32⟩
  | .local _ .vmem, ⟨19, _⟩ => ⟨S9600x64, .f32⟩
  | .local _ .vmem, ⟨20, _⟩ => ⟨S9600x16, .f32⟩
  | .local _ .vmem, ⟨21, _⟩ => ⟨S9600x16, .f32⟩
  | .local _ .vmem, ⟨22, _⟩ => ⟨S64x64, .f32⟩
  | .local _ .vmem, ⟨23, _⟩ => ⟨S1x64, .f32⟩
  | .local _ .vmem, ⟨24, _⟩ => ⟨S16x64, .f32⟩
  | .local _ .vmem, ⟨25, _⟩ => ⟨S1x64, .f32⟩
  | .local _ .vmem, ⟨26, _⟩ => ⟨S9600x64, .f32⟩
  | .local _ .vmem, ⟨27, _⟩ => ⟨S9600x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S9600x64, .f32⟩
  | .local _ .vmem, ⟨37, _⟩ => ⟨S9600x64, .f32⟩
  | .local _ .vmem, ⟨38, _⟩ => ⟨S9600x16, .f32⟩
  | .local _ .vmem, ⟨39, _⟩ => ⟨S9600x16, .f32⟩
  | .local _ .vmem, ⟨40, _⟩ => ⟨S64x64, .f32⟩
  | .local _ .vmem, ⟨41, _⟩ => ⟨S1x64, .f32⟩
  | .local _ .vmem, ⟨42, _⟩ => ⟨S16x64, .f32⟩
  | .local _ .vmem, ⟨43, _⟩ => ⟨S1x64, .f32⟩
  | .local _ .vmem, ⟨44, _⟩ => ⟨S9600x64, .f32⟩
  | .local _ .vmem, ⟨45, _⟩ => ⟨S9600x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9600x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S9600x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S9600x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S9600x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S9600x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S9600x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S9600x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S16x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S9600x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S64_S1x64 : S64.ShapeCasts S1x64
  inb_S9600x128_S9600x128_0_0 : ∀ a, (![0, 0] : Fin 2 → Nat) a + S9600x128.size a ≤ S9600x128.size a
  h_S9600x128 : 0 < S9600x128.numel
  shapeCasts_S9600x128_S9600x128 : S9600x128.ShapeCasts S9600x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S9600x16_S9600x16_0_0 : ∀ a, (![0, 0] : Fin 2 → Nat) a + S9600x16.size a ≤ S9600x16.size a
  h_S9600x16 : 0 < S9600x16.numel
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S9600x64 : S1x64.Broadcasts S9600x64
  inb_S9600x64_S9600x64_0_0 : ∀ a, (![0, 0] : Fin 2 → Nat) a + S9600x64.size a ≤ S9600x64.size a
  h_S9600x64 : 0 < S9600x64.numel
  bcast_S_S100000x64 : S_.BroadcastsInDim S100000x64 (![] : Fin 0 → Fin S100000x64.rank)
  inb_S10000x128_S10000x128_0_0 : ∀ a, (![0, 0] : Fin 2 → Nat) a + S10000x128.size a ≤ S10000x128.size a
  h_S10000x128 : 0 < S10000x128.numel
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S9600x64_S9600x64 : S9600x64.ShapeCasts S9600x64
  inb_S64x64_S64x64_0_0 : ∀ a, (![0, 0] : Fin 2 → Nat) a + S64x64.size a ≤ S64x64.size a
  h_S64x64 : 0 < S64x64.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  concatenates_S100000x64_S100000x1_S100000x65_d1 : Shape.Concatenates [S100000x64, S100000x1] S100000x65 1
  gather_S100000x128_S1200000x1_S1200000x128_1_0_n_n_0_1_1128_wf : GatherDims.WF S100000x128 S1200000x1 S1200000x128 [1] [0] [] [0] [] 1 ![1, 128]
  dot_S9600x128_S128x64_S9600x64_1_0_0_1_n_n_wf : DotDims.WF S9600x128 S128x64 S9600x64 [1] [0] [0] [1] [] []
  dot_S9600x16_S16x64_S9600x64_1_0_0_1_n_n_wf : DotDims.WF S9600x16 S16x64 S9600x64 [1] [0] [0] [1] [] []
  scatter_S100000x64_S1200000x1_S1200000x64_1_0_0_1_wf : ScatterDims.WF S100000x64 S1200000x1 S1200000x64 [1] [0] [0] 1
  dot_S10000x128_S128x64_S10000x64_1_0_0_1_n_n_wf : DotDims.WF S10000x128 S128x64 S10000x64 [1] [0] [0] [1] [] []
  gather_S100000x64_S1200000x1_S1200000x64_1_0_n_n_0_1_164_wf : GatherDims.WF S100000x64 S1200000x1 S1200000x64 [1] [0] [] [0] [] 1 ![1, 64]
  dot_S9600x64_S64x64_S9600x64_1_0_0_1_n_n_wf : DotDims.WF S9600x64 S64x64 S9600x64 [1] [0] [0] [1] [] []
  dot_S10000x64_S64x64_S10000x64_1_0_0_1_n_n_wf : DotDims.WF S10000x64 S64x64 S10000x64 [1] [0] [0] [1] [] []
  dot_S100000x64_S64x1_S100000x1_1_0_0_1_n_n_wf : DotDims.WF S100000x64 S64x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9600x128.size a ≤ S1200000x128.size a
  hwx0_0 : ∀ i : grid0.Coords, EltTy.bits .f32 = 32 ∨ (Rect.block (s := S1200000x128) S9600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9600x16.size a ≤ S1200000x16.size a
  hwx0_1 : ∀ i : grid0.Coords, EltTy.bits .f32 = 32 ∨ (Rect.block (s := S1200000x16) S9600x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S9600x64.size a ≤ S1200000x64.size a
  hwx0_6 : ∀ i : grid0.Coords, EltTy.bits .f32 = 32 ∨ (Rect.block (s := S1200000x64) S9600x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S9600x64.size a ≤ S1200000x64.size a
  hwx2_0 : ∀ i : grid2.Coords, EltTy.bits .f32 = 32 ∨ (Rect.block (s := S1200000x64) S9600x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S9600x16.size a ≤ S1200000x16.size a
  hwx2_1 : ∀ i : grid2.Coords, EltTy.bits .f32 = 32 ∨ (Rect.block (s := S1200000x16) S9600x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x64.size a ≤ S16x64.size a
  hwx2_4 : ∀ i : grid2.Coords, EltTy.bits .f32 = 32 ∨ (Rect.block (s := S16x64) S16x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S9600x64.size a ≤ S1200000x64.size a
  hwx2_6 : ∀ i : grid2.Coords, EltTy.bits .f32 = 32 ∨ (Rect.block (s := S1200000x64) S9600x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S9600x64.size a ≤ S1200000x64.size a
  hwx4_0 : ∀ i : grid4.Coords, EltTy.bits .f32 = 32 ∨ (Rect.block (s := S1200000x64) S9600x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S9600x16.size a ≤ S1200000x16.size a
  hwx4_1 : ∀ i : grid4.Coords, EltTy.bits .f32 = 32 ∨ (Rect.block (s := S1200000x16) S9600x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S16x64.size a ≤ S16x64.size a
  hwx4_4 : ∀ i : grid4.Coords, EltTy.bits .f32 = 32 ∨ (Rect.block (s := S16x64) S16x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S9600x64.size a ≤ S1200000x64.size a
  hwx4_6 : ∀ i : grid4.Coords, EltTy.bits .f32 = 32 ∨ (Rect.block (s := S1200000x64) S9600x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)

variable [Facts₀]

def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def dot_S9600x128_S128x64_S9600x64_1_0_0_1_n_n : DotDims S9600x128 S128x64 S9600x64 where
  lhsContracting := [1]
  rhsContracting := [0]
  lhsNonContracting := [0]
  rhsNonContracting := [1]
  lhsBatch := []
  rhsBatch := []
  wf := dot_S9600x128_S128x64_S9600x64_1_0_0_1_n_n_wf
def dot_S9600x16_S16x64_S9600x64_1_0_0_1_n_n : DotDims S9600x16 S16x64 S9600x64 where
  lhsContracting := [1]
  rhsContracting := [0]
  lhsNonContracting := [0]
  rhsNonContracting := [1]
  lhsBatch := []
  rhsBatch := []
  wf := dot_S9600x16_S16x64_S9600x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S9600x64_S64x64_S9600x64_1_0_0_1_n_n : DotDims S9600x64 S64x64 S9600x64 where
  lhsContracting := [1]
  rhsContracting := [0]
  lhsNonContracting := [0]
  rhsNonContracting := [1]
  lhsBatch := []
  rhsBatch := []
  wf := dot_S9600x64_S64x64_S9600x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

abbrev win0_0 : Pipeline.Window sig grid0 :=
  Pipeline.Window.ofSpec (Memref.whole main_v10) S9600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9600x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S9600x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S9600x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S9600x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S16x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S9600x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v18) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S9600x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S9600x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S16x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v42) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v43) S9600x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v33) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg19) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v48) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S1200000x16 : Shape := ⟨2, ![1200000, 16]⟩
abbrev S128x64 : Shape := ⟨2, ![128, 64]⟩
abbrev S64 : Shape := ⟨1, ![64]⟩
abbrev S16x64 : Shape := ⟨2, ![16, 64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S1200000x64 : Shape := ⟨2, ![1200000, 64]⟩
abbrev S1x64 : Shape := ⟨2, ![1, 64]⟩
abbrev S100000x64 : Shape := ⟨2, ![100000, 64]⟩
abbrev S100000x1 : Shape := ⟨2, ![100000, 1]⟩
abbrev S1x1 : Shape := ⟨2, ![1, 1]⟩
abbrev S100000x65 : Shape := ⟨2, ![100000, 65]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S2x1200000, .i32⟩
  | 2 => ⟨S1200000x16, .f32⟩
  | 3 => ⟨S128x64, .f32⟩
  | 4 => ⟨S64, .f32⟩
  | 5 => ⟨S16x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S16x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S16x64, .f32⟩
  | 18 => ⟨S64, .f32⟩
  | 19 => ⟨S64x64, .f32⟩
  | 20 => ⟨S64, .f32⟩
  | 21 => ⟨S64x1, .f32⟩
  | 22 => ⟨S1, .f32⟩
  | 23 => ⟨S1x1200000, .i32⟩
  | 24 => ⟨S1200000, .i32⟩
  | 25 => ⟨S1x1200000, .i32⟩
  | 26 => ⟨S1200000, .i32⟩
  | 27 => ⟨S_, .i32⟩
  | 28 => ⟨S1200000, .i32⟩
  | 29 => ⟨S1200000, .i1⟩
  | 30 => ⟨S_, .i32⟩
  | 31 => ⟨S1200000, .i32⟩
  | 32 => ⟨S1200000, .i32⟩
  | 33 => ⟨S1200000, .i32⟩
  | 34 => ⟨S1200000x1, .i32⟩
  | 35 => ⟨S1200000x128, .f32⟩
  | 36 => ⟨S1200000x64, .f32⟩
  | 37 => ⟨S1x64, .f32⟩
  | 38 => ⟨S1200000x64, .f32⟩
  | 39 => ⟨S1200000x64, .f32⟩
  | 40 => ⟨S1200000x64, .f32⟩
  | 41 => ⟨S1200000x64, .f32⟩
  | 42 => ⟨S1x64, .f32⟩
  | 43 => ⟨S1200000x64, .f32⟩
  | 44 => ⟨S1200000x64, .f32⟩
  | 45 => ⟨S_, .f32⟩
  | 46 => ⟨S100000x64, .f32⟩
  | 47 => ⟨S1200000x1, .i32⟩
  | 48 => ⟨S100000x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .i1⟩
  | 57 => ⟨S_, .f32⟩
  | 58 => ⟨S100000x64, .f32⟩
  | 59 => ⟨S100000x64, .i1⟩
  | 60 => ⟨S_, .f32⟩
  | 61 => ⟨S_, .f32⟩
  | 62 => ⟨S100000x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S_, .i32⟩
  | 70 => ⟨S1200000, .i32⟩
  | 71 => ⟨S1200000, .i1⟩
  | 72 => ⟨S_, .i32⟩
  | 73 => ⟨S1200000, .i32⟩
  | 74 => ⟨S1200000, .i32⟩
  | 75 => ⟨S1200000, .i32⟩
  | 76 => ⟨S1200000x1, .i32⟩
  | 77 => ⟨S1200000x64, .f32⟩
  | 78 => ⟨S1200000x64, .f32⟩
  | 79 => ⟨S1x64, .f32⟩
  | 80 => ⟨S1200000x64, .f32⟩
  | 81 => ⟨S1200000x64, .f32⟩
  | 82 => ⟨S1200000x64, .f32⟩
  | 83 => ⟨S1200000x64, .f32⟩
  | 84 => ⟨S1x64, .f32⟩
  | 85 => ⟨S1200000x64, .f32⟩
  | 86 => ⟨S1200000x64, .f32⟩
  | 87 => ⟨S_, .f32⟩
  | 88 => ⟨S100000x64, .f32⟩
  | 89 => ⟨S1200000x1, .i32⟩
  | 90 => ⟨S100000x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .i1⟩
  | 99 => ⟨S_, .f32⟩
  | 100 => ⟨S100000x64, .f32⟩
  | 101 => ⟨S100000x64, .i1⟩
  | 102 => ⟨S_, .f32⟩
  | 103 => ⟨S_, .f32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .i32⟩
  | 112 => ⟨S1200000, .i32⟩
  | 113 => ⟨S1200000, .i1⟩
  | 114 => ⟨S_, .i32⟩
  | 115 => ⟨S1200000, .i32⟩
  | 116 => ⟨S1200000, .i32⟩
  | 117 => ⟨S1200000, .i32⟩
  | 118 => ⟨S1200000x1, .i32⟩
  | 119 => ⟨S1200000x64, .f32⟩
  | 120 => ⟨S1200000x64, .f32⟩
  | 121 => ⟨S1x64, .f32⟩
  | 122 => ⟨S1200000x64, .f32⟩
  | 123 => ⟨S1200000x64, .f32⟩
  | 124 => ⟨S1200000x64, .f32⟩
  | 125 => ⟨S1200000x64, .f32⟩
  | 126 => ⟨S1x64, .f32⟩
  | 127 => ⟨S1200000x64, .f32⟩
  | _ => ⟨S100000x128, .f32⟩

abbrev hbmTy0_1 (i : Nat) : BufTy := match i % 128 with
  | 0 => ⟨S1200000x64, .f32⟩
  | 1 => ⟨S_, .f32⟩
  | 2 => ⟨S100000x64, .f32⟩
  | 3 => ⟨S1200000x1, .i32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .i1⟩
  | 13 => ⟨S_, .f32⟩
  | 14 => ⟨S100000x64, .f32⟩
  | 15 => ⟨S100000x64, .i1⟩
  | 16 => ⟨S_, .f32⟩
  | 17 => ⟨S_, .f32⟩
  | 18 => ⟨S100000x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S100000x1, .f32⟩
  | 26 => ⟨S1x1, .f32⟩
  | 27 => ⟨S100000x1, .f32⟩
  | 28 => ⟨S100000x1, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S100000x65, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_cst_1 : Ref sig .tc := ⟨.hbm, 60, rfl⟩
abbrev main_call0_call0_v0 : Ref sig .tc := ⟨.hbm, 61, rfl⟩
abbrev main_call0_call0_v1 : Ref sig .tc := ⟨.hbm, 62, rfl⟩
abbrev main_call0_v4 : Ref sig .tc := ⟨.hbm, 63, rfl⟩
abbrev main_call0_v5 : Ref sig .tc := ⟨.hbm, 64, rfl⟩
abbrev main_call0_cst_2 : Ref sig .tc := ⟨.hbm, 65, rfl⟩
abbrev main_call0_v6 : Ref sig .tc := ⟨.hbm, 66, rfl⟩
abbrev main_call0_v7 : Ref sig .tc := ⟨.hbm, 67, rfl⟩
abbrev main_v28 : Ref sig .tc := ⟨.hbm, 68, rfl⟩
abbrev main_c_1 : Ref sig .tc := ⟨.hbm, 69, rfl⟩
abbrev main_v29 : Ref sig .tc := ⟨.hbm, 70, rfl⟩
abbrev main_v30 : Ref sig .tc := ⟨.hbm, 71, rfl⟩
abbrev main_c_2 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_3 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_cst_1 : Ref sig .tc := ⟨.hbm, 102, rfl⟩
abbrev main_call1_call0_v0 : Ref sig .tc := ⟨.hbm, 103, rfl⟩
abbrev main_call1_call0_v1 : Ref sig .tc := ⟨.hbm, 104, rfl⟩
abbrev main_call1_v4 : Ref sig .tc := ⟨.hbm, 105, rfl⟩
abbrev main_call1_v5 : Ref sig .tc := ⟨.hbm, 106, rfl⟩
abbrev main_call1_cst_2 : Ref sig .tc := ⟨.hbm, 107, rfl⟩
abbrev main_call1_v6 : Ref sig .tc := ⟨.hbm, 108, rfl⟩
abbrev main_call1_v7 : Ref sig .tc := ⟨.hbm, 109, rfl⟩
abbrev main_v53 : Ref sig .tc := ⟨.hbm, 110, rfl⟩
abbrev main_c_4 : Ref sig .tc := ⟨.hbm, 111, rfl⟩
abbrev main_v54 : Ref sig .tc := ⟨.hbm, 112, rfl⟩
abbrev main_v55 : Ref sig .tc := ⟨.hbm, 113, rfl⟩
abbrev main_c_5 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_6 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_cst_1 : Ref sig .tc := ⟨.hbm, 144, rfl⟩
abbrev main_call2_call0_v0 : Ref sig .tc := ⟨.hbm, 145, rfl⟩
abbrev main_call2_call0_v1 : Ref sig .tc := ⟨.hbm, 146, rfl⟩
abbrev main_call2_v4 : Ref sig .tc := ⟨.hbm, 147, rfl⟩
abbrev main_call2_v5 : Ref sig .tc := ⟨.hbm, 148, rfl⟩
abbrev main_call2_cst_2 : Ref sig .tc := ⟨.hbm, 149, rfl⟩
abbrev main_call2_v6 : Ref sig .tc := ⟨.hbm, 150, rfl⟩
abbrev main_call2_v7 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_cst_7 : Ref sig .tc := ⟨.hbm, 159, rfl⟩
abbrev main_v85 : Ref sig .tc := ⟨.hbm, 160, rfl⟩
abbrev main_v86 : Ref sig .tc := ⟨.hbm, 161, rfl⟩
abbrev main_cst_8 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  concatenates_S100000x64_S100000x1_S100000x65_d1 : Shape.Concatenates [S100000x64, S100000x1] S100000x65 1
  gather_S100000x128_S1200000x1_S1200000x128_1_0_n_n_0_1_1128_wf : GatherDims.WF S100000x128 S1200000x1 S1200000x128 [1] [0] [] [0] [] 1 ![1, 128]
  dot_S1200000x128_S128x64_S1200000x64_1_0_0_1_n_n_wf : DotDims.WF S1200000x128 S128x64 S1200000x64 [1] [0] [0] [1] [] []
  dot_S1200000x16_S16x64_S1200000x64_1_0_0_1_n_n_wf : DotDims.WF S1200000x16 S16x64 S1200000x64 [1] [0] [0] [1] [] []
  scatter_S100000x64_S1200000x1_S1200000x64_1_0_0_1_wf : ScatterDims.WF S100000x64 S1200000x1 S1200000x64 [1] [0] [0] 1
  dot_S100000x128_S128x64_S100000x64_1_0_0_1_n_n_wf : DotDims.WF S100000x128 S128x64 S100000x64 [1] [0] [0] [1] [] []
  gather_S100000x64_S1200000x1_S1200000x64_1_0_n_n_0_1_164_wf : GatherDims.WF S100000x64 S1200000x1 S1200000x64 [1] [0] [] [0] [] 1 ![1, 64]
  dot_S1200000x64_S64x64_S1200000x64_1_0_0_1_n_n_wf : DotDims.WF S1200000x64 S64x64 S1200000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def dot_S1200000x16_S16x64_S1200000x64_1_0_0_1_n_n : DotDims S1200000x16 S16x64 S1200000x64 where
  lhsContracting := [1]
  rhsContracting := [0]
  lhsNonContracting := [0]
  rhsNonContracting := [1]
  lhsBatch := []
  rhsBatch := []
  wf := dot_S1200000x16_S16x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.GraphConv.lean ====
/-
  ONE LAYER OF THE GRAPH CONVOLUTION, entry by entry, at the extended reals.

  An edge's message is the sum of two affine layers: the gathered source row against the message weights plus the
  message bias, and the edge's attribute row against the edge weights plus the edge bias. A node's update is the
  exponential linear unit of the aggregated messages plus an affine layer of the node's own row. Both programs add the
  four summands of a message as ((a + bm) + s) + be, which is (a + bm) + (s + be) by associativity of the sum of
  extended reals (no summand has to be finite for that); the node's sum is agg + (p + bs) in the kernel and
  (agg + p) + bs in the reference, equal for the same reason.

  * `elu`: y where y > 0, else exp y - 1 (the unit as the f32 word of 1.0, the threshold as the f32 word of 0.0);
  * `edge`, `node`: the two stages entry by entry over `Cert.Lib.Dense.affine`;
  * `edge_congr`, `node_congr`: an entry of row r looks only at row r of the row-indexed operands, so a block of rows
    gives the entries of the whole arrays at the block's rows;
  * `HostStages`, `Inputs`, `layer128`, `layer64`, `h1`, `feat`, `h3`, `logits`, `out0`, `out1`, `out2`: the three layers and the
    three results over the irregular host stages, which enter as parameters.
-/
import Idealize.ShloMosaic.PureOps.Ideal.Laws
import Idealize.ShloMosaic.Lib.ValueIdx
import Idealize.ShloMosaic.Lib.Pipeline.Value
import proofs.«168661_j64132451664027_1_alg».proof.Proof.LibDense

noncomputable section
namespace Cert.GraphConv
open Idealize.ShloMosaic
open Idealize.ShloMosaic.ValueIdx
open Cert.Lib.Dense

/-- The exponential linear unit with unit scale. -/
def elu (y : EReal) : EReal :=
  Scalar.select (FloatOps.cmpf (F := Ideal) (φ := .f32) .ogt y (Scalar.ofBits .f32 0x00000000#32)) y
    (FloatOps.subf (F := Ideal) (φ := .f32) (FloatOps.exp (F := Ideal) (φ := .f32) y) (Scalar.ofBits .f32 0x3F800000#32))

/-- An edge's message, entry by entry. -/
def edge {M K : Nat} (X : (⟨2, ![M, K]⟩ : Shape).Idx → EReal) (E : (⟨2, ![M, 16]⟩ : Shape).Idx → EReal)
    (Wm : (⟨2, ![K, 64]⟩ : Shape).Idx → EReal) (Bm : (⟨2, ![1, 64]⟩ : Shape).Idx → EReal)
    (We : (⟨2, ![16, 64]⟩ : Shape).Idx → EReal) (Be : (⟨2, ![1, 64]⟩ : Shape).Idx → EReal) :
    (⟨2, ![M, 64]⟩ : Shape).Idx → EReal :=
  fun j => affine X Wm Bm j + affine E We Be j

/-- A node's update, entry by entry. -/
def node {M K : Nat} (H : (⟨2, ![M, K]⟩ : Shape).Idx → EReal) (A : (⟨2, ![M, 64]⟩ : Shape).Idx → EReal)
    (Ws : (⟨2, ![K, 64]⟩ : Shape).Idx → EReal) (Bs : (⟨2, ![1, 64]⟩ : Shape).Idx → EReal) :
    (⟨2, ![M, 64]⟩ : Shape).Idx → EReal :=
  fun j => elu (A j + affine H Ws Bs j)

theorem edge_congr {Mb M K : Nat} (xb : (⟨2, ![Mb, K]⟩ : Shape).Idx → EReal) (X : (⟨2, ![M, K]⟩ : Shape).Idx → EReal)
    (eb : (⟨2, ![Mb, 16]⟩ : Shape).Idx → EReal) (E : (⟨2, ![M, 16]⟩ : Shape).Idx → EReal)
    (wm Wm : (⟨2, ![K, 64]⟩ : Shape).Idx → EReal) (bm Bm : (⟨2, ![1, 64]⟩ : Shape).Idx → EReal)
    (we We : (⟨2, ![16, 64]⟩ : Shape).Idx → EReal) (be Be : (⟨2, ![1, 64]⟩ : Shape).Idx → EReal)
    (y : (⟨2, ![Mb, 64]⟩ : Shape).Idx) (i : (⟨2, ![M, 64]⟩ : Shape).Idx) (h1 : (y 1).val = (i 1).val)
    (hx : ∀ k : Fin K, xb (ix2 (y 0) k) = X (ix2 (i 0) k)) (he : ∀ k : Fin 16, eb (ix2 (y 0) k) = E (ix2 (i 0) k))
    (hwm : wm = Wm) (hbm : bm = Bm) (hwe : we = We) (hbe : be = Be) :
    edge xb eb wm bm we be y = edge X E Wm Bm We Be i := by
  subst hwm hbm hwe hbe
  have e1 : y 1 = i 1 := Fin.ext h1
  unfold edge
  rw [affine_congr xb X wm wm bm bm y i hx (fun k => by rw [e1]) (by rw [e1]),
    affine_congr eb E we we be be y i he (fun k => by rw [e1]) (by rw [e1])]

theorem node_congr {Mb M K : Nat} (hb : (⟨2, ![Mb, K]⟩ : Shape).Idx → EReal) (H : (⟨2, ![M, K]⟩ : Shape).Idx → EReal)
    (ab : (⟨2, ![Mb, 64]⟩ : Shape).Idx → EReal) (A : (⟨2, ![M, 64]⟩ : Shape).Idx → EReal)
    (ws Ws : (⟨2, ![K, 64]⟩ : Shape).Idx → EReal) (bs Bs : (⟨2, ![1, 64]⟩ : Shape).Idx → EReal)
    (y : (⟨2, ![Mb, 64]⟩ : Shape).Idx) (i : (⟨2, ![M, 64]⟩ : Shape).Idx) (h1 : (y 1).val = (i 1).val)
    (hh : ∀ k : Fin K, hb (ix2 (y 0) k) = H (ix2 (i 0) k)) (ha : ab y = A i)
    (hws : ws = Ws) (hbs : bs = Bs) :
    node hb ab ws bs y = node H A Ws Bs i := by
  subst hws hbs
  have e1 : y 1 = i 1 := Fin.ext h1
  unfold node
  rw [ha, affine_congr hb H ws ws bs bs y i hh (fun k => by rw [e1]) (by rw [e1])]

/-! ## The whole network over its irregular host stages

The gather of source rows, the scatter-add over destination rows, the index preparation and the three closing host
operations are the same operations in both programs; they enter as parameters. -/

abbrev Arr (r c : Nat) : Type := (⟨2, ![r, c]⟩ : Shape).Idx → EReal
abbrev Row (n : Nat) : Type := (⟨1, ![n]⟩ : Shape).Idx → EReal
abbrev EdgeIdx : Type := (⟨2, ![2, 1200000]⟩ : Shape).Idx → BitVec 32
abbrev RowIdx : Type := (⟨2, ![1200000, 1]⟩ : Shape).Idx → BitVec 32

/-- The irregular and the closing host stages. -/
structure HostStages where
  src : EdgeIdx → RowIdx
  dst : EdgeIdx → RowIdx
  gather128 : Arr 100000 128 → RowIdx → Arr 1200000 128
  gather64 : Arr 100000 64 → RowIdx → Arr 1200000 64
  zero : Arr 100000 64
  scatter : Arr 100000 64 → RowIdx → Arr 1200000 64 → Arr 100000 64
  logit : Arr 100000 64 → Arr 64 1 → Row 1 → Arr 100000 1
  sigm : Arr 100000 1 → Arr 100000 1
  cat : Arr 100000 64 → Arr 100000 1 → Arr 100000 65

/-- The network's arguments. -/
structure Inputs where
  x : Arr 100000 128
  ei : EdgeIdx
  ea : Arr 1200000 16
  Wm1 : Arr 128 64
  bm1 : Row 64
  We1 : Arr 16 64
  be1 : Row 64
  Ws1 : Arr 128 64
  bs1 : Row 64
  Wm2 : Arr 64 64
  bm2 : Row 64
  We2 : Arr 16 64
  be2 : Row 64
  Ws2 : Arr 64 64
  bs2 : Row 64
  Wm3 : Arr 64 64
  bm3 : Row 64
  We3 : Arr 16 64
  be3 : Row 64
  Ws3 : Arr 64 64
  bs3 : Row 64
  Wl : Arr 64 1
  bl : Row 1

/-- The messages of the first layer (rows of 128 features). -/
def msg128 (o : HostStages) (h : Arr 100000 128) (ei : EdgeIdx) (ea : Arr 1200000 16) (Wm : Arr 128 64) (bm : Row 64)
    (We : Arr 16 64) (be : Row 64) : Arr 1200000 64 :=
  edge (o.gather128 h (o.src ei)) ea Wm (biasRow bm) We (biasRow be)

/-- The messages of a later layer (rows of 64 features). -/
def msg64 (o : HostStages) (h : Arr 100000 64) (ei : EdgeIdx) (ea : Arr 1200000 16) (Wm : Arr 64 64) (bm : Row 64)
    (We : Arr 16 64) (be : Row 64) : Arr 1200000 64 :=
  edge (o.gather64 h (o.src ei)) ea Wm (biasRow bm) We (biasRow be)

/-- The messages summed at their destination rows. -/
def agg (o : HostStages) (ei : EdgeIdx) (msg : Arr 1200000 64) : Arr 100000 64 := o.scatter o.zero (o.dst ei) msg

def layer128 (o : HostStages) (h : Arr 100000 128) (ei : EdgeIdx) (ea : Arr 1200000 16) (Wm : Arr 128 64) (bm : Row 64)
    (We : Arr 16 64) (be : Row 64) (Ws : Arr 128 64) (bs : Row 64) : Arr 100000 64 :=
  node h (agg o ei (msg128 o h ei ea Wm bm We be)) Ws (biasRow bs)

def layer64 (o : HostStages) (h : Arr 100000 64) (ei : EdgeIdx) (ea : Arr 1200000 16) (Wm : Arr 64 64) (bm : Row 64)
    (We : Arr 16 64) (be : Row 64) (Ws : Arr 64 64) (bs : Row 64) : Arr 100000 64 :=
  node h (agg o ei (msg64 o h ei ea Wm bm We be)) Ws (biasRow bs)

def h1 (o : HostStages) (p : Inputs) : Arr 100000 64 := layer128 o p.x p.ei p.ea p.Wm1 p.bm1 p.We1 p.be1 p.Ws1 p.bs1
def feat (o : HostStages) (p : Inputs) : Arr 100000 64 := layer64 o (h1 o p) p.ei p.ea p.Wm2 p.bm2 p.We2 p.be2 p.Ws2 p.bs2
def h3 (o : HostStages) (p : Inputs) : Arr 100000 64 := layer64 o (feat o p) p.ei p.ea p.Wm3 p.bm3 p.We3 p.be3 p.Ws3 p.bs3
def logits (o : HostStages) (p : Inputs) : Arr 100000 1 := o.logit (h3 o p) p.Wl p.bl
/-- The three results: the squashed logit, the second layer's features, the features beside the logit. -/
def out0 (o : HostStages) (p : Inputs) : Arr 100000 1 := o.sigm (logits o p)
def out1 (o : HostStages) (p : Inputs) : Arr 100000 64 := feat o p
def out2 (o : HostStages) (p : Inputs) : Arr 100000 65 := o.cat (feat o p) (logits o p)

end Cert.GraphConv
-- ==== Proof.KernelStages.lean ====
/-
  The irregular and the closing host stages of the graph convolution as this program spells them, and the program's
  arguments read off a memory: what `Cert.GraphConv`'s network is instantiated at.

  The source index of an edge is wrapped once when negative (an index below zero counts from the end of the 100000
  rows) before the row gather; the destination index is used as it is by the scatter-add, over a zero array. The
  logit is the last layer against the [64, 1] weight plus the scalar bias; the first result is 1 / (1 + exp (-logit)).
-/
import proofs.«168661_j64132451664027_1_alg».proof.Proof.Gen.KernelIdeal
import proofs.«168661_j64132451664027_1_alg».proof.Proof.GraphConv

noncomputable section
namespace Cert.KernelIdeal.Net
open Cert.KernelIdeal Cert.KernelIdeal.Gen
open Idealize.ShloMosaic Idealize.ShloMosaic.TcCoe Idealize.SL.Sem
open Cert.GraphConv (Arr Row EdgeIdx RowIdx HostStages Inputs)

/-- Row `r` of the [2, 1200000] edge list, as a vector of 1200000 indices. -/
def edgeRow0 (ei : EdgeIdx) : IVec S1200000 32 :=
  shapeCast S1200000 (extractStridedSlice S1x1200000 ![0, 0] ei slices_S2x1200000_S1x1200000_0_0) shapeCasts_S1x1200000_S1200000
def edgeRow1 (ei : EdgeIdx) : IVec S1200000 32 :=
  shapeCast S1200000 (extractStridedSlice S1x1200000 ![1, 0] ei slices_S2x1200000_S1x1200000_1_0) shapeCasts_S1x1200000_S1200000

/-- A negative index wrapped by the row count, then made a column of start indices. -/
def wrapIdx (b : IVec S1200000 32) : RowIdx :=
  broadcastInDim S1200000x1 ![0] bcast_S1200000_S1200000x1_0
    (select (cmpi .slt b (broadcastInDim S1200000 ![] bcast_S_S1200000 (constantI S_ 32 0#32)))
      (addi b (broadcastInDim S1200000 ![] bcast_S_S1200000 (constantI S_ 32 100000#32))) b)

def colIdx (b : IVec S1200000 32) : RowIdx := broadcastInDim S1200000x1 ![0] bcast_S1200000_S1200000x1_0 b

def logitOf (h : Arr 100000 64) (Wl : Arr 64 1) (bl : Row 1) : Arr 100000 1 :=
  addf (F := Ideal) (φ := .f32) (Host.dotGeneral (F := Ideal) (φ₁ := .f32) (φ₂ := .f32) dot_S100000x64_S64x1_S100000x1_1_0_0_1_n_n none h Wl)
    (broadcastInDim S100000x1 ![0, 1] bcast_S1x1_S100000x1_0_1 (broadcastInDim S1x1 ![1] bcast_S1_S1x1_1 bl))

def sigmOf (z : Arr 100000 1) : Arr 100000 1 :=
  Host.divf (F := Ideal) (φ := .f32) (broadcastInDim S100000x1 ![] bcast_S_S100000x1 (constant (F := Ideal) S_ .f32 0x3F800000#32))
    (addf (F := Ideal) (φ := .f32) (broadcastInDim S100000x1 ![] bcast_S_S100000x1 (constant (F := Ideal) S_ .f32 0x3F800000#32))
      (Host.exp (F := Ideal) (φ := .f32) (Host.negf (F := Ideal) (φ := .f32) z)))

def catOf (a : Arr 100000 64) (b : Arr 100000 1) : Arr 100000 65 :=
  concatenate S100000x65 1 [⟨S100000x64, a⟩, ⟨S100000x1, b⟩] concatenates_S100000x64_S100000x1_S100000x65_d1

/-- The host stages as this program spells them. -/
def stages : HostStages where
  src ei := wrapIdx (edgeRow0 ei)
  dst ei := colIdx (edgeRow1 ei)
  gather128 x i := Host.gather gather_S100000x128_S1200000x1_S1200000x128_1_0_n_n_0_1_1128 x i
  gather64 x i := Host.gather gather_S100000x64_S1200000x1_S1200000x64_1_0_n_n_0_1_164 x i
  zero := broadcastInDim S100000x64 ![] bcast_S_S100000x64 (constant (F := Ideal) S_ .f32 0x00000000#32)
  scatter x i u := Host.scatterAdd (F := Ideal) (φ := .f32) scatter_S100000x64_S1200000x1_S1200000x64_1_0_0_1 x i u
  logit := logitOf
  sigm := sigmOf
  cat := catOf

/-- The program's arguments on core `c` of a memory. -/
def inputs (m : (ℓ : Loc nD τ sig) → Buf (Elt Ideal) ℓ) (c : Dev nD) : Inputs where
  x := m ((c.tc : Thread nD τ).loc main_arg0)
  ei := m ((c.tc : Thread nD τ).loc main_arg1)
  ea := m ((c.tc : Thread nD τ).loc main_arg2)
  Wm1 := m ((c.tc : Thread nD τ).loc main_arg3)
  bm1 := m ((c.tc : Thread nD τ).loc main_arg4)
  We1 := m ((c.tc : Thread nD τ).loc main_arg5)
  be1 := m ((c.tc : Thread nD τ).loc main_arg6)
  Ws1 := m ((c.tc : Thread nD τ).loc main_arg7)
  bs1 := m ((c.tc : Thread nD τ).loc main_arg8)
  Wm2 := m ((c.tc : Thread nD τ).loc main_arg9)
  bm2 := m ((c.tc : Thread nD τ).loc main_arg10)
  We2 := m ((c.tc : Thread nD τ).loc main_arg11)
  be2 := m ((c.tc : Thread nD τ).loc main_arg12)
  Ws2 := m ((c.tc : Thread nD τ).loc main_arg13)
  bs2 := m ((c.tc : Thread nD τ).loc main_arg14)
  Wm3 := m ((c.tc : Thread nD τ).loc main_arg15)
  bm3 := m ((c.tc : Thread nD τ).loc main_arg16)
  We3 := m ((c.tc : Thread nD τ).loc main_arg17)
  be3 := m ((c.tc : Thread nD τ).loc main_arg18)
  Ws3 := m ((c.tc : Thread nD τ).loc main_arg19)
  bs3 := m ((c.tc : Thread nD τ).loc main_arg20)
  Wl := m ((c.tc : Thread nD τ).loc main_arg21)
  bl := m ((c.tc : Thread nD τ).loc main_arg22)

end Cert.KernelIdeal.Net
-- ==== Proof.EdgeValue4.lean ====
/-
  REGION 4 (an edge-message kernel): the array its output window leaves is the message array entry by entry.

  At a block index y the body stores ((x·Wm + bm) + e·We) + be, where x is a block of 9600 edge rows of 64 features,
  e the same rows of the 16 edge attributes, and the weights and the two bias rows are whole. A change of float format
  is the identity at the extended reals, a block product into a zero accumulator is the sum over the contracted
  coordinate, and a [1, 64] row repeated down the block reads as its entry of the column; so the stored value is the
  sum of the two affine layers, (x·Wm + bm) + (e·We + be), by associativity of the sum of extended reals (`pay_eq`).
  The grid has 125 points; at point t the row-indexed windows (x, e and the output) sit at block row t and block
  column 0, the whole windows at block (0, 0) (`idx_facts`, decided over the grid). A block's coordinate is
  index × size + the coordinate inside the block, so what point t writes back is the block of rows 9600 t … 9600 t + 9599
  of the message array of the whole operands (`flushed_eq`: an entry of row r looks only at row r of x and e).
  Row r of the output is in the block of point r / 9600 and every column is in every block (125 × 9600 = 1200000), so
  the blocks cover the array (`cover`), and the array after the last point is the message array (`final`).
-/
import proofs.«168661_j64132451664027_1_alg».proof.Proof.Gen.KernelIdeal.Frame
import proofs.«168661_j64132451664027_1_alg».proof.Proof.GraphConv

set_option maxRecDepth 16384
noncomputable section
namespace Cert.KernelIdeal.EdgeValue4
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- A row-major block product into a zero accumulator, read at an entry, whatever the operands' float formats: the sum
    over the contracted coordinate of the products of row `j 0` of the left operand with column `j 1` of the right. -/
private theorem matmul_plain (M K N : Nat) {φ₁ φ₂ : FTy} (prec : Option ContractPrecision)
    (X : FVec Ideal ⟨2, ![M, K]⟩ φ₁) (W : FVec Ideal ⟨2, ![K, N]⟩ φ₂) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (Cert.Lib.Dense.ce M K N).symm]
  exact Finset.sum_congr rfl fun k _ => by rw [Cert.Lib.Dense.plain_lhsIdx, Cert.Lib.Dense.plain_rhsIdx]

/-- A [1, N] row repeated down M rows reads, at an entry, as the row's entry of that column. -/
private theorem bias_row {M N : Nat} (b : FVec Ideal ⟨2, ![1, N]⟩ .f32) (bt : (⟨2, ![1, N]⟩ : Shape).Broadcasts ⟨2, ![M, N]⟩)
    (y : (⟨2, ![M, N]⟩ : Shape).Idx) : broadcastTo ⟨2, ![M, N]⟩ b bt y = b (ix2 0 (y 1)) := by
  rw [broadcastTo_apply b bt y (ix2 0 (y 1))]
  intro a
  match a with
  | ⟨0, _⟩ => simp
  | ⟨1, _⟩ =>
    show (y 1).val = if N = 1 then 0 else (y 1).val
    split_ifs with h
    · have := (y 1).isLt; simp at this; omega
    · rfl

/-- The body's stored value at a block index is the edge message of the blocks: ((a + bm) + s) + be = (a + bm) + (s + be). -/
private theorem pay_eq (x : Vec Ideal S9600x64 .f32) (wm : Vec Ideal S64x64 .f32) (e : Vec Ideal S9600x16 .f32)
    (we : Vec Ideal S16x64 .f32) (bm be : Vec Ideal S1x64 .f32) (y : S9600x64.Idx) :
    k4_pay1 x wm e we bm be y = Cert.GraphConv.edge x e wm bm we be y := by
  unfold k4_pay1
  rw [shapeCast_self, shapeCast_self, shapeCast_self]
  show ((FloatOps.matmul (F := Ideal) (DotDims.plain 9600 64 64) none (truncf .bf16 x bitsLt_bf16_f32) (truncf .bf16 wm bitsLt_bf16_f32) (constant _ .f32 0x00000000#32) y
        + broadcastTo S9600x64 bm broadcasts_S1x64_S9600x64 y)
      + FloatOps.matmul (F := Ideal) (DotDims.plain 9600 16 64) none (truncf .bf16 e bitsLt_bf16_f32) (truncf .bf16 we bitsLt_bf16_f32) (constant _ .f32 0x00000000#32) y)
      + broadcastTo S9600x64 be broadcasts_S1x64_S9600x64 y = _
  rw [matmul_plain, matmul_plain, bias_row, bias_row, add_assoc]
  rfl

variable (V : (c : Dev nD) → (b : Ref sig .tc) → Buf (Elt Ideal) ((c : Thread nD τ).loc b))

private theorem hz : (![0, 0] : Fin 2 → Nat) = fun _ => 0 := funext fun a => by fin_cases a <;> rfl

/-- The printed index maps over the grid: the row-indexed windows sit at the output's block row and at block column 0,
    the whole windows at block (0, 0), and the output's block row at point t is t. -/
private theorem idx_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point t writes back is block t of the message array of the region's argument arrays. -/
private theorem flushed_eq (c : Dev nD) (t : Fin cfg4.N) :
    (dat4 (F := Ideal) V c).flushed 6 t = ((cfg4.win 6).blk t).view.read (Elt Ideal)
      (Cert.GraphConv.edge (V c main_v40) (V c main_arg2) (V c main_arg15) (V c main_v41) (V c main_arg17) (V c main_v42)) := by
  show (cfg4.win 6).cut (grid4.coords t) ((dat4 V c).after 6 t) = _
  rw [after4_6]
  unfold out4_6
  rw [View.canon_unit_zero hz]
  simp only [View.ld_unit_zero (S := S9600x64) hz, View.ld_unit_zero (S := S64x64) hz, View.ld_unit_zero (S := S9600x16) hz,
    View.ld_unit_zero (S := S16x64) hz, View.ld_unit_zero (S := S1x64) hz]
  obtain ⟨a00, a01, a10, a11, a20, a21, a30, a31, a40, a41, a50, a51, a60, a61⟩ := idx_facts t
  funext y
  show k4_pay1 (iblk4 V c 0 t) (iblk4 V c 2 t) (iblk4 V c 1 t) (iblk4 V c 4 t) (iblk4 V c 3 t) (iblk4 V c 5 t) y
     = Cert.GraphConv.edge (V c main_v40) (V c main_arg2) (V c main_arg15) (V c main_v41) (V c main_arg17) (V c main_v42) (((cfg4.win 6).blk t).view.emb y)
  refine (pay_eq _ _ _ _ _ _ y).trans ?_
  refine Cert.GraphConv.edge_congr _ _ _ _ _ _ _ _ _ _ _ _ y _ ?_ ?_ ?_ ?_ ?_ ?_ ?_
  · show (y 1).val = win4_6.index t (1 : Fin 2) * 64 + 1 * (y 1).val
    omega
  · intro k
    show (V c main_v40 : S1200000x64.Idx → EReal) (((cfg4.win 0).blk t).view.emb (ix2 (y 0) k)) = (V c main_v40 : S1200000x64.Idx → EReal) (ix2 ((((cfg4.win 6).blk t).view.emb y) 0) k)
    refine congrArg _ (funext fun a => Fin.ext ?_)
    match a with
    | ⟨0, _⟩ => show win4_0.index t (0 : Fin 2) * 9600 + 1 * (y 0).val = win4_6.index t (0 : Fin 2) * 9600 + 1 * (y 0).val; omega
    | ⟨1, _⟩ => show win4_0.index t (1 : Fin 2) * 64 + 1 * k.val = k.val; omega
  · intro k
    show (V c main_arg2 : S1200000x16.Idx → EReal) (((cfg4.win 1).blk t).view.emb (ix2 (y 0) k)) = (V c main_arg2 : S1200000x16.Idx → EReal) (ix2 ((((cfg4.win 6).blk t).view.emb y) 0) k)
    refine congrArg _ (funext fun a => Fin.ext ?_)
    match a with
    | ⟨0, _⟩ => show win4_1.index t (0 : Fin 2) * 9600 + 1 * (y 0).val = win4_6.index t (0 : Fin 2) * 9600 + 1 * (y 0).val; omega
    | ⟨1, _⟩ => show win4_1.index t (1 : Fin 2) * 16 + 1 * k.val = k.val; omega
  · funext j
    show (V c main_arg15 : S64x64.Idx → EReal) (((cfg4.win 2).blk t).view.emb j) = (V c main_arg15 : S64x64.Idx → EReal) j
    refine congrArg _ (funext fun a => Fin.ext ?_)
    match a with
    | ⟨0, _⟩ => show win4_2.index t (0 : Fin 2) * 64 + 1 * (j 0).val = (j 0).val; omega
    | ⟨1, _⟩ => show win4_2.index t (1 : Fin 2) * 64 + 1 * (j 1).val = (j 1).val; omega
  · funext j
    show (V c main_v41 : S1x64.Idx → EReal) (((cfg4.win 3).blk t).view.emb j) = (V c main_v41 : S1x64.Idx → EReal) j
    refine congrArg _ (funext fun a => Fin.ext ?_)
    match a with
    | ⟨0, _⟩ => show win4_3.index t (0 : Fin 2) * 1 + 1 * (j 0).val = (j 0).val; omega
    | ⟨1, _⟩ => show win4_3.index t (1 : Fin 2) * 64 + 1 * (j 1).val = (j 1).val; omega
  · funext j
    show (V c main_arg17 : S16x64.Idx → EReal) (((cfg4.win 4).blk t).view.emb j) = (V c main_arg17 : S16x64.Idx → EReal) j
    refine congrArg _ (funext fun a => Fin.ext ?_)
    match a with
    | ⟨0, _⟩ => show win4_4.index t (0 : Fin 2) * 16 + 1 * (j 0).val = (j 0).val; omega
    | ⟨1, _⟩ => show win4_4.index t (1 : Fin 2) * 64 + 1 * (j 1).val = (j 1).val; omega
  · funext j
    show (V c main_v42 : S1x64.Idx → EReal) (((cfg4.win 5).blk t).view.emb j) = (V c main_v42 : S1x64.Idx → EReal) j
    refine congrArg _ (funext fun a => Fin.ext ?_)
    match a with
    | ⟨0, _⟩ => show win4_5.index t (0 : Fin 2) * 1 + 1 * (j 0).val = (j 0).val; omega
    | ⟨1, _⟩ => show win4_5.index t (1 : Fin 2) * 64 + 1 * (j 1).val = (j 1).val; omega

/-- An index of the output array is in point t's block iff each coordinate is in the block's range on its axis. -/
private theorem mem_blk (t : Fin cfg4.N) (i : S1200000x64.Idx) :
    i ∈ ((cfg4.win 6).blk t).view.set ↔ ∀ a : Fin 2, win4_6.index t a * S9600x64.size a ≤ (i a).val ∧ (i a).val < win4_6.index t a * S9600x64.size a + S9600x64.size a := by
  show i ∈ ((View.whole main_v43).slice (win4_6.rect t)).set ↔ _
  rw [View.set_slice_whole, Rect.mem_set_unit]
  exact Iff.rfl

/-- Every entry of the output array is written back by some point: row r by point r / 9600. -/
private theorem cover (i : S1200000x64.Idx) : ∃ t : Fin cfg4.N, (cfg4.win 6).flush t = true ∧ i ∈ ((cfg4.win 6).blk t).view.set := by
  have hi0 : (i 0).val < 1200000 := (i 0).isLt
  have hi1 : (i 1).val < 64 := (i 1).isLt
  have hN : cfg4.N = 125 := rfl
  refine ⟨⟨(i 0).val / 9600, by rw [hN]; omega⟩, flush4_6 _, ?_⟩
  rw [mem_blk]
  obtain ⟨-, -, -, -, -, -, -, -, -, -, -, -, a60, a61⟩ := idx_facts ⟨(i 0).val / 9600, by rw [hN]; omega⟩
  intro a
  match a with
  | ⟨0, _⟩ =>
    show win4_6.index _ (0 : Fin 2) * 9600 ≤ (i 0).val ∧ (i 0).val < win4_6.index _ (0 : Fin 2) * 9600 + 9600
    rw [a60]
    show (i 0).val / 9600 * 9600 ≤ (i 0).val ∧ (i 0).val < (i 0).val / 9600 * 9600 + 9600
    omega
  | ⟨1, _⟩ =>
    show win4_6.index _ (1 : Fin 2) * 64 ≤ (i 1).val ∧ (i 1).val < win4_6.index _ (1 : Fin 2) * 64 + 64
    rw [a61]
    omega

/-- After the region's last grid point the output array holds, at every entry, the edge message of the region's
    argument arrays as the region found them. -/
theorem final (c : Dev nD) :
    (dat4 (F := Ideal) V c).arrAt 6 cfg4.N
      = Cert.GraphConv.edge (V c main_v40) (V c main_arg2) (V c main_arg15) (V c main_v41) (V c main_arg17) (V c main_v42) :=
  (dat4 (F := Ideal) V c).arrAt_eq_of_cover 6 _ (fun t _ => flushed_eq V c t) cover

end Cert.KernelIdeal.EdgeValue4
-- ==== Proof.NodeValue5.lean ====
/-
  REGION 5 (a node-update kernel): the array its output window leaves is the updated node array entry by entry.

  The region walks ten grid points; point t holds rows 10000 t … 10000 t + 9999 of the node array (64 features a row)
  and of the aggregated array (64 columns), the whole weight matrix [64, 64] and the whole bias row [1, 64], and
  writes the same rows of the output (64 columns). At a block entry (r, c) the body stores the exponential linear unit of
  agg (r, c) + (∑ k, x (r, k) · Ws (k, c) + bs (0, c)): the product is a block product into a zero accumulator, the change
  of float format of its operands is the identity at the extended reals, and the bias row is repeated down the block.
  That entry only looks at row r of the two row-indexed blocks, which is row 10000 t + r of the arrays, so the block
  written at point t is block t of the node update of the whole arrays; the ten blocks of 10000 rows cover the 100000
  rows and each holds all 64 columns, so after the last point every entry of the output array is the update's.
-/
import proofs.«168661_j64132451664027_1_alg».proof.Proof.Gen.KernelIdeal.Frame
import proofs.«168661_j64132451664027_1_alg».proof.Proof.GraphConv

set_option maxRecDepth 16384
noncomputable section
namespace Cert.KernelIdeal.NodeValue5
open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed contraction record is the plain row-by-column one. -/
private theorem dot_plain : dot_S10000x64_S64x64_S10000x64_1_0_0_1_n_n = DotDims.plain 10000 64 64 := rfl

/-- A block product into a zero accumulator is the row-by-column sum, whatever the operands' float formats. -/
private theorem block_product {φ₁ φ₂ : FTy} (x : FVec Ideal ⟨2, ![10000, 64]⟩ φ₁) (w : FVec Ideal ⟨2, ![64, 64]⟩ φ₂)
    (j : (⟨2, ![10000, 64]⟩ : Shape).Idx) :
    FloatOps.matmul (DotDims.plain 10000 64 64) none x w (constant _ .f32 0x00000000#32) j
      = ∑ k : Fin 64, x (ix2 (j 0) k) * w (ix2 k (j 1)) := by
  rw [Ideal.matmul_constant_zero_apply, ← Equiv.sum_comp (Cert.Lib.Dense.ce 10000 64 64).symm]
  exact Finset.sum_congr rfl fun k _ => by rw [Cert.Lib.Dense.plain_lhsIdx, Cert.Lib.Dense.plain_rhsIdx]

/-- What the body stores, at a block index: the unit applied to the aggregated block's entry plus the affine layer of
    the node block's row. -/
private theorem pay (x : Vec Ideal S10000x64 .f32) (w : Vec Ideal S64x64 .f32) (b : Vec Ideal S1x64 .f32)
    (a : Vec Ideal S10000x64 .f32) (y : S10000x64.Idx) :
    k5_pay1 (F := Ideal) x w b a y = Cert.GraphConv.node x a w b y := by
  unfold k5_pay1
  show Cert.GraphConv.elu (shapeCast S10000x64 a shapeCasts_S10000x64_S10000x64 y
      + (FloatOps.matmul (F := Ideal) dot_S10000x64_S64x64_S10000x64_1_0_0_1_n_n none (truncf (F := Ideal) .bf16 (shapeCast S10000x64 x shapeCasts_S10000x64_S10000x64) bitsLt_bf16_f32) (truncf (F := Ideal) .bf16 w bitsLt_bf16_f32) (constant (F := Ideal) S10000x64 .f32 0x00000000#32) y
        + broadcastTo S10000x64 (shapeCast S1x64 b shapeCasts_S1x64_S1x64) broadcasts_S1x64_S10000x64 y)) = _
  rw [shapeCast_self, shapeCast_self, shapeCast_self, dot_plain, block_product, broadcastTo_apply b broadcasts_S1x64_S10000x64 y (ix2 0 (y 1))]
  · rfl
  · intro i
    match i with
    | ⟨0, _⟩ => simp
    | ⟨1, _⟩ => rfl

private theorem hz : (![0, 0] : Fin 2 → Nat) = fun _ => 0 := funext fun a => by fin_cases a <;> rfl

/-- The printed index maps over the ten grid points: the node rows, the aggregated rows and the output rows move
    together (block row = the point's number, block column 0); the weights and the bias row stay at block (0, 0). -/
private theorem idx_facts : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (1 : Fin 2) = 0 :=
  (by decide +kernel : ∀ t : Fin grid5.N, _)

/-- Every block row of the output is some point's. -/
private theorem idx_onto : ∀ q : Fin 10, ∃ t : Fin cfg5.N, win5_4.index t = ![q.val, 0] :=
  (by decide +kernel : ∀ q : Fin 10, ∃ t : Fin grid5.N, win5_4.index t = ![q.val, 0])

/-- Each window's block at a point is its array read at the block's place in the array. -/
private theorem blk0 (c : Dev nD) (t : Fin cfg5.N) (z : S10000x64.Idx) :
    iblk5 (F := Ideal) V c 0 t z = V c main_v33 (((cfg5.win 0).blk t).view.emb z) := rfl
private theorem blk1 (c : Dev nD) (t : Fin cfg5.N) (z : S10000x64.Idx) :
    iblk5 (F := Ideal) V c 1 t z = V c main_v46 (((cfg5.win 1).blk t).view.emb z) := rfl
private theorem blk2 (c : Dev nD) (t : Fin cfg5.N) (z : S64x64.Idx) :
    iblk5 (F := Ideal) V c 2 t z = V c main_arg19 (((cfg5.win 2).blk t).view.emb z) := rfl
private theorem blk3 (c : Dev nD) (t : Fin cfg5.N) (z : S1x64.Idx) :
    iblk5 (F := Ideal) V c 3 t z = V c main_v47 (((cfg5.win 3).blk t).view.emb z) := rfl

/-- What point `t` writes back is block `t` of the node update of the whole arrays: row r of the block is row
    10000 t + r of the arrays, and an entry of the update only looks at its own row of the node and aggregated arrays. -/
private theorem flushed_eq (c : Dev nD) (t : Fin cfg5.N) :
    (dat5 (F := Ideal) V c).flushed 4 t
      = ((cfg5.win 4).blk t).view.read (Elt Ideal)
          (Cert.GraphConv.node (V c main_v33) (V c main_v46) (V c main_arg19) (V c main_v47)) := by
  show (cfg5.win 4).cut (grid5.coords t) ((dat5 (F := Ideal) V c).after 4 t) = _
  rw [after5_4]
  unfold out5_4
  rw [View.canon_unit_zero hz]
  simp only [View.ld_unit_zero (S := S10000x64) hz, View.ld_unit_zero (S := S64x64) hz,
    View.ld_unit_zero (S := S1x64) hz]
  obtain ⟨e00, e01, e10, e11, e20, e21, e30, e31, e41⟩ := idx_facts t
  funext y
  show k5_pay1 (F := Ideal) (iblk5 V c 0 t) (iblk5 V c 2 t) (iblk5 V c 3 t) (iblk5 V c 1 t) y
    = Cert.GraphConv.node (V c main_v33) (V c main_v46) (V c main_arg19) (V c main_v47) (((cfg5.win 4).blk t).view.emb y)
  refine (pay (iblk5 V c 0 t) (iblk5 V c 2 t) (iblk5 V c 3 t) (iblk5 V c 1 t) y).trans ?_
  have hy0 : (y 0).val < 10000 := (y 0).isLt
  have hy1 : (y 1).val < 64 := (y 1).isLt
  refine Cert.GraphConv.node_congr (iblk5 V c 0 t) (V c main_v33) (iblk5 V c 1 t) (V c main_v46) (iblk5 V c 2 t) (V c main_arg19)
    (iblk5 V c 3 t) (V c main_v47) y (((cfg5.win 4).blk t).view.emb y) ?_ ?_ ?_ ?_ ?_
  · show (y 1).val = win5_4.index t (1 : Fin 2) * 64 + 1 * (y 1).val
    omega
  · intro k
    rw [blk0]
    refine congrArg (V c main_v33) (funext fun a => Fin.ext ?_)
    have hk : k.val < 64 := k.isLt
    match a with
    | ⟨0, _⟩ => show win5_0.index t (0 : Fin 2) * 10000 + 1 * (y 0).val = win5_4.index t (0 : Fin 2) * 10000 + 1 * (y 0).val; omega
    | ⟨1, _⟩ => show win5_0.index t (1 : Fin 2) * 64 + 1 * k.val = k.val; omega
  · rw [blk1]
    refine congrArg (V c main_v46) (funext fun a => Fin.ext ?_)
    match a with
    | ⟨0, _⟩ => show win5_1.index t (0 : Fin 2) * 10000 + 1 * (y 0).val = win5_4.index t (0 : Fin 2) * 10000 + 1 * (y 0).val; omega
    | ⟨1, _⟩ => show win5_1.index t (1 : Fin 2) * 64 + 1 * (y 1).val = win5_4.index t (1 : Fin 2) * 64 + 1 * (y 1).val; omega
  · funext z
    rw [blk2]
    refine congrArg (V c main_arg19) (funext fun a => Fin.ext ?_)
    match a with
    | ⟨0, _⟩ => show win5_2.index t (0 : Fin 2) * 64 + 1 * (z 0).val = (z 0).val; omega
    | ⟨1, _⟩ => show win5_2.index t (1 : Fin 2) * 64 + 1 * (z 1).val = (z 1).val; omega
  · funext z
    rw [blk3]
    refine congrArg (V c main_v47) (funext fun a => Fin.ext ?_)
    match a with
    | ⟨0, _⟩ => show win5_3.index t (0 : Fin 2) * 1 + 1 * (z 0).val = (z 0).val; omega
    | ⟨1, _⟩ => show win5_3.index t (1 : Fin 2) * 64 + 1 * (z 1).val = (z 1).val; omega

/-- An entry of the output array is in point `t`'s block iff each coordinate is in the block's range on its axis. -/
private theorem mem_blk (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v48).slice (win5_4.rect t)).set ↔ _
  rw [View.set_slice_whole, Rect.mem_set_unit]
  exact Iff.rfl

/-- Every entry is written: row r is in the block of point r / 10000 (ten blocks of 10000 rows are the 100000 rows),
    and a block holds all 64 columns. -/
private theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := idx_onto ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- After the region's last grid point the output array holds, at every entry, the node update of the region's
    argument arrays as the region found them. -/
theorem final (c : Dev nD) :
    (dat5 (F := Ideal) V c).arrAt 4 cfg5.N
      = Cert.GraphConv.node (V c main_v33) (V c main_v46) (V c main_arg19) (V c main_v47) := by
  exact (dat5 (F := Ideal) V c).arrAt_eq_of_cover 4
    (Cert.GraphConv.node (V c main_v33) (V c main_v46) (V c main_arg19) (V c main_v47))
    (fun t _ => flushed_eq V c t) cover

end Cert.KernelIdeal.NodeValue5
-- ==== Proof.EdgeValue2.lean ====
/-
  REGION 2 (an edge-message kernel): the array its output window leaves is the message array entry by entry.

  At a block index y the body stores ((x·Wm + bm) + e·We) + be, where x is a block of 9600 edge rows of 64 features,
  e the same rows of the 16 edge attributes, and the weights and the two bias rows are whole. A change of float format
  is the identity at the extended reals, a block product into a zero accumulator is the sum over the contracted
  coordinate, and a [1, 64] row repeated down the block reads as its entry of the column; so the stored value is the
  sum of the two affine layers, (x·Wm + bm) + (e·We + be), by associativity of the sum of extended reals (`pay_eq`).
  The grid has 125 points; at point t the row-indexed windows (x, e and the output) sit at block row t and block
  column 0, the whole windows at block (0, 0) (`idx_facts`, decided over the grid). A block's coordinate is
  index × size + the coordinate inside the block, so what point t writes back is the block of rows 9600 t … 9600 t + 9599
  of the message array of the whole operands (`flushed_eq`: an entry of row r looks only at row r of x and e).
  Row r of the output is in the block of point r / 9600 and every column is in every block (125 × 9600 = 1200000), so
  the blocks cover the array (`cover`), and the array after the last point is the message array (`final`).
-/
import proofs.«168661_j64132451664027_1_alg».proof.Proof.Gen.KernelIdeal.Frame
import proofs.«168661_j64132451664027_1_alg».proof.Proof.GraphConv

set_option maxRecDepth 16384
noncomputable section
namespace Cert.KernelIdeal.EdgeValue2
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- A row-major block product into a zero accumulator, read at an entry, whatever the operands' float formats: the sum
    over the contracted coordinate of the products of row `j 0` of the left operand with column `j 1` of the right. -/
private theorem matmul_plain (M K N : Nat) {φ₁ φ₂ : FTy} (prec : Option ContractPrecision)
    (X : FVec Ideal ⟨2, ![M, K]⟩ φ₁) (W : FVec Ideal ⟨2, ![K, N]⟩ φ₂) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (Cert.Lib.Dense.ce M K N).symm]
  exact Finset.sum_congr rfl fun k _ => by rw [Cert.Lib.Dense.plain_lhsIdx, Cert.Lib.Dense.plain_rhsIdx]

/-- A [1, N] row repeated down M rows reads, at an entry, as the row's entry of that column. -/
private theorem bias_row {M N : Nat} (b : FVec Ideal ⟨2, ![1, N]⟩ .f32) (bt : (⟨2, ![1, N]⟩ : Shape).Broadcasts ⟨2, ![M, N]⟩)
    (y : (⟨2, ![M, N]⟩ : Shape).Idx) : broadcastTo ⟨2, ![M, N]⟩ b bt y = b (ix2 0 (y 1)) := by
  rw [broadcastTo_apply b bt y (ix2 0 (y 1))]
  intro a
  match a with
  | ⟨0, _⟩ => simp
  | ⟨1, _⟩ =>
    show (y 1).val = if N = 1 then 0 else (y 1).val
    split_ifs with h
    · have := (y 1).isLt; simp at this; omega
    · rfl

/-- The body's stored value at a block index is the edge message of the blocks: ((a + bm) + s) + be = (a + bm) + (s + be). -/
private theorem pay_eq (x : Vec Ideal S9600x64 .f32) (wm : Vec Ideal S64x64 .f32) (e : Vec Ideal S9600x16 .f32)
    (we : Vec Ideal S16x64 .f32) (bm be : Vec Ideal S1x64 .f32) (y : S9600x64.Idx) :
    k2_pay1 x wm e we bm be y = Cert.GraphConv.edge x e wm bm we be y := by
  unfold k2_pay1
  rw [shapeCast_self, shapeCast_self, shapeCast_self]
  show ((FloatOps.matmul (F := Ideal) (DotDims.plain 9600 64 64) none (truncf .bf16 x bitsLt_bf16_f32) (truncf .bf16 wm bitsLt_bf16_f32) (constant _ .f32 0x00000000#32) y
        + broadcastTo S9600x64 bm broadcasts_S1x64_S9600x64 y)
      + FloatOps.matmul (F := Ideal) (DotDims.plain 9600 16 64) none (truncf .bf16 e bitsLt_bf16_f32) (truncf .bf16 we bitsLt_bf16_f32) (constant _ .f32 0x00000000#32) y)
      + broadcastTo S9600x64 be broadcasts_S1x64_S9600x64 y = _
  rw [matmul_plain, matmul_plain, bias_row, bias_row, add_assoc]
  rfl

variable (V : (c : Dev nD) → (b : Ref sig .tc) → Buf (Elt Ideal) ((c : Thread nD τ).loc b))

private theorem hz : (![0, 0] : Fin 2 → Nat) = fun _ => 0 := funext fun a => by fin_cases a <;> rfl

/-- The printed index maps over the grid: the row-indexed windows sit at the output's block row and at block column 0,
    the whole windows at block (0, 0), and the output's block row at point t is t. -/
private theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the message array of the region's argument arrays. -/
private theorem flushed_eq (c : Dev nD) (t : Fin cfg2.N) :
    (dat2 (F := Ideal) V c).flushed 6 t = ((cfg2.win 6).blk t).view.read (Elt Ideal)
      (Cert.GraphConv.edge (V c main_v25) (V c main_arg2) (V c main_arg9) (V c main_v26) (V c main_arg11) (V c main_v27)) := by
  show (cfg2.win 6).cut (grid2.coords t) ((dat2 V c).after 6 t) = _
  rw [after2_6]
  unfold out2_6
  rw [View.canon_unit_zero hz]
  simp only [View.ld_unit_zero (S := S9600x64) hz, View.ld_unit_zero (S := S64x64) hz, View.ld_unit_zero (S := S9600x16) hz,
    View.ld_unit_zero (S := S16x64) hz, View.ld_unit_zero (S := S1x64) hz]
  obtain ⟨a00, a01, a10, a11, a20, a21, a30, a31, a40, a41, a50, a51, a60, a61⟩ := idx_facts t
  funext y
  show k2_pay1 (iblk2 V c 0 t) (iblk2 V c 2 t) (iblk2 V c 1 t) (iblk2 V c 4 t) (iblk2 V c 3 t) (iblk2 V c 5 t) y
     = Cert.GraphConv.edge (V c main_v25) (V c main_arg2) (V c main_arg9) (V c main_v26) (V c main_arg11) (V c main_v27) (((cfg2.win 6).blk t).view.emb y)
  refine (pay_eq _ _ _ _ _ _ y).trans ?_
  refine Cert.GraphConv.edge_congr _ _ _ _ _ _ _ _ _ _ _ _ y _ ?_ ?_ ?_ ?_ ?_ ?_ ?_
  · show (y 1).val = win2_6.index t (1 : Fin 2) * 64 + 1 * (y 1).val
    omega
  · intro k
    show (V c main_v25 : S1200000x64.Idx → EReal) (((cfg2.win 0).blk t).view.emb (ix2 (y 0) k)) = (V c main_v25 : S1200000x64.Idx → EReal) (ix2 ((((cfg2.win 6).blk t).view.emb y) 0) k)
    refine congrArg _ (funext fun a => Fin.ext ?_)
    match a with
    | ⟨0, _⟩ => show win2_0.index t (0 : Fin 2) * 9600 + 1 * (y 0).val = win2_6.index t (0 : Fin 2) * 9600 + 1 * (y 0).val; omega
    | ⟨1, _⟩ => show win2_0.index t (1 : Fin 2) * 64 + 1 * k.val = k.val; omega
  · intro k
    show (V c main_arg2 : S1200000x16.Idx → EReal) (((cfg2.win 1).blk t).view.emb (ix2 (y 0) k)) = (V c main_arg2 : S1200000x16.Idx → EReal) (ix2 ((((cfg2.win 6).blk t).view.emb y) 0) k)
    refine congrArg _ (funext fun a => Fin.ext ?_)
    match a with
    | ⟨0, _⟩ => show win2_1.index t (0 : Fin 2) * 9600 + 1 * (y 0).val = win2_6.index t (0 : Fin 2) * 9600 + 1 * (y 0).val; omega
    | ⟨1, _⟩ => show win2_1.index t (1 : Fin 2) * 16 + 1 * k.val = k.val; omega
  · funext j
    show (V c main_arg9 : S64x64.Idx → EReal) (((cfg2.win 2).blk t).view.emb j) = (V c main_arg9 : S64x64.Idx → EReal) j
    refine congrArg _ (funext fun a => Fin.ext ?_)
    match a with
    | ⟨0, _⟩ => show win2_2.index t (0 : Fin 2) * 64 + 1 * (j 0).val = (j 0).val; omega
    | ⟨1, _⟩ => show win2_2.index t (1 : Fin 2) * 64 + 1 * (j 1).val = (j 1).val; omega
  · funext j
    show (V c main_v26 : S1x64.Idx → EReal) (((cfg2.win 3).blk t).view.emb j) = (V c main_v26 : S1x64.Idx → EReal) j
    refine congrArg _ (funext fun a => Fin.ext ?_)
    match a with
    | ⟨0, _⟩ => show win2_3.index t (0 : Fin 2) * 1 + 1 * (j 0).val = (j 0).val; omega
    | ⟨1, _⟩ => show win2_3.index t (1 : Fin 2) * 64 + 1 * (j 1).val = (j 1).val; omega
  · funext j
    show (V c main_arg11 : S16x64.Idx → EReal) (((cfg2.win 4).blk t).view.emb j) = (V c main_arg11 : S16x64.Idx → EReal) j
    refine congrArg _ (funext fun a => Fin.ext ?_)
    match a with
    | ⟨0, _⟩ => show win2_4.index t (0 : Fin 2) * 16 + 1 * (j 0).val = (j 0).val; omega
    | ⟨1, _⟩ => show win2_4.index t (1 : Fin 2) * 64 + 1 * (j 1).val = (j 1).val; omega
  · funext j
    show (V c main_v27 : S1x64.Idx → EReal) (((cfg2.win 5).blk t).view.emb j) = (V c main_v27 : S1x64.Idx → EReal) j
    refine congrArg _ (funext fun a => Fin.ext ?_)
    match a with
    | ⟨0, _⟩ => show win2_5.index t (0 : Fin 2) * 1 + 1 * (j 0).val = (j 0).val; omega
    | ⟨1, _⟩ => show win2_5.index t (1 : Fin 2) * 64 + 1 * (j 1).val = (j 1).val; omega

/-- An index of the output array is in point t's block iff each coordinate is in the block's range on its axis. -/
private theorem mem_blk (t : Fin cfg2.N) (i : S1200000x64.Idx) :
    i ∈ ((cfg2.win 6).blk t).view.set ↔ ∀ a : Fin 2, win2_6.index t a * S9600x64.size a ≤ (i a).val ∧ (i a).val < win2_6.index t a * S9600x64.size a + S9600x64.size a := by
  show i ∈ ((View.whole main_v28).slice (win2_6.rect t)).set ↔ _
  rw [View.set_slice_whole, Rect.mem_set_unit]
  exact Iff.rfl

/-- Every entry of the output array is written back by some point: row r by point r / 9600. -/
private theorem cover (i : S1200000x64.Idx) : ∃ t : Fin cfg2.N, (cfg2.win 6).flush t = true ∧ i ∈ ((cfg2.win 6).blk t).view.set := by
  have hi0 : (i 0).val < 1200000 := (i 0).isLt
  have hi1 : (i 1).val < 64 := (i 1).isLt
  have hN : cfg2.N = 125 := rfl
  refine ⟨⟨(i 0).val / 9600, by rw [hN]; omega⟩, flush2_6 _, ?_⟩
  rw [mem_blk]
  obtain ⟨-, -, -, -, -, -, -, -, -, -, -, -, a60, a61⟩ := idx_facts ⟨(i 0).val / 9600, by rw [hN]; omega⟩
  intro a
  match a with
  | ⟨0, _⟩ =>
    show win2_6.index _ (0 : Fin 2) * 9600 ≤ (i 0).val ∧ (i 0).val < win2_6.index _ (0 : Fin 2) * 9600 + 9600
    rw [a60]
    show (i 0).val / 9600 * 9600 ≤ (i 0).val ∧ (i 0).val < (i 0).val / 9600 * 9600 + 9600
    omega
  | ⟨1, _⟩ =>
    show win2_6.index _ (1 : Fin 2) * 64 ≤ (i 1).val ∧ (i 1).val < win2_6.index _ (1 : Fin 2) * 64 + 64
    rw [a61]
    omega

/-- After the region's last grid point the output array holds, at every entry, the edge message of the region's
    argument arrays as the region found them. -/
theorem final (c : Dev nD) :
    (dat2 (F := Ideal) V c).arrAt 6 cfg2.N
      = Cert.GraphConv.edge (V c main_v25) (V c main_arg2) (V c main_arg9) (V c main_v26) (V c main_arg11) (V c main_v27) :=
  (dat2 (F := Ideal) V c).arrAt_eq_of_cover 6 _ (fun t _ => flushed_eq V c t) cover

end Cert.KernelIdeal.EdgeValue2
-- ==== Proof.NodeValue3.lean ====
/-
  REGION 3 (a node-update kernel): the array its output window leaves is the updated node array entry by entry.

  The region walks ten grid points; point t holds rows 10000 t … 10000 t + 9999 of the node array (64 features a row)
  and of the aggregated array (64 columns), the whole weight matrix [64, 64] and the whole bias row [1, 64], and
  writes the same rows of the output (64 columns). At a block entry (r, c) the body stores the exponential linear unit of
  agg (r, c) + (∑ k, x (r, k) · Ws (k, c) + bs (0, c)): the product is a block product into a zero accumulator, the change
  of float format of its operands is the identity at the extended reals, and the bias row is repeated down the block.
  That entry only looks at row r of the two row-indexed blocks, which is row 10000 t + r of the arrays, so the block
  written at point t is block t of the node update of the whole arrays; the ten blocks of 10000 rows cover the 100000
  rows and each holds all 64 columns, so after the last point every entry of the output array is the update's.
-/
import proofs.«168661_j64132451664027_1_alg».proof.Proof.Gen.KernelIdeal.Frame
import proofs.«168661_j64132451664027_1_alg».proof.Proof.GraphConv

set_option maxRecDepth 16384
noncomputable section
namespace Cert.KernelIdeal.NodeValue3
open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed contraction record is the plain row-by-column one. -/
private theorem dot_plain : dot_S10000x64_S64x64_S10000x64_1_0_0_1_n_n = DotDims.plain 10000 64 64 := rfl

/-- A block product into a zero accumulator is the row-by-column sum, whatever the operands' float formats. -/
private theorem block_product {φ₁ φ₂ : FTy} (x : FVec Ideal ⟨2, ![10000, 64]⟩ φ₁) (w : FVec Ideal ⟨2, ![64, 64]⟩ φ₂)
    (j : (⟨2, ![10000, 64]⟩ : Shape).Idx) :
    FloatOps.matmul (DotDims.plain 10000 64 64) none x w (constant _ .f32 0x00000000#32) j
      = ∑ k : Fin 64, x (ix2 (j 0) k) * w (ix2 k (j 1)) := by
  rw [Ideal.matmul_constant_zero_apply, ← Equiv.sum_comp (Cert.Lib.Dense.ce 10000 64 64).symm]
  exact Finset.sum_congr rfl fun k _ => by rw [Cert.Lib.Dense.plain_lhsIdx, Cert.Lib.Dense.plain_rhsIdx]

/-- What the body stores, at a block index: the unit applied to the aggregated block's entry plus the affine layer of
    the node block's row. -/
private theorem pay (x : Vec Ideal S10000x64 .f32) (w : Vec Ideal S64x64 .f32) (b : Vec Ideal S1x64 .f32)
    (a : Vec Ideal S10000x64 .f32) (y : S10000x64.Idx) :
    k3_pay1 (F := Ideal) x w b a y = Cert.GraphConv.node x a w b y := by
  unfold k3_pay1
  show Cert.GraphConv.elu (shapeCast S10000x64 a shapeCasts_S10000x64_S10000x64 y
      + (FloatOps.matmul (F := Ideal) dot_S10000x64_S64x64_S10000x64_1_0_0_1_n_n none (truncf (F := Ideal) .bf16 (shapeCast S10000x64 x shapeCasts_S10000x64_S10000x64) bitsLt_bf16_f32) (truncf (F := Ideal) .bf16 w bitsLt_bf16_f32) (constant (F := Ideal) S10000x64 .f32 0x00000000#32) y
        + broadcastTo S10000x64 (shapeCast S1x64 b shapeCasts_S1x64_S1x64) broadcasts_S1x64_S10000x64 y)) = _
  rw [shapeCast_self, shapeCast_self, shapeCast_self, dot_plain, block_product, broadcastTo_apply b broadcasts_S1x64_S10000x64 y (ix2 0 (y 1))]
  · rfl
  · intro i
    match i with
    | ⟨0, _⟩ => simp
    | ⟨1, _⟩ => rfl

private theorem hz : (![0, 0] : Fin 2 → Nat) = fun _ => 0 := funext fun a => by fin_cases a <;> rfl

/-- The printed index maps over the ten grid points: the node rows, the aggregated rows and the output rows move
    together (block row = the point's number, block column 0); the weights and the bias row stay at block (0, 0). -/
private theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 :=
  (by decide +kernel : ∀ t : Fin grid3.N, _)

/-- Every block row of the output is some point's. -/
private theorem idx_onto : ∀ q : Fin 10, ∃ t : Fin cfg3.N, win3_4.index t = ![q.val, 0] :=
  (by decide +kernel : ∀ q : Fin 10, ∃ t : Fin grid3.N, win3_4.index t = ![q.val, 0])

/-- Each window's block at a point is its array read at the block's place in the array. -/
private theorem blk0 (c : Dev nD) (t : Fin cfg3.N) (z : S10000x64.Idx) :
    iblk3 (F := Ideal) V c 0 t z = V c main_v18 (((cfg3.win 0).blk t).view.emb z) := rfl
private theorem blk1 (c : Dev nD) (t : Fin cfg3.N) (z : S10000x64.Idx) :
    iblk3 (F := Ideal) V c 1 t z = V c main_v31 (((cfg3.win 1).blk t).view.emb z) := rfl
private theorem blk2 (c : Dev nD) (t : Fin cfg3.N) (z : S64x64.Idx) :
    iblk3 (F := Ideal) V c 2 t z = V c main_arg13 (((cfg3.win 2).blk t).view.emb z) := rfl
private theorem blk3 (c : Dev nD) (t : Fin cfg3.N) (z : S1x64.Idx) :
    iblk3 (F := Ideal) V c 3 t z = V c main_v32 (((cfg3.win 3).blk t).view.emb z) := rfl

/-- What point `t` writes back is block `t` of the node update of the whole arrays: row r of the block is row
    10000 t + r of the arrays, and an entry of the update only looks at its own row of the node and aggregated arrays. -/
private theorem flushed_eq (c : Dev nD) (t : Fin cfg3.N) :
    (dat3 (F := Ideal) V c).flushed 4 t
      = ((cfg3.win 4).blk t).view.read (Elt Ideal)
          (Cert.GraphConv.node (V c main_v18) (V c main_v31) (V c main_arg13) (V c main_v32)) := by
  show (cfg3.win 4).cut (grid3.coords t) ((dat3 (F := Ideal) V c).after 4 t) = _
  rw [after3_4]
  unfold out3_4
  rw [View.canon_unit_zero hz]
  simp only [View.ld_unit_zero (S := S10000x64) hz, View.ld_unit_zero (S := S64x64) hz,
    View.ld_unit_zero (S := S1x64) hz]
  obtain ⟨e00, e01, e10, e11, e20, e21, e30, e31, e41⟩ := idx_facts t
  funext y
  show k3_pay1 (F := Ideal) (iblk3 V c 0 t) (iblk3 V c 2 t) (iblk3 V c 3 t) (iblk3 V c 1 t) y
    = Cert.GraphConv.node (V c main_v18) (V c main_v31) (V c main_arg13) (V c main_v32) (((cfg3.win 4).blk t).view.emb y)
  refine (pay (iblk3 V c 0 t) (iblk3 V c 2 t) (iblk3 V c 3 t) (iblk3 V c 1 t) y).trans ?_
  have hy0 : (y 0).val < 10000 := (y 0).isLt
  have hy1 : (y 1).val < 64 := (y 1).isLt
  refine Cert.GraphConv.node_congr (iblk3 V c 0 t) (V c main_v18) (iblk3 V c 1 t) (V c main_v31) (iblk3 V c 2 t) (V c main_arg13)
    (iblk3 V c 3 t) (V c main_v32) y (((cfg3.win 4).blk t).view.emb y) ?_ ?_ ?_ ?_ ?_
  · show (y 1).val = win3_4.index t (1 : Fin 2) * 64 + 1 * (y 1).val
    omega
  · intro k
    rw [blk0]
    refine congrArg (V c main_v18) (funext fun a => Fin.ext ?_)
    have hk : k.val < 64 := k.isLt
    match a with
    | ⟨0, _⟩ => show win3_0.index t (0 : Fin 2) * 10000 + 1 * (y 0).val = win3_4.index t (0 : Fin 2) * 10000 + 1 * (y 0).val; omega
    | ⟨1, _⟩ => show win3_0.index t (1 : Fin 2) * 64 + 1 * k.val = k.val; omega
  · rw [blk1]
    refine congrArg (V c main_v31) (funext fun a => Fin.ext ?_)
    match a with
    | ⟨0, _⟩ => show win3_1.index t (0 : Fin 2) * 10000 + 1 * (y 0).val = win3_4.index t (0 : Fin 2) * 10000 + 1 * (y 0).val; omega
    | ⟨1, _⟩ => show win3_1.index t (1 : Fin 2) * 64 + 1 * (y 1).val = win3_4.index t (1 : Fin 2) * 64 + 1 * (y 1).val; omega
  · funext z
    rw [blk2]
    refine congrArg (V c main_arg13) (funext fun a => Fin.ext ?_)
    match a with
    | ⟨0, _⟩ => show win3_2.index t (0 : Fin 2) * 64 + 1 * (z 0).val = (z 0).val; omega
    | ⟨1, _⟩ => show win3_2.index t (1 : Fin 2) * 64 + 1 * (z 1).val = (z 1).val; omega
  · funext z
    rw [blk3]
    refine congrArg (V c main_v32) (funext fun a => Fin.ext ?_)
    match a with
    | ⟨0, _⟩ => show win3_3.index t (0 : Fin 2) * 1 + 1 * (z 0).val = (z 0).val; omega
    | ⟨1, _⟩ => show win3_3.index t (1 : Fin 2) * 64 + 1 * (z 1).val = (z 1).val; omega

/-- An entry of the output array is in point `t`'s block iff each coordinate is in the block's range on its axis. -/
private theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v33).slice (win3_4.rect t)).set ↔ _
  rw [View.set_slice_whole, Rect.mem_set_unit]
  exact Iff.rfl

/-- Every entry is written: row r is in the block of point r / 10000 (ten blocks of 10000 rows are the 100000 rows),
    and a block holds all 64 columns. -/
private theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := idx_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- After the region's last grid point the output array holds, at every entry, the node update of the region's
    argument arrays as the region found them. -/
theorem final (c : Dev nD) :
    (dat3 (F := Ideal) V c).arrAt 4 cfg3.N
      = Cert.GraphConv.node (V c main_v18) (V c main_v31) (V c main_arg13) (V c main_v32) := by
  exact (dat3 (F := Ideal) V c).arrAt_eq_of_cover 4
    (Cert.GraphConv.node (V c main_v18) (V c main_v31) (V c main_arg13) (V c main_v32))
    (fun t _ => flushed_eq V c t) cover

end Cert.KernelIdeal.NodeValue3
-- ==== Proof.EdgeValue0.lean ====
/-
  REGION 0 (an edge-message kernel): the array its output window leaves is the message array entry by entry.

  At a block index y the body stores ((x·Wm + bm) + e·We) + be, where x is a block of 9600 edge rows of 128 features,
  e the same rows of the 16 edge attributes, and the weights and the two bias rows are whole. A change of float format
  is the identity at the extended reals, a block product into a zero accumulator is the sum over the contracted
  coordinate, and a [1, 64] row repeated down the block reads as its entry of the column; so the stored value is the
  sum of the two affine layers, (x·Wm + bm) + (e·We + be), by associativity of the sum of extended reals (`pay_eq`).
  The grid has 125 points; at point t the row-indexed windows (x, e and the output) sit at block row t and block
  column 0, the whole windows at block (0, 0) (`idx_facts`, decided over the grid). A block's coordinate is
  index × size + the coordinate inside the block, so what point t writes back is the block of rows 9600 t … 9600 t + 9599
  of the message array of the whole operands (`flushed_eq`: an entry of row r looks only at row r of x and e).
  Row r of the output is in the block of point r / 9600 and every column is in every block (125 × 9600 = 1200000), so
  the blocks cover the array (`cover`), and the array after the last point is the message array (`final`).
-/
import proofs.«168661_j64132451664027_1_alg».proof.Proof.Gen.KernelIdeal.Frame
import proofs.«168661_j64132451664027_1_alg».proof.Proof.GraphConv

set_option maxRecDepth 16384
noncomputable section
namespace Cert.KernelIdeal.EdgeValue0
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- A row-major block product into a zero accumulator, read at an entry, whatever the operands' float formats: the sum
    over the contracted coordinate of the products of row `j 0` of the left operand with column `j 1` of the right. -/
private theorem matmul_plain (M K N : Nat) {φ₁ φ₂ : FTy} (prec : Option ContractPrecision)
    (X : FVec Ideal ⟨2, ![M, K]⟩ φ₁) (W : FVec Ideal ⟨2, ![K, N]⟩ φ₂) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (Cert.Lib.Dense.ce M K N).symm]
  exact Finset.sum_congr rfl fun k _ => by rw [Cert.Lib.Dense.plain_lhsIdx, Cert.Lib.Dense.plain_rhsIdx]

/-- A [1, N] row repeated down M rows reads, at an entry, as the row's entry of that column. -/
private theorem bias_row {M N : Nat} (b : FVec Ideal ⟨2, ![1, N]⟩ .f32) (bt : (⟨2, ![1, N]⟩ : Shape).Broadcasts ⟨2, ![M, N]⟩)
    (y : (⟨2, ![M, N]⟩ : Shape).Idx) : broadcastTo ⟨2, ![M, N]⟩ b bt y = b (ix2 0 (y 1)) := by
  rw [broadcastTo_apply b bt y (ix2 0 (y 1))]
  intro a
  match a with
  | ⟨0, _⟩ => simp
  | ⟨1, _⟩ =>
    show (y 1).val = if N = 1 then 0 else (y 1).val
    split_ifs with h
    · have := (y 1).isLt; simp at this; omega
    · rfl

/-- The body's stored value at a block index is the edge message of the blocks: ((a + bm) + s) + be = (a + bm) + (s + be). -/
private theorem pay_eq (x : Vec Ideal S9600x128 .f32) (wm : Vec Ideal S128x64 .f32) (e : Vec Ideal S9600x16 .f32)
    (we : Vec Ideal S16x64 .f32) (bm be : Vec Ideal S1x64 .f32) (y : S9600x64.Idx) :
    k0_pay1 x wm e we bm be y = Cert.GraphConv.edge x e wm bm we be y := by
  unfold k0_pay1
  rw [shapeCast_self, shapeCast_self, shapeCast_self]
  show ((FloatOps.matmul (F := Ideal) (DotDims.plain 9600 128 64) none (truncf .bf16 x bitsLt_bf16_f32) (truncf .bf16 wm bitsLt_bf16_f32) (constant _ .f32 0x00000000#32) y
        + broadcastTo S9600x64 bm broadcasts_S1x64_S9600x64 y)
      + FloatOps.matmul (F := Ideal) (DotDims.plain 9600 16 64) none (truncf .bf16 e bitsLt_bf16_f32) (truncf .bf16 we bitsLt_bf16_f32) (constant _ .f32 0x00000000#32) y)
      + broadcastTo S9600x64 be broadcasts_S1x64_S9600x64 y = _
  rw [matmul_plain, matmul_plain, bias_row, bias_row, add_assoc]
  rfl

variable (V : (c : Dev nD) → (b : Ref sig .tc) → Buf (Elt Ideal) ((c : Thread nD τ).loc b))

private theorem hz : (![0, 0] : Fin 2 → Nat) = fun _ => 0 := funext fun a => by fin_cases a <;> rfl

/-- The printed index maps over the grid: the row-indexed windows sit at the output's block row and at block column 0,
    the whole windows at block (0, 0), and the output's block row at point t is t. -/
private theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the message array of the region's argument arrays. -/
private theorem flushed_eq (c : Dev nD) (t : Fin cfg0.N) :
    (dat0 (F := Ideal) V c).flushed 6 t = ((cfg0.win 6).blk t).view.read (Elt Ideal)
      (Cert.GraphConv.edge (V c main_v10) (V c main_arg2) (V c main_arg3) (V c main_v11) (V c main_arg5) (V c main_v12)) := by
  show (cfg0.win 6).cut (grid0.coords t) ((dat0 V c).after 6 t) = _
  rw [after0_6]
  unfold out0_6
  rw [View.canon_unit_zero hz]
  simp only [View.ld_unit_zero (S := S9600x128) hz, View.ld_unit_zero (S := S128x64) hz, View.ld_unit_zero (S := S9600x16) hz,
    View.ld_unit_zero (S := S16x64) hz, View.ld_unit_zero (S := S1x64) hz]
  obtain ⟨a00, a01, a10, a11, a20, a21, a30, a31, a40, a41, a50, a51, a60, a61⟩ := idx_facts t
  funext y
  show k0_pay1 (iblk0 V c 0 t) (iblk0 V c 2 t) (iblk0 V c 1 t) (iblk0 V c 4 t) (iblk0 V c 3 t) (iblk0 V c 5 t) y
     = Cert.GraphConv.edge (V c main_v10) (V c main_arg2) (V c main_arg3) (V c main_v11) (V c main_arg5) (V c main_v12) (((cfg0.win 6).blk t).view.emb y)
  refine (pay_eq _ _ _ _ _ _ y).trans ?_
  refine Cert.GraphConv.edge_congr _ _ _ _ _ _ _ _ _ _ _ _ y _ ?_ ?_ ?_ ?_ ?_ ?_ ?_
  · show (y 1).val = win0_6.index t (1 : Fin 2) * 64 + 1 * (y 1).val
    omega
  · intro k
    show (V c main_v10 : S1200000x128.Idx → EReal) (((cfg0.win 0).blk t).view.emb (ix2 (y 0) k)) = (V c main_v10 : S1200000x128.Idx → EReal) (ix2 ((((cfg0.win 6).blk t).view.emb y) 0) k)
    refine congrArg _ (funext fun a => Fin.ext ?_)
    match a with
    | ⟨0, _⟩ => show win0_0.index t (0 : Fin 2) * 9600 + 1 * (y 0).val = win0_6.index t (0 : Fin 2) * 9600 + 1 * (y 0).val; omega
    | ⟨1, _⟩ => show win0_0.index t (1 : Fin 2) * 128 + 1 * k.val = k.val; omega
  · intro k
    show (V c main_arg2 : S1200000x16.Idx → EReal) (((cfg0.win 1).blk t).view.emb (ix2 (y 0) k)) = (V c main_arg2 : S1200000x16.Idx → EReal) (ix2 ((((cfg0.win 6).blk t).view.emb y) 0) k)
    refine congrArg _ (funext fun a => Fin.ext ?_)
    match a with
    | ⟨0, _⟩ => show win0_1.index t (0 : Fin 2) * 9600 + 1 * (y 0).val = win0_6.index t (0 : Fin 2) * 9600 + 1 * (y 0).val; omega
    | ⟨1, _⟩ => show win0_1.index t (1 : Fin 2) * 16 + 1 * k.val = k.val; omega
  · funext j
    show (V c main_arg3 : S128x64.Idx → EReal) (((cfg0.win 2).blk t).view.emb j) = (V c main_arg3 : S128x64.Idx → EReal) j
    refine congrArg _ (funext fun a => Fin.ext ?_)
    match a with
    | ⟨0, _⟩ => show win0_2.index t (0 : Fin 2) * 128 + 1 * (j 0).val = (j 0).val; omega
    | ⟨1, _⟩ => show win0_2.index t (1 : Fin 2) * 64 + 1 * (j 1).val = (j 1).val; omega
  · funext j
    show (V c main_v11 : S1x64.Idx → EReal) (((cfg0.win 3).blk t).view.emb j) = (V c main_v11 : S1x64.Idx → EReal) j
    refine congrArg _ (funext fun a => Fin.ext ?_)
    match a with
    | ⟨0, _⟩ => show win0_3.index t (0 : Fin 2) * 1 + 1 * (j 0).val = (j 0).val; omega
    | ⟨1, _⟩ => show win0_3.index t (1 : Fin 2) * 64 + 1 * (j 1).val = (j 1).val; omega
  · funext j
    show (V c main_arg5 : S16x64.Idx → EReal) (((cfg0.win 4).blk t).view.emb j) = (V c main_arg5 : S16x64.Idx → EReal) j
    refine congrArg _ (funext fun a => Fin.ext ?_)
    match a with
    | ⟨0, _⟩ => show win0_4.index t (0 : Fin 2) * 16 + 1 * (j 0).val = (j 0).val; omega
    | ⟨1, _⟩ => show win0_4.index t (1 : Fin 2) * 64 + 1 * (j 1).val = (j 1).val; omega
  · funext j
    show (V c main_v12 : S1x64.Idx → EReal) (((cfg0.win 5).blk t).view.emb j) = (V c main_v12 : S1x64.Idx → EReal) j
    refine congrArg _ (funext fun a => Fin.ext ?_)
    match a with
    | ⟨0, _⟩ => show win0_5.index t (0 : Fin 2) * 1 + 1 * (j 0).val = (j 0).val; omega
    | ⟨1, _⟩ => show win0_5.index t (1 : Fin 2) * 64 + 1 * (j 1).val = (j 1).val; omega

/-- An index of the output array is in point t's block iff each coordinate is in the block's range on its axis. -/
private theorem mem_blk (t : Fin cfg0.N) (i : S1200000x64.Idx) :
    i ∈ ((cfg0.win 6).blk t).view.set ↔ ∀ a : Fin 2, win0_6.index t a * S9600x64.size a ≤ (i a).val ∧ (i a).val < win0_6.index t a * S9600x64.size a + S9600x64.size a := by
  show i ∈ ((View.whole main_v13).slice (win0_6.rect t)).set ↔ _
  rw [View.set_slice_whole, Rect.mem_set_unit]
  exact Iff.rfl

/-- Every entry of the output array is written back by some point: row r by point r / 9600. -/
private theorem cover (i : S1200000x64.Idx) : ∃ t : Fin cfg0.N, (cfg0.win 6).flush t = true ∧ i ∈ ((cfg0.win 6).blk t).view.set := by
  have hi0 : (i 0).val < 1200000 := (i 0).isLt
  have hi1 : (i 1).val < 64 := (i 1).isLt
  have hN : cfg0.N = 125 := rfl
  refine ⟨⟨(i 0).val / 9600, by rw [hN]; omega⟩, flush0_6 _, ?_⟩
  rw [mem_blk]
  obtain ⟨-, -, -, -, -, -, -, -, -, -, -, -, a60, a61⟩ := idx_facts ⟨(i 0).val / 9600, by rw [hN]; omega⟩
  intro a
  match a with
  | ⟨0, _⟩ =>
    show win0_6.index _ (0 : Fin 2) * 9600 ≤ (i 0).val ∧ (i 0).val < win0_6.index _ (0 : Fin 2) * 9600 + 9600
    rw [a60]
    show (i 0).val / 9600 * 9600 ≤ (i 0).val ∧ (i 0).val < (i 0).val / 9600 * 9600 + 9600
    omega
  | ⟨1, _⟩ =>
    show win0_6.index _ (1 : Fin 2) * 64 ≤ (i 1).val ∧ (i 1).val < win0_6.index _ (1 : Fin 2) * 64 + 64
    rw [a61]
    omega

/-- After the region's last grid point the output array holds, at every entry, the edge message of the region's
    argument arrays as the region found them. -/
theorem final (c : Dev nD) :
    (dat0 (F := Ideal) V c).arrAt 6 cfg0.N
      = Cert.GraphConv.edge (V c main_v10) (V c main_arg2) (V c main_arg3) (V c main_v11) (V c main_arg5) (V c main_v12) :=
  (dat0 (F := Ideal) V c).arrAt_eq_of_cover 6 _ (fun t _ => flushed_eq V c t) cover

end Cert.KernelIdeal.EdgeValue0
-- ==== Proof.NodeValue1.lean ====
/-
  REGION 1 (a node-update kernel): the array its output window leaves is the updated node array entry by entry.

  The region walks ten grid points; point t holds rows 10000 t … 10000 t + 9999 of the node array (128 features a row)
  and of the aggregated array (64 columns), the whole weight matrix [128, 64] and the whole bias row [1, 64], and
  writes the same rows of the output (64 columns). At a block entry (r, c) the body stores the exponential linear unit of
  agg (r, c) + (∑ k, x (r, k) · Ws (k, c) + bs (0, c)): the product is a block product into a zero accumulator, the change
  of float format of its operands is the identity at the extended reals, and the bias row is repeated down the block.
  That entry only looks at row r of the two row-indexed blocks, which is row 10000 t + r of the arrays, so the block
  written at point t is block t of the node update of the whole arrays; the ten blocks of 10000 rows cover the 100000
  rows and each holds all 64 columns, so after the last point every entry of the output array is the update's.
-/
import proofs.«168661_j64132451664027_1_alg».proof.Proof.Gen.KernelIdeal.Frame
import proofs.«168661_j64132451664027_1_alg».proof.Proof.GraphConv

set_option maxRecDepth 16384
noncomputable section
namespace Cert.KernelIdeal.NodeValue1
open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The printed contraction record is the plain row-by-column one. -/
private theorem dot_plain : dot_S10000x128_S128x64_S10000x64_1_0_0_1_n_n = DotDims.plain 10000 128 64 := rfl

/-- A block product into a zero accumulator is the row-by-column sum, whatever the operands' float formats. -/
private theorem block_product {φ₁ φ₂ : FTy} (x : FVec Ideal ⟨2, ![10000, 128]⟩ φ₁) (w : FVec Ideal ⟨2, ![128, 64]⟩ φ₂)
    (j : (⟨2, ![10000, 64]⟩ : Shape).Idx) :
    FloatOps.matmul (DotDims.plain 10000 128 64) none x w (constant _ .f32 0x00000000#32) j
      = ∑ k : Fin 128, x (ix2 (j 0) k) * w (ix2 k (j 1)) := by
  rw [Ideal.matmul_constant_zero_apply, ← Equiv.sum_comp (Cert.Lib.Dense.ce 10000 128 64).symm]
  exact Finset.sum_congr rfl fun k _ => by rw [Cert.Lib.Dense.plain_lhsIdx, Cert.Lib.Dense.plain_rhsIdx]

/-- What the body stores, at a block index: the unit applied to the aggregated block's entry plus the affine layer of
    the node block's row. -/
private theorem pay (x : Vec Ideal S10000x128 .f32) (w : Vec Ideal S128x64 .f32) (b : Vec Ideal S1x64 .f32)
    (a : Vec Ideal S10000x64 .f32) (y : S10000x64.Idx) :
    k1_pay1 (F := Ideal) x w b a y = Cert.GraphConv.node x a w b y := by
  unfold k1_pay1
  show Cert.GraphConv.elu (shapeCast S10000x64 a shapeCasts_S10000x64_S10000x64 y
      + (FloatOps.matmul (F := Ideal) dot_S10000x128_S128x64_S10000x64_1_0_0_1_n_n none (truncf (F := Ideal) .bf16 x bitsLt_bf16_f32) (truncf (F := Ideal) .bf16 w bitsLt_bf16_f32) (constant (F := Ideal) S10000x64 .f32 0x00000000#32) y
        + broadcastTo S10000x64 (shapeCast S1x64 b shapeCasts_S1x64_S1x64) broadcasts_S1x64_S10000x64 y)) = _
  rw [shapeCast_self, shapeCast_self, dot_plain, block_product, broadcastTo_apply b broadcasts_S1x64_S10000x64 y (ix2 0 (y 1))]
  · rfl
  · intro i
    match i with
    | ⟨0, _⟩ => simp
    | ⟨1, _⟩ => rfl

private theorem hz : (![0, 0] : Fin 2 → Nat) = fun _ => 0 := funext fun a => by fin_cases a <;> rfl

/-- The printed index maps over the ten grid points: the node rows, the aggregated rows and the output rows move
    together (block row = the point's number, block column 0); the weights and the bias row stay at block (0, 0). -/
private theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

/-- Every block row of the output is some point's. -/
private theorem idx_onto : ∀ q : Fin 10, ∃ t : Fin cfg1.N, win1_4.index t = ![q.val, 0] :=
  (by decide +kernel : ∀ q : Fin 10, ∃ t : Fin grid1.N, win1_4.index t = ![q.val, 0])

/-- Each window's block at a point is its array read at the block's place in the array. -/
private theorem blk0 (c : Dev nD) (t : Fin cfg1.N) (z : S10000x128.Idx) :
    iblk1 (F := Ideal) V c 0 t z = V c main_arg0 (((cfg1.win 0).blk t).view.emb z) := rfl
private theorem blk1 (c : Dev nD) (t : Fin cfg1.N) (z : S10000x64.Idx) :
    iblk1 (F := Ideal) V c 1 t z = V c main_v16 (((cfg1.win 1).blk t).view.emb z) := rfl
private theorem blk2 (c : Dev nD) (t : Fin cfg1.N) (z : S128x64.Idx) :
    iblk1 (F := Ideal) V c 2 t z = V c main_arg7 (((cfg1.win 2).blk t).view.emb z) := rfl
private theorem blk3 (c : Dev nD) (t : Fin cfg1.N) (z : S1x64.Idx) :
    iblk1 (F := Ideal) V c 3 t z = V c main_v17 (((cfg1.win 3).blk t).view.emb z) := rfl

/-- What point `t` writes back is block `t` of the node update of the whole arrays: row r of the block is row
    10000 t + r of the arrays, and an entry of the update only looks at its own row of the node and aggregated arrays. -/
private theorem flushed_eq (c : Dev nD) (t : Fin cfg1.N) :
    (dat1 (F := Ideal) V c).flushed 4 t
      = ((cfg1.win 4).blk t).view.read (Elt Ideal)
          (Cert.GraphConv.node (V c main_arg0) (V c main_v16) (V c main_arg7) (V c main_v17)) := by
  show (cfg1.win 4).cut (grid1.coords t) ((dat1 (F := Ideal) V c).after 4 t) = _
  rw [after1_4]
  unfold out1_4
  rw [View.canon_unit_zero hz]
  simp only [View.ld_unit_zero (S := S10000x128) hz, View.ld_unit_zero (S := S128x64) hz,
    View.ld_unit_zero (S := S1x64) hz, View.ld_unit_zero (S := S10000x64) hz]
  obtain ⟨e00, e01, e10, e11, e20, e21, e30, e31, e41⟩ := idx_facts t
  funext y
  show k1_pay1 (F := Ideal) (iblk1 V c 0 t) (iblk1 V c 2 t) (iblk1 V c 3 t) (iblk1 V c 1 t) y
    = Cert.GraphConv.node (V c main_arg0) (V c main_v16) (V c main_arg7) (V c main_v17) (((cfg1.win 4).blk t).view.emb y)
  refine (pay (iblk1 V c 0 t) (iblk1 V c 2 t) (iblk1 V c 3 t) (iblk1 V c 1 t) y).trans ?_
  have hy0 : (y 0).val < 10000 := (y 0).isLt
  have hy1 : (y 1).val < 64 := (y 1).isLt
  refine Cert.GraphConv.node_congr (iblk1 V c 0 t) (V c main_arg0) (iblk1 V c 1 t) (V c main_v16) (iblk1 V c 2 t) (V c main_arg7)
    (iblk1 V c 3 t) (V c main_v17) y (((cfg1.win 4).blk t).view.emb y) ?_ ?_ ?_ ?_ ?_
  · show (y 1).val = win1_4.index t (1 : Fin 2) * 64 + 1 * (y 1).val
    omega
  · intro k
    rw [blk0]
    refine congrArg (V c main_arg0) (funext fun a => Fin.ext ?_)
    have hk : k.val < 128 := k.isLt
    match a with
    | ⟨0, _⟩ => show win1_0.index t (0 : Fin 2) * 10000 + 1 * (y 0).val = win1_4.index t (0 : Fin 2) * 10000 + 1 * (y 0).val; omega
    | ⟨1, _⟩ => show win1_0.index t (1 : Fin 2) * 128 + 1 * k.val = k.val; omega
  · rw [blk1]
    refine congrArg (V c main_v16) (funext fun a => Fin.ext ?_)
    match a with
    | ⟨0, _⟩ => show win1_1.index t (0 : Fin 2) * 10000 + 1 * (y 0).val = win1_4.index t (0 : Fin 2) * 10000 + 1 * (y 0).val; omega
    | ⟨1, _⟩ => show win1_1.index t (1 : Fin 2) * 64 + 1 * (y 1).val = win1_4.index t (1 : Fin 2) * 64 + 1 * (y 1).val; omega
  · funext z
    rw [blk2]
    refine congrArg (V c main_arg7) (funext fun a => Fin.ext ?_)
    match a with
    | ⟨0, _⟩ => show win1_2.index t (0 : Fin 2) * 128 + 1 * (z 0).val = (z 0).val; omega
    | ⟨1, _⟩ => show win1_2.index t (1 : Fin 2) * 64 + 1 * (z 1).val = (z 1).val; omega
  · funext z
    rw [blk3]
    refine congrArg (V c main_v17) (funext fun a => Fin.ext ?_)
    match a with
    | ⟨0, _⟩ => show win1_3.index t (0 : Fin 2) * 1 + 1 * (z 0).val = (z 0).val; omega
    | ⟨1, _⟩ => show win1_3.index t (1 : Fin 2) * 64 + 1 * (z 1).val = (z 1).val; omega

/-- An entry of the output array is in point `t`'s block iff each coordinate is in the block's range on its axis. -/
private theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v18).slice (win1_4.rect t)).set ↔ _
  rw [View.set_slice_whole, Rect.mem_set_unit]
  exact Iff.rfl

/-- Every entry is written: row r is in the block of point r / 10000 (ten blocks of 10000 rows are the 100000 rows),
    and a block holds all 64 columns. -/
private theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- After the region's last grid point the output array holds, at every entry, the node update of the region's
    argument arrays as the region found them. -/
theorem final (c : Dev nD) :
    (dat1 (F := Ideal) V c).arrAt 4 cfg1.N
      = Cert.GraphConv.node (V c main_arg0) (V c main_v16) (V c main_arg7) (V c main_v17) := by
  exact (dat1 (F := Ideal) V c).arrAt_eq_of_cover 4
    (Cert.GraphConv.node (V c main_arg0) (V c main_v16) (V c main_arg7) (V c main_v17))
    (fun t _ => flushed_eq V c t) cover

end Cert.KernelIdeal.NodeValue1
-- ==== Proof.KernelChain1.lean ====
/-
  THE FIRST LAYER in the kernel's program: the buffer contents at the exit of the second kernel region (the segment
  boundary `Gen.W4`). The first node array is the network's `h1` of the arguments; the two rows of the edge list,
  cut out before the first region, and every argument a later layer reads are still what they were.

  The contents are read back boundary by boundary. A host stretch rewrites only its operations' result buffers: the
  edge list's two rows, the source index (a negative index wrapped by the row count), the gathered source rows and the
  two bias vectors as rows before the first region; the zero array, the destination index, the messages summed at
  their destination rows and the third bias row before the second. A region rewrites only its output array, which
  holds the edge messages (first region) and the node update (second region) of the region's input arrays as it found
  them, and hands every other buffer back. Substituting boundary by boundary gives the first layer of the network.
-/
import proofs.«168661_j64132451664027_1_alg».proof.Proof.Gen.KernelIdeal.Frame
import proofs.«168661_j64132451664027_1_alg».proof.Proof.GraphConv
import proofs.«168661_j64132451664027_1_alg».proof.Proof.KernelStages
import proofs.«168661_j64132451664027_1_alg».proof.Proof.EdgeValue0
import proofs.«168661_j64132451664027_1_alg».proof.Proof.NodeValue1

set_option maxRecDepth 16384
noncomputable section
namespace Cert.KernelIdeal.Chain
open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.GraphConv (h1 feat h3 logits out0 out1 out2)
open Cert.KernelIdeal.Net (stages inputs edgeRow0 edgeRow1)

variable (m : (ℓ : Loc nD τ sig) → Buf (Elt Ideal) ℓ) (ρ : Dev nD → PrngReg)

/-! ## Buffers a stretch or a region leaves alone -/

/-- Decides that no operation of the first or of the second host stretch writes a given buffer: each operation writes
    its one result buffer, and that is another reference. -/
local macro "not_written" : tactic =>
  `(tactic| (refine List.forall_iff_forall_mem.mp ?_
             simp only [hostOps0, hostOps1, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- A buffer the first stretch does not write holds at the first region's entry what the launch gave it. -/
private theorem W1_launch (c : Dev nD) (b : Ref sig .tc)
    (k0 : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ k0).trans rfl

/-- A buffer that is no array of the first region and that the second stretch does not write holds at the second
    region's entry what it held at the first region's entry. -/
private theorem W3_W1 (c : Dev nD) (b : Ref sig .tc) (r0 : ∀ w, Pipeline.arrRef spec0 w ≠ b)
    (k1 : ∀ op ∈ (hostOps1 : List (HloOp τ sig (Elt Ideal))), Proc.devRef .tc b ∉ op.writes) :
    W3 m ρ c (Proc.devRef .tc b) = W1 m ρ c (Proc.devRef .tc b) :=
  (StableHlo.after_of_forall_not_mem (b := Proc.devRef .tc b) _ _ k1).trans (W2_of_ne m ρ c b r0)

/-- A buffer that neither stretch writes and that is no array of either region holds at the second region's exit what
    the launch gave it. -/
private theorem W4_launch (c : Dev nD) (b : Ref sig .tc)
    (k0 : ∀ op ∈ (hostOps0 : List (HloOp τ sig (Elt Ideal))), Proc.devRef .tc b ∉ op.writes)
    (r0 : ∀ w, Pipeline.arrRef spec0 w ≠ b)
    (k1 : ∀ op ∈ (hostOps1 : List (HloOp τ sig (Elt Ideal))), Proc.devRef .tc b ∉ op.writes)
    (r1 : ∀ w, Pipeline.arrRef spec1 w ≠ b) :
    W4 m ρ c (Proc.devRef .tc b) = m ((c : Thread nD τ).loc b) :=
  ((W4_of_ne m ρ c b r1).trans (W3_W1 m ρ c b r0 k1)).trans (W1_launch m ρ c b k0)

/-! ## The first stretch: the edge rows, the source index, the gathered rows, the two bias rows -/

private theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results
  rfl

private theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results
  rfl

/-- The gathered source rows: the node features at the wrapped first row of the edge list. -/
private theorem W1_v10 (c : Dev nD) :
    W1 m ρ c (Proc.devRef .tc main_v10)
      = stages.gather128 (m ((c : Thread nD τ).loc main_arg0)) (stages.src (m ((c : Thread nD τ).loc main_arg1))) := by
  show StableHlo.after hostOps0 (W0 m ρ c) (Proc.devRef .tc main_v10) = _
  after_results
  rfl

private theorem W1_v11 (c : Dev nD) :
    W1 m ρ c (Proc.devRef .tc main_v11) = Cert.Lib.Dense.biasRow (m ((c : Thread nD τ).loc main_arg4)) := by
  show StableHlo.after hostOps0 (W0 m ρ c) (Proc.devRef .tc main_v11) = _
  after_results
  exact Cert.Lib.Dense.shapeCast_row (m ((c : Thread nD τ).loc main_arg4)) shapeCasts_S64_S1x64

private theorem W1_v12 (c : Dev nD) :
    W1 m ρ c (Proc.devRef .tc main_v12) = Cert.Lib.Dense.biasRow (m ((c : Thread nD τ).loc main_arg6)) := by
  show StableHlo.after hostOps0 (W0 m ρ c) (Proc.devRef .tc main_v12) = _
  after_results
  exact Cert.Lib.Dense.shapeCast_row (m ((c : Thread nD τ).loc main_arg6)) shapeCasts_S64_S1x64

/-! ## The first region: the message array -/

private theorem W2_v13 (c : Dev nD) :
    W2 m ρ c (Proc.devRef .tc main_v13)
      = Cert.GraphConv.msg128 stages (inputs m c).x (inputs m c).ei (inputs m c).ea (inputs m c).Wm1 (inputs m c).bm1
          (inputs m c).We1 (inputs m c).be1 :=
  calc W2 m ρ c (Proc.devRef .tc main_v13)
      = (dat0 (V1 m ρ) c).arrAt 6 cfg0.N := W2_arr m ρ c 6
    _ = Cert.GraphConv.edge (W1 m ρ c (Proc.devRef .tc main_v10)) (W1 m ρ c (Proc.devRef .tc main_arg2))
          (W1 m ρ c (Proc.devRef .tc main_arg3)) (W1 m ρ c (Proc.devRef .tc main_v11))
          (W1 m ρ c (Proc.devRef .tc main_arg5)) (W1 m ρ c (Proc.devRef .tc main_v12)) :=
        EdgeValue0.final (V1 m ρ) c
    _ = _ := by
        rw [W1_v10, W1_v11, W1_v12, W1_launch m ρ c main_arg2 (by not_written), W1_launch m ρ c main_arg3 (by not_written),
          W1_launch m ρ c main_arg5 (by not_written)]
        rfl

/-! ## The second stretch: the zero array, the destination index, the scatter-add, the bias row -/

private theorem W3_v16 (c : Dev nD) :
    W3 m ρ c (Proc.devRef .tc main_v16)
      = stages.scatter stages.zero (Cert.KernelIdeal.Net.colIdx (W2 m ρ c (Proc.devRef .tc main_v3))) (W2 m ρ c (Proc.devRef .tc main_v13)) := by
  show StableHlo.after hostOps1 (W2 m ρ c) (Proc.devRef .tc main_v16) = _
  after_results
  rfl

private theorem W3_v17 (c : Dev nD) :
    W3 m ρ c (Proc.devRef .tc main_v17) = Cert.Lib.Dense.biasRow (W2 m ρ c (Proc.devRef .tc main_arg8)) := by
  show StableHlo.after hostOps1 (W2 m ρ c) (Proc.devRef .tc main_v17) = _
  after_results
  exact Cert.Lib.Dense.shapeCast_row (W2 m ρ c (Proc.devRef .tc main_arg8)) shapeCasts_S64_S1x64

/-- The aggregated messages of the first layer. -/
private theorem W3_v16_agg (c : Dev nD) :
    W3 m ρ c (Proc.devRef .tc main_v16)
      = Cert.GraphConv.agg stages (inputs m c).ei
          (Cert.GraphConv.msg128 stages (inputs m c).x (inputs m c).ei (inputs m c).ea (inputs m c).Wm1 (inputs m c).bm1
            (inputs m c).We1 (inputs m c).be1) := by
  rw [W3_v16, W2_v13, W2_of_ne m ρ c main_v3 (by decide), W1_v3]
  rfl

theorem W4_h1 (c : Dev nD) : W4 m ρ c (Proc.devRef .tc main_v18) = h1 stages (inputs m c) :=
  calc W4 m ρ c (Proc.devRef .tc main_v18)
      = (dat1 (V3 m ρ) c).arrAt 4 cfg1.N := W4_arr m ρ c 4
    _ = Cert.GraphConv.node (W3 m ρ c (Proc.devRef .tc main_arg0)) (W3 m ρ c (Proc.devRef .tc main_v16))
          (W3 m ρ c (Proc.devRef .tc main_arg7)) (W3 m ρ c (Proc.devRef .tc main_v17)) :=
        NodeValue1.final (V3 m ρ) c
    _ = _ := by
        rw [W3_v16_agg, W3_v17, W2_of_ne m ρ c main_arg8 (by decide), W1_launch m ρ c main_arg8 (by not_written),
          W3_W1 m ρ c main_arg0 (by decide) (by not_written), W1_launch m ρ c main_arg0 (by not_written),
          W3_W1 m ρ c main_arg7 (by decide) (by not_written), W1_launch m ρ c main_arg7 (by not_written)]
        rfl

/-! ## What the later layers read is still what it was -/

theorem W4_v1 (c : Dev nD) : W4 m ρ c (Proc.devRef .tc main_v1) = edgeRow0 (m ((c : Thread nD τ).loc main_arg1)) :=
  ((W4_of_ne m ρ c main_v1 (by decide)).trans (W3_W1 m ρ c main_v1 (by decide) (by not_written))).trans (W1_v1 m ρ c)
theorem W4_v3 (c : Dev nD) : W4 m ρ c (Proc.devRef .tc main_v3) = edgeRow1 (m ((c : Thread nD τ).loc main_arg1)) :=
  ((W4_of_ne m ρ c main_v3 (by decide)).trans (W3_W1 m ρ c main_v3 (by decide) (by not_written))).trans (W1_v3 m ρ c)
/-- The edge attributes are an input array of the first region: the region hands an input array back as it took it. -/
theorem W4_arg2 (c : Dev nD) : W4 m ρ c (Proc.devRef .tc main_arg2) = m ((c : Thread nD τ).loc main_arg2) :=
  calc W4 m ρ c (Proc.devRef .tc main_arg2)
      = W3 m ρ c (Proc.devRef .tc main_arg2) := W4_of_ne m ρ c main_arg2 (by decide)
    _ = W2 m ρ c (Proc.devRef .tc main_arg2) :=
        StableHlo.after_of_forall_not_mem (b := Proc.devRef .tc main_arg2) _ _ (by not_written)
    _ = W1 m ρ c (Proc.devRef .tc main_arg2) :=
        (W2_arr m ρ c 1).trans (((dat0 (V1 m ρ) c).arrAt_in 1 rfl _).trans (A_eq0 (V1 m ρ) c 1))
    _ = m ((c : Thread nD τ).loc main_arg2) := W1_launch m ρ c main_arg2 (by not_written)
theorem W4_arg9 (c : Dev nD) : W4 m ρ c (Proc.devRef .tc main_arg9) = m ((c : Thread nD τ).loc main_arg9) :=
  W4_launch m ρ c main_arg9 (by not_written) (by decide) (by not_written) (by decide)
theorem W4_arg10 (c : Dev nD) : W4 m ρ c (Proc.devRef .tc main_arg10) = m ((c : Thread nD τ).loc main_arg10) :=
  W4_launch m ρ c main_arg10 (by not_written) (by decide) (by not_written) (by decide)
theorem W4_arg11 (c : Dev nD) : W4 m ρ c (Proc.devRef .tc main_arg11) = m ((c : Thread nD τ).loc main_arg11) :=
  W4_launch m ρ c main_arg11 (by not_written) (by decide) (by not_written) (by decide)
theorem W4_arg12 (c : Dev nD) : W4 m ρ c (Proc.devRef .tc main_arg12) = m ((c : Thread nD τ).loc main_arg12) :=
  W4_launch m ρ c main_arg12 (by not_written) (by decide) (by not_written) (by decide)
theorem W4_arg13 (c : Dev nD) : W4 m ρ c (Proc.devRef .tc main_arg13) = m ((c : Thread nD τ).loc main_arg13) :=
  W4_launch m ρ c main_arg13 (by not_written) (by decide) (by not_written) (by decide)
theorem W4_arg14 (c : Dev nD) : W4 m ρ c (Proc.devRef .tc main_arg14) = m ((c : Thread nD τ).loc main_arg14) :=
  W4_launch m ρ c main_arg14 (by not_written) (by decide) (by not_written) (by decide)
theorem W4_arg15 (c : Dev nD) : W4 m ρ c (Proc.devRef .tc main_arg15) = m ((c : Thread nD τ).loc main_arg15) :=
  W4_launch m ρ c main_arg15 (by not_written) (by decide) (by not_written) (by decide)
theorem W4_arg16 (c : Dev nD) : W4 m ρ c (Proc.devRef .tc main_arg16) = m ((c : Thread nD τ).loc main_arg16) :=
  W4_launch m ρ c main_arg16 (by not_written) (by decide) (by not_written) (by decide)
theorem W4_arg17 (c : Dev nD) : W4 m ρ c (Proc.devRef .tc main_arg17) = m ((c : Thread nD τ).loc main_arg17) :=
  W4_launch m ρ c main_arg17 (by not_written) (by decide) (by not_written) (by decide)
theorem W4_arg18 (c : Dev nD) : W4 m ρ c (Proc.devRef .tc main_arg18) = m ((c : Thread nD τ).loc main_arg18) :=
  W4_launch m ρ c main_arg18 (by not_written) (by decide) (by not_written) (by decide)
theorem W4_arg19 (c : Dev nD) : W4 m ρ c (Proc.devRef .tc main_arg19) = m ((c : Thread nD τ).loc main_arg19) :=
  W4_launch m ρ c main_arg19 (by not_written) (by decide) (by not_written) (by decide)
theorem W4_arg20 (c : Dev nD) : W4 m ρ c (Proc.devRef .tc main_arg20) = m ((c : Thread nD τ).loc main_arg20) :=
  W4_launch m ρ c main_arg20 (by not_written) (by decide) (by not_written) (by decide)
theorem W4_arg21 (c : Dev nD) : W4 m ρ c (Proc.devRef .tc main_arg21) = m ((c : Thread nD τ).loc main_arg21) :=
  W4_launch m ρ c main_arg21 (by not_written) (by decide) (by not_written) (by decide)
theorem W4_arg22 (c : Dev nD) : W4 m ρ c (Proc.devRef .tc main_arg22) = m ((c : Thread nD τ).loc main_arg22) :=
  W4_launch m ρ c main_arg22 (by not_written) (by decide) (by not_written) (by decide)

end Cert.KernelIdeal.Chain
-- ==== Proof.KernelChain2.lean ====
/-
  THE SECOND LAYER in the kernel's program: the buffer contents at the exit of the fourth kernel region (the segment
  boundary `Gen.W8`), from the first layer's facts at `Gen.W4`.

  Between the two boundaries the program wraps the source index again and gathers the first layer's rows at it,
  reshapes two bias vectors to rows, runs the edge-message region, zeroes an array and adds the messages into it at the
  destination rows, reshapes a third bias vector, and runs the node-update region. Each buffer is read back through
  these four segments: a buffer a segment does not write is what it was; a buffer a host operation writes is the
  operation's function of its operands' contents; a region's output array is the region's entry-by-entry value of its
  input arrays as the region found them. Put together, the fourth region's output is the network's second-layer
  features of the arguments, and the two rows of the edge list and every argument a later layer reads are unchanged.
-/
import proofs.«168661_j64132451664027_1_alg».proof.Proof.Gen.KernelIdeal.Frame
import proofs.«168661_j64132451664027_1_alg».proof.Proof.GraphConv
import proofs.«168661_j64132451664027_1_alg».proof.Proof.KernelStages
import proofs.«168661_j64132451664027_1_alg».proof.Proof.EdgeValue2
import proofs.«168661_j64132451664027_1_alg».proof.Proof.NodeValue3
import proofs.«168661_j64132451664027_1_alg».proof.Proof.KernelChain1

set_option maxRecDepth 16384
noncomputable section
namespace Cert.KernelIdeal.Chain
open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.GraphConv (h1 feat h3 logits out0 out1 out2)
open Cert.KernelIdeal.Net (stages inputs edgeRow0 edgeRow1)

variable (m : (ℓ : Loc nD τ sig) → Buf (Elt Ideal) ℓ) (ρ : Dev nD → PrngReg)

/-- A buffer that no operation of a host stretch writes holds after the stretch what it held before it: the
    stretch's result buffers are listed and each is a different reference. -/
local macro "stretch_keeps" ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Buffers the second layer's two stretches and two regions leave alone -/

theorem W8_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := by stretch_keeps hostOps3
    _ = W5 m ρ c (Proc.devRef .tc main_arg15) := W6_of_ne m ρ c main_arg15 (by decide)
    _ = W4 m ρ c (Proc.devRef .tc main_arg15) := by stretch_keeps hostOps2
    _ = m ((c : Thread nD τ).loc main_arg15) := W4_arg15 m ρ c

theorem W8_v1 (c : Dev nD) : W8 m ρ c (Proc.devRef .tc main_v1) = edgeRow0 (m ((c : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := by stretch_keeps hostOps3
    _ = W5 m ρ c (Proc.devRef .tc main_v1) := W6_of_ne m ρ c main_v1 (by decide)
    _ = W4 m ρ c (Proc.devRef .tc main_v1) := by stretch_keeps hostOps2
    _ = edgeRow0 (m ((c : Thread nD τ).loc main_arg1)) := W4_v1 m ρ c

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by stretch_keeps hostOps3
    _ = W5 m ρ c (Proc.devRef .tc main_arg2) := (W6_arr m ρ c 1).trans (((dat2 (V5 m ρ) c).arrAt_in 1 rfl _).trans (A_eq2 (V5 m ρ) c 1))
    _ = W4 m ρ c (Proc.devRef .tc main_arg2) := by stretch_keeps hostOps2
    _ = m ((c : Thread nD τ).loc main_arg2) := W4_arg2 m ρ c

/-! ## The stretch before the third region: the wrapped source index, the gathered rows, two bias rows -/

private theorem W5_v25 (c : Dev nD) :
    W5 m ρ c (Proc.devRef .tc main_v25)
      = Host.gather gather_S100000x64_S1200000x1_S1200000x64_1_0_n_n_0_1_164 (W4 m ρ c (Proc.devRef .tc main_v18))
          (Net.wrapIdx (W4 m ρ c (Proc.devRef .tc main_v1))) := by
  show StableHlo.after hostOps2 _ (Proc.devRef .tc main_v25) = _
  after_results
  rfl

private theorem W5_v26 (c : Dev nD) :
    W5 m ρ c (Proc.devRef .tc main_v26) = Cert.Lib.Dense.biasRow (W4 m ρ c (Proc.devRef .tc main_arg10)) := by
  show StableHlo.after hostOps2 _ (Proc.devRef .tc main_v26) = _
  after_results
  exact Cert.Lib.Dense.shapeCast_row _ _

private theorem W5_v27 (c : Dev nD) :
    W5 m ρ c (Proc.devRef .tc main_v27) = Cert.Lib.Dense.biasRow (W4 m ρ c (Proc.devRef .tc main_arg12)) := by
  show StableHlo.after hostOps2 _ (Proc.devRef .tc main_v27) = _
  after_results
  exact Cert.Lib.Dense.shapeCast_row _ _

/-! ## The third region: the second layer's messages -/

private theorem W6_v28 (c : Dev nD) :
    W6 m ρ c (Proc.devRef .tc main_v28)
      = Cert.GraphConv.edge (W5 m ρ c (Proc.devRef .tc main_v25)) (W5 m ρ c (Proc.devRef .tc main_arg2))
          (W5 m ρ c (Proc.devRef .tc main_arg9)) (W5 m ρ c (Proc.devRef .tc main_v26))
          (W5 m ρ c (Proc.devRef .tc main_arg11)) (W5 m ρ c (Proc.devRef .tc main_v27)) :=
  (W6_arr m ρ c 6).trans (EdgeValue2.final (V5 m ρ) c)

/-! ## The stretch before the fourth region: the zero array, the destination index, the sum at the destination rows,
    a bias row -/

private theorem W7_v31 (c : Dev nD) :
    W7 m ρ c (Proc.devRef .tc main_v31)
      = Host.scatterAdd (F := Ideal) (φ := .f32) scatter_S100000x64_S1200000x1_S1200000x64_1_0_0_1
          (broadcastInDim S100000x64 ![] bcast_S_S100000x64 (constant (F := Ideal) S_ .f32 0x00000000#32))
          (Net.colIdx (W6 m ρ c (Proc.devRef .tc main_v3))) (W6 m ρ c (Proc.devRef .tc main_v28)) := by
  show StableHlo.after hostOps3 _ (Proc.devRef .tc main_v31) = _
  after_results
  rfl

private theorem W7_v32 (c : Dev nD) :
    W7 m ρ c (Proc.devRef .tc main_v32) = Cert.Lib.Dense.biasRow (W6 m ρ c (Proc.devRef .tc main_arg14)) := by
  show StableHlo.after hostOps3 _ (Proc.devRef .tc main_v32) = _
  after_results
  exact Cert.Lib.Dense.shapeCast_row _ _

/-! ## The fourth region: the second layer's node update -/

private theorem W8_v33 (c : Dev nD) :
    W8 m ρ c (Proc.devRef .tc main_v33)
      = Cert.GraphConv.node (W7 m ρ c (Proc.devRef .tc main_v18)) (W7 m ρ c (Proc.devRef .tc main_v31))
          (W7 m ρ c (Proc.devRef .tc main_arg13)) (W7 m ρ c (Proc.devRef .tc main_v32)) :=
  (W8_arr m ρ c 4).trans (NodeValue3.final (V7 m ρ) c)

/-! ## The second layer's features -/

/-- The first layer's node array is still there when the fourth region reads it. -/
private theorem W7_v18 (c : Dev nD) : W7 m ρ c (Proc.devRef .tc main_v18) = h1 stages (inputs m c) :=
  calc W7 m ρ c (Proc.devRef .tc main_v18)
    _ = W6 m ρ c (Proc.devRef .tc main_v18) := by stretch_keeps hostOps3
    _ = W5 m ρ c (Proc.devRef .tc main_v18) := W6_of_ne m ρ c main_v18 (by decide)
    _ = W4 m ρ c (Proc.devRef .tc main_v18) := by stretch_keeps hostOps2
    _ = h1 stages (inputs m c) := W4_h1 m ρ c

private theorem W7_arg13 (c : Dev nD) : W7 m ρ c (Proc.devRef .tc main_arg13) = m ((c : Thread nD τ).loc main_arg13) :=
  calc W7 m ρ c (Proc.devRef .tc main_arg13)
    _ = W6 m ρ c (Proc.devRef .tc main_arg13) := by stretch_keeps hostOps3
    _ = W5 m ρ c (Proc.devRef .tc main_arg13) := W6_of_ne m ρ c main_arg13 (by decide)
    _ = W4 m ρ c (Proc.devRef .tc main_arg13) := by stretch_keeps hostOps2
    _ = m ((c : Thread nD τ).loc main_arg13) := W4_arg13 m ρ c

private theorem W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by stretch_keeps hostOps2
    _ = m ((c : Thread nD τ).loc main_arg14) := W4_arg14 m ρ c

private theorem W6_v3 (c : Dev nD) : W6 m ρ c (Proc.devRef .tc main_v3) = edgeRow1 (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by stretch_keeps hostOps2
    _ = edgeRow1 (m ((c : Thread nD τ).loc main_arg1)) := W4_v3 m ρ c

private theorem W5_arg2 (c : Dev nD) : W5 m ρ c (Proc.devRef .tc main_arg2) = m ((c : Thread nD τ).loc main_arg2) :=
  (show W5 m ρ c (Proc.devRef .tc main_arg2) = W4 m ρ c (Proc.devRef .tc main_arg2) by stretch_keeps hostOps2).trans (W4_arg2 m ρ c)
private theorem W5_arg9 (c : Dev nD) : W5 m ρ c (Proc.devRef .tc main_arg9) = m ((c : Thread nD τ).loc main_arg9) :=
  (show W5 m ρ c (Proc.devRef .tc main_arg9) = W4 m ρ c (Proc.devRef .tc main_arg9) by stretch_keeps hostOps2).trans (W4_arg9 m ρ c)
private theorem W5_arg11 (c : Dev nD) : W5 m ρ c (Proc.devRef .tc main_arg11) = m ((c : Thread nD τ).loc main_arg11) :=
  (show W5 m ρ c (Proc.devRef .tc main_arg11) = W4 m ρ c (Proc.devRef .tc main_arg11) by stretch_keeps hostOps2).trans (W4_arg11 m ρ c)

/-! The host stages and the arguments, field by field. -/

private theorem stages_gather64 (x : Cert.GraphConv.Arr 100000 64) (i : Cert.GraphConv.RowIdx) :
    stages.gather64 x i = Host.gather gather_S100000x64_S1200000x1_S1200000x64_1_0_n_n_0_1_164 x i := rfl
private theorem stages_src (ei : Cert.GraphConv.EdgeIdx) : stages.src ei = Net.wrapIdx (edgeRow0 ei) := rfl
private theorem stages_dst (ei : Cert.GraphConv.EdgeIdx) : stages.dst ei = Net.colIdx (edgeRow1 ei) := rfl
private theorem stages_zero :
    stages.zero = broadcastInDim S100000x64 ![] bcast_S_S100000x64 (constant (F := Ideal) S_ .f32 0x00000000#32) := rfl
private theorem stages_scatter (x : Cert.GraphConv.Arr 100000 64) (i : Cert.GraphConv.RowIdx) (u : Cert.GraphConv.Arr 1200000 64) :
    stages.scatter x i u
      = Host.scatterAdd (F := Ideal) (φ := .f32) scatter_S100000x64_S1200000x1_S1200000x64_1_0_0_1 x i u := rfl
private theorem inputs_ei (c : Dev nD) : (inputs m c).ei = m ((c : Thread nD τ).loc main_arg1) := rfl
private theorem inputs_ea (c : Dev nD) : (inputs m c).ea = m ((c : Thread nD τ).loc main_arg2) := rfl
private theorem inputs_Wm2 (c : Dev nD) : (inputs m c).Wm2 = m ((c : Thread nD τ).loc main_arg9) := rfl
private theorem inputs_bm2 (c : Dev nD) : (inputs m c).bm2 = m ((c : Thread nD τ).loc main_arg10) := rfl
private theorem inputs_We2 (c : Dev nD) : (inputs m c).We2 = m ((c : Thread nD τ).loc main_arg11) := rfl
private theorem inputs_be2 (c : Dev nD) : (inputs m c).be2 = m ((c : Thread nD τ).loc main_arg12) := rfl
private theorem inputs_Ws2 (c : Dev nD) : (inputs m c).Ws2 = m ((c : Thread nD τ).loc main_arg13) := rfl
private theorem inputs_bs2 (c : Dev nD) : (inputs m c).bs2 = m ((c : Thread nD τ).loc main_arg14) := rfl

/-- The second layer's messages, over the program's arguments. -/
private theorem W6_msg (c : Dev nD) :
    W6 m ρ c (Proc.devRef .tc main_v28)
      = Cert.GraphConv.msg64 stages (h1 stages (inputs m c)) (inputs m c).ei (inputs m c).ea (inputs m c).Wm2
          (inputs m c).bm2 (inputs m c).We2 (inputs m c).be2 := by
  rw [W6_v28, W5_v25, W5_arg2, W5_arg9, W5_v26, W5_arg11, W5_v27, W4_h1, W4_v1, W4_arg10, W4_arg12]
  unfold Cert.GraphConv.msg64
  rw [stages_gather64, stages_src, inputs_ei, inputs_ea, inputs_Wm2, inputs_bm2, inputs_We2, inputs_be2]

/-- The messages summed at their destination rows. -/
private theorem W7_agg (c : Dev nD) :
    W7 m ρ c (Proc.devRef .tc main_v31)
      = Cert.GraphConv.agg stages (inputs m c).ei
          (Cert.GraphConv.msg64 stages (h1 stages (inputs m c)) (inputs m c).ei (inputs m c).ea (inputs m c).Wm2
            (inputs m c).bm2 (inputs m c).We2 (inputs m c).be2) := by
  rw [W7_v31, W6_v3, W6_msg]
  unfold Cert.GraphConv.agg
  rw [stages_scatter, stages_zero, stages_dst, inputs_ei]

theorem W8_feat (c : Dev nD) : W8 m ρ c (Proc.devRef .tc main_v33) = feat stages (inputs m c) := by
  rw [W8_v33, W7_v18, W7_agg, W7_arg13, W7_v32, W6_arg14]
  unfold Cert.GraphConv.feat Cert.GraphConv.layer64
  rw [inputs_Ws2, inputs_bs2]

theorem W8_v3 (c : Dev nD) : W8 m ρ c (Proc.devRef .tc main_v3) = edgeRow1 (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by stretch_keeps hostOps3
    _ = W5 m ρ c (Proc.devRef .tc main_v3) := W6_of_ne m ρ c main_v3 (by decide)
    _ = W4 m ρ c (Proc.devRef .tc main_v3) := by stretch_keeps hostOps2
    _ = edgeRow1 (m ((c : Thread nD τ).loc main_arg1)) := W4_v3 m ρ c

theorem W8_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := by stretch_keeps hostOps3
    _ = W5 m ρ c (Proc.devRef .tc main_arg16) := W6_of_ne m ρ c main_arg16 (by decide)
    _ = W4 m ρ c (Proc.devRef .tc main_arg16) := by stretch_keeps hostOps2
    _ = m ((c : Thread nD τ).loc main_arg16) := W4_arg16 m ρ c

theorem W8_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := by stretch_keeps hostOps3
    _ = W5 m ρ c (Proc.devRef .tc main_arg17) := W6_of_ne m ρ c main_arg17 (by decide)
    _ = W4 m ρ c (Proc.devRef .tc main_arg17) := by stretch_keeps hostOps2
    _ = m ((c : Thread nD τ).loc main_arg17) := W4_arg17 m ρ c

theorem W8_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := by stretch_keeps hostOps3
    _ = W5 m ρ c (Proc.devRef .tc main_arg18) := W6_of_ne m ρ c main_arg18 (by decide)
    _ = W4 m ρ c (Proc.devRef .tc main_arg18) := by stretch_keeps hostOps2
    _ = m ((c : Thread nD τ).loc main_arg18) := W4_arg18 m ρ c

theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := by stretch_keeps hostOps3
    _ = W5 m ρ c (Proc.devRef .tc main_arg19) := W6_of_ne m ρ c main_arg19 (by decide)
    _ = W4 m ρ c (Proc.devRef .tc main_arg19) := by stretch_keeps hostOps2
    _ = m ((c : Thread nD τ).loc main_arg19) := W4_arg19 m ρ c

theorem W8_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := by stretch_keeps hostOps3
    _ = W5 m ρ c (Proc.devRef .tc main_arg20) := W6_of_ne m ρ c main_arg20 (by decide)
    _ = W4 m ρ c (Proc.devRef .tc main_arg20) := by stretch_keeps hostOps2
    _ = m ((c : Thread nD τ).loc main_arg20) := W4_arg20 m ρ c

theorem W8_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := by stretch_keeps hostOps3
    _ = W5 m ρ c (Proc.devRef .tc main_arg21) := W6_of_ne m ρ c main_arg21 (by decide)
    _ = W4 m ρ c (Proc.devRef .tc main_arg21) := by stretch_keeps hostOps2
    _ = m ((c : Thread nD τ).loc main_arg21) := W4_arg21 m ρ c

theorem W8_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := by stretch_keeps hostOps3
    _ = W5 m ρ c (Proc.devRef .tc main_arg22) := W6_of_ne m ρ c main_arg22 (by decide)
    _ = W4 m ρ c (Proc.devRef .tc main_arg22) := by stretch_keeps hostOps2
    _ = m ((c : Thread nD τ).loc main_arg22) := W4_arg22 m ρ c

end Cert.KernelIdeal.Chain
-- ==== Proof.KernelChain3.lean ====
/-
  THE THIRD LAYER AND THE CLOSING HOST OPERATIONS in the kernel's program: the three result buffers at the last segment
  boundary `Gen.W13`, from the second layer's facts at `Gen.W8`.

  From the fourth region's exit the program wraps the source index, gathers the source rows of the second layer's
  features and reshapes two bias vectors to rows; the fifth region leaves the third layer's message array; the next
  stretch scatter-adds the messages over a zero array at the destination rows and reshapes the node bias; the sixth
  region leaves the third node array, which is the network's `h3` of the arguments. The closing stretch forms the
  logit (the third node array against the [64, 1] weight plus the scalar bias broadcast twice), its squashing
  1 / (1 + exp (-logit)), and the second layer's features beside the logit. The second layer's features themselves are
  written by no later stretch and are only read by the two regions (the sixth through an input window, which hands
  its array back as it took it), so they reach the end as they were.

  * `W9_*`, `W11_*`, `W13_v*`: what each stretch leaves in a buffer it writes, over the contents it started from;
    `W9_keep`, `W11_keep`, `W13_keep`: a buffer the stretch does not write keeps its contents;
  * `W10_v43`, `W12_v48`: a region's output array is the edge message / the node update of its operand arrays;
  * `W10_msg`, `W11_agg`, `W12_h3`, `W13_logits`: the same buffers as the network's stages of the arguments;
  * `W13_out0`, `W13_out1`, `W13_out2`: the three results.
-/
import proofs.«168661_j64132451664027_1_alg».proof.Proof.Gen.KernelIdeal.Frame
import proofs.«168661_j64132451664027_1_alg».proof.Proof.GraphConv
import proofs.«168661_j64132451664027_1_alg».proof.Proof.KernelStages
import proofs.«168661_j64132451664027_1_alg».proof.Proof.EdgeValue4
import proofs.«168661_j64132451664027_1_alg».proof.Proof.NodeValue5
import proofs.«168661_j64132451664027_1_alg».proof.Proof.KernelChain2

set_option maxRecDepth 16384
noncomputable section
namespace Cert.KernelIdeal.Chain
open Cert.KernelIdeal Cert.KernelIdeal.Gen
open Idealize.ShloMosaic Idealize.ShloMosaic.TcCoe Idealize.SL.Sem
open Idealize.ShloMosaic.Pipeline (Dat Cfg Window)
open Idealize.ShloMosaic.ValueIdx
open Cert.GraphConv (h1 feat h3 logits out0 out1 out2)
open Cert.KernelIdeal.Net (stages inputs edgeRow0 edgeRow1)

variable (m : (ℓ : Loc nD τ sig) → Buf (Elt Ideal) ℓ) (ρ : Dev nD → PrngReg)

/-! ## The stretch after the fourth region: the gathered source rows, two bias rows -/

private theorem W9_v40 (c : Dev nD) :
    W9 m ρ c (Proc.devRef .tc main_v40)
      = stages.gather64 (W8 m ρ c (Proc.devRef .tc main_v33)) (Net.wrapIdx (W8 m ρ c (Proc.devRef .tc main_v1))) := by
  show StableHlo.after hostOps4 _ (Proc.devRef .tc main_v40) = _
  after_results
  rfl

private theorem W9_v41 (c : Dev nD) :
    W9 m ρ c (Proc.devRef .tc main_v41) = Cert.Lib.Dense.biasRow (W8 m ρ c (Proc.devRef .tc main_arg16)) := by
  show StableHlo.after hostOps4 _ (Proc.devRef .tc main_v41) = _
  after_results
  exact Cert.Lib.Dense.shapeCast_row (N := 64) (W8 m ρ c (Proc.devRef .tc main_arg16)) shapeCasts_S64_S1x64

private theorem W9_v42 (c : Dev nD) :
    W9 m ρ c (Proc.devRef .tc main_v42) = Cert.Lib.Dense.biasRow (W8 m ρ c (Proc.devRef .tc main_arg18)) := by
  show StableHlo.after hostOps4 _ (Proc.devRef .tc main_v42) = _
  after_results
  exact Cert.Lib.Dense.shapeCast_row (N := 64) (W8 m ρ c (Proc.devRef .tc main_arg18)) shapeCasts_S64_S1x64

private theorem W9_keep (c : Dev nD) (b : Ref sig .tc)
    (hb : b ∉ [main_c_4, main_v34, main_v35, main_c_5, main_v36, main_v37, main_v38, main_v39, main_v40, main_v41, main_v42]) :
    W9 m ρ c (Proc.devRef .tc b) = W8 m ρ c (Proc.devRef .tc b) := by
  refine StableHlo.after_of_writes_sub (W := [main_c_4, main_v34, main_v35, main_c_5, main_v36, main_v37, main_v38, main_v39, main_v40, main_v41, main_v42]) hostOps4 _ ?_ hb
  simp only [hostOps4, List.Forall, StableHlo.nullary_writes, StableHlo.unary_writes, StableHlo.binary_writes, StableHlo.ternary_writes, StableHlo.reshape_writes]
  decide

/-! ## The fifth region (the message array), the stretch after it (the scatter-add, a bias row), the sixth region -/

private theorem W10_v43 (c : Dev nD) :
    W10 m ρ c (Proc.devRef .tc main_v43)
      = Cert.GraphConv.edge (W9 m ρ c (Proc.devRef .tc main_v40)) (W9 m ρ c (Proc.devRef .tc main_arg2))
          (W9 m ρ c (Proc.devRef .tc main_arg15)) (W9 m ρ c (Proc.devRef .tc main_v41))
          (W9 m ρ c (Proc.devRef .tc main_arg17)) (W9 m ρ c (Proc.devRef .tc main_v42)) :=
  (W10_arr m ρ c 6).trans (EdgeValue4.final (V9 m ρ) c)

private theorem W10_v33 (c : Dev nD) : W10 m ρ c (Proc.devRef .tc main_v33) = W9 m ρ c (Proc.devRef .tc main_v33) :=
  W10_of_ne m ρ c main_v33 (by decide)
private theorem W10_v3 (c : Dev nD) : W10 m ρ c (Proc.devRef .tc main_v3) = W9 m ρ c (Proc.devRef .tc main_v3) :=
  W10_of_ne m ρ c main_v3 (by decide)

private theorem W11_v46 (c : Dev nD) :
    W11 m ρ c (Proc.devRef .tc main_v46)
      = Host.scatterAdd (F := Ideal) (φ := .f32) scatter_S100000x64_S1200000x1_S1200000x64_1_0_0_1
          (broadcastInDim S100000x64 ![] bcast_S_S100000x64 (constant (F := Ideal) S_ .f32 0x00000000#32))
          (Net.colIdx (W10 m ρ c (Proc.devRef .tc main_v3))) (W10 m ρ c (Proc.devRef .tc main_v43)) := by
  show StableHlo.after hostOps5 _ (Proc.devRef .tc main_v46) = _
  after_results
  rfl

private theorem W11_v47 (c : Dev nD) :
    W11 m ρ c (Proc.devRef .tc main_v47) = Cert.Lib.Dense.biasRow (W10 m ρ c (Proc.devRef .tc main_arg20)) := by
  show StableHlo.after hostOps5 _ (Proc.devRef .tc main_v47) = _
  after_results
  exact Cert.Lib.Dense.shapeCast_row (N := 64) (W10 m ρ c (Proc.devRef .tc main_arg20)) shapeCasts_S64_S1x64

private theorem W11_keep (c : Dev nD) (b : Ref sig .tc)
    (hb : b ∉ [main_cst_6, main_v44, main_v45, main_v46, main_v47]) :
    W11 m ρ c (Proc.devRef .tc b) = W10 m ρ c (Proc.devRef .tc b) := by
  refine StableHlo.after_of_writes_sub (W := [main_cst_6, main_v44, main_v45, main_v46, main_v47]) hostOps5 _ ?_ hb
  simp only [hostOps5, List.Forall, StableHlo.nullary_writes, StableHlo.unary_writes, StableHlo.binary_writes, StableHlo.ternary_writes, StableHlo.reshape_writes]
  decide

private theorem W12_v48 (c : Dev nD) :
    W12 m ρ c (Proc.devRef .tc main_v48)
      = Cert.GraphConv.node (W11 m ρ c (Proc.devRef .tc main_v33)) (W11 m ρ c (Proc.devRef .tc main_v46))
          (W11 m ρ c (Proc.devRef .tc main_arg19)) (W11 m ρ c (Proc.devRef .tc main_v47)) :=
  (W12_arr m ρ c 4).trans (NodeValue5.final (V11 m ρ) c)

private theorem W12_v33 (c : Dev nD) : W12 m ρ c (Proc.devRef .tc main_v33) = W11 m ρ c (Proc.devRef .tc main_v33) :=
  (W12_arr m ρ c 0).trans (((dat5 (V11 m ρ) c).arrAt_in 0 rfl _).trans (A_eq5 (V11 m ρ) c 0))

/-! ## The closing stretch: the logit, its squashing, the features beside the logit -/

private theorem W13_v52 (c : Dev nD) :
    W13 m ρ c (Proc.devRef .tc main_v52)
      = Net.logitOf (W12 m ρ c (Proc.devRef .tc main_v48)) (W12 m ρ c (Proc.devRef .tc main_arg21))
          (W12 m ρ c (Proc.devRef .tc main_arg22)) := by
  show StableHlo.after hostOps6 _ (Proc.devRef .tc main_v52) = _
  after_results
  rfl

private theorem W13_v58 (c : Dev nD) :
    W13 m ρ c (Proc.devRef .tc main_v58)
      = Net.sigmOf (Net.logitOf (W12 m ρ c (Proc.devRef .tc main_v48)) (W12 m ρ c (Proc.devRef .tc main_arg21))
          (W12 m ρ c (Proc.devRef .tc main_arg22))) := by
  show StableHlo.after hostOps6 _ (Proc.devRef .tc main_v58) = _
  after_results
  rfl

private theorem W13_v59 (c : Dev nD) :
    W13 m ρ c (Proc.devRef .tc main_v59)
      = Net.catOf (W12 m ρ c (Proc.devRef .tc main_v33))
          (Net.logitOf (W12 m ρ c (Proc.devRef .tc main_v48)) (W12 m ρ c (Proc.devRef .tc main_arg21))
            (W12 m ρ c (Proc.devRef .tc main_arg22))) := by
  show StableHlo.after hostOps6 _ (Proc.devRef .tc main_v59) = _
  after_results
  rfl

private theorem W13_keep (c : Dev nD) (b : Ref sig .tc)
    (hb : b ∉ [main_v49, main_v50, main_v51, main_v52, main_v53, main_v54, main_cst_7, main_v55, main_v56, main_cst_8, main_v57, main_v58, main_v59]) :
    W13 m ρ c (Proc.devRef .tc b) = W12 m ρ c (Proc.devRef .tc b) := by
  refine StableHlo.after_of_writes_sub (W := [main_v49, main_v50, main_v51, main_v52, main_v53, main_v54, main_cst_7, main_v55, main_v56, main_cst_8, main_v57, main_v58, main_v59]) hostOps6 _ ?_ hb
  simp only [hostOps6, List.Forall, StableHlo.nullary_writes, StableHlo.unary_writes, StableHlo.binary_writes, StableHlo.ternary_writes, StableHlo.reshape_writes]
  decide

/-! ## A buffer that neither stretch nor region writes is carried unchanged -/

private theorem W10_pass (c : Dev nD) (b : Ref sig .tc)
    (h4 : b ∉ [main_c_4, main_v34, main_v35, main_c_5, main_v36, main_v37, main_v38, main_v39, main_v40, main_v41, main_v42])
    (r4 : ∀ w, Pipeline.arrRef spec4 w ≠ b) :
    W10 m ρ c (Proc.devRef .tc b) = W8 m ρ c (Proc.devRef .tc b) :=
  (W10_of_ne m ρ c b r4).trans (W9_keep m ρ c b h4)

private theorem W11_pass (c : Dev nD) (b : Ref sig .tc)
    (h4 : b ∉ [main_c_4, main_v34, main_v35, main_c_5, main_v36, main_v37, main_v38, main_v39, main_v40, main_v41, main_v42])
    (r4 : ∀ w, Pipeline.arrRef spec4 w ≠ b) (h5 : b ∉ [main_cst_6, main_v44, main_v45, main_v46, main_v47]) :
    W11 m ρ c (Proc.devRef .tc b) = W8 m ρ c (Proc.devRef .tc b) :=
  (W11_keep m ρ c b h5).trans (W10_pass m ρ c b h4 r4)

private theorem W12_pass (c : Dev nD) (b : Ref sig .tc)
    (h4 : b ∉ [main_c_4, main_v34, main_v35, main_c_5, main_v36, main_v37, main_v38, main_v39, main_v40, main_v41, main_v42])
    (r4 : ∀ w, Pipeline.arrRef spec4 w ≠ b) (h5 : b ∉ [main_cst_6, main_v44, main_v45, main_v46, main_v47])
    (r5 : ∀ w, Pipeline.arrRef spec5 w ≠ b) :
    W12 m ρ c (Proc.devRef .tc b) = W8 m ρ c (Proc.devRef .tc b) :=
  (W12_of_ne m ρ c b r5).trans (W11_pass m ρ c b h4 r4 h5)

/-! ## The second layer's features, carried to the end -/

private theorem W9_feat (c : Dev nD) : W9 m ρ c (Proc.devRef .tc main_v33) = feat stages (inputs m c) :=
  (W9_keep m ρ c main_v33 (by decide)).trans (W8_feat m ρ c)
private theorem W10_feat (c : Dev nD) : W10 m ρ c (Proc.devRef .tc main_v33) = feat stages (inputs m c) :=
  (W10_v33 m ρ c).trans (W9_feat m ρ c)
private theorem W11_feat (c : Dev nD) : W11 m ρ c (Proc.devRef .tc main_v33) = feat stages (inputs m c) :=
  (W11_keep m ρ c main_v33 (by decide)).trans (W10_feat m ρ c)
private theorem W12_feat (c : Dev nD) : W12 m ρ c (Proc.devRef .tc main_v33) = feat stages (inputs m c) :=
  (W12_v33 m ρ c).trans (W11_feat m ρ c)

/-! ## The third layer -/

private theorem W10_msg (c : Dev nD) :
    W10 m ρ c (Proc.devRef .tc main_v43)
      = Cert.GraphConv.msg64 stages (feat stages (inputs m c)) (inputs m c).ei (inputs m c).ea (inputs m c).Wm3
          (inputs m c).bm3 (inputs m c).We3 (inputs m c).be3 := by
  rw [W10_v43, W9_v40, W9_v41, W9_v42, W9_keep m ρ c main_arg2 (by decide), W9_keep m ρ c main_arg15 (by decide),
    W9_keep m ρ c main_arg17 (by decide), W8_feat, W8_v1, W8_arg2, W8_arg15, W8_arg16, W8_arg17, W8_arg18]
  rfl

private theorem W11_agg (c : Dev nD) :
    W11 m ρ c (Proc.devRef .tc main_v46)
      = Cert.GraphConv.agg stages (inputs m c).ei
          (Cert.GraphConv.msg64 stages (feat stages (inputs m c)) (inputs m c).ei (inputs m c).ea (inputs m c).Wm3
            (inputs m c).bm3 (inputs m c).We3 (inputs m c).be3) := by
  rw [W11_v46, W10_msg, W10_pass m ρ c main_v3 (by decide) (by decide), W8_v3]
  rfl

private theorem W12_h3 (c : Dev nD) : W12 m ρ c (Proc.devRef .tc main_v48) = h3 stages (inputs m c) := by
  rw [W12_v48, W11_feat, W11_agg, W11_v47, W11_pass m ρ c main_arg19 (by decide) (by decide) (by decide), W8_arg19,
    W10_pass m ρ c main_arg20 (by decide) (by decide), W8_arg20]
  rfl

/-! ## The closing host operations -/

private theorem W13_logits (c : Dev nD) :
    Net.logitOf (W12 m ρ c (Proc.devRef .tc main_v48)) (W12 m ρ c (Proc.devRef .tc main_arg21))
        (W12 m ρ c (Proc.devRef .tc main_arg22)) = logits stages (inputs m c) := by
  rw [W12_h3, W12_pass m ρ c main_arg21 (by decide) (by decide) (by decide) (by decide), W8_arg21,
    W12_pass m ρ c main_arg22 (by decide) (by decide) (by decide) (by decide), W8_arg22]
  rfl

theorem W13_out0 (c : Dev nD) : W13 m ρ c (Proc.devRef .tc main_v58) = out0 stages (inputs m c) := by
  rw [W13_v58, W13_logits]
  rfl
theorem W13_out1 (c : Dev nD) : W13 m ρ c (Proc.devRef .tc main_v33) = out1 stages (inputs m c) :=
  (W13_keep m ρ c main_v33 (by decide)).trans (W12_feat m ρ c)
theorem W13_out2 (c : Dev nD) : W13 m ρ c (Proc.devRef .tc main_v59) = out2 stages (inputs m c) := by
  rw [W13_v59, W12_feat, W13_logits]
  rfl

end Cert.KernelIdeal.Chain
-- ==== Proof.ReferenceOps.lean ====
/- The reference program's @main as a list of its 143 host operations, each outlined function's operations written in place
   of its call over that call's buffer record; the same list cut after each of the three layers; and, per list,
   the table of lemmas saying that each operation touches TensorCore buffers only. -/
import proofs.«168661_j64132451664027_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_c (constantI S_ 32 0#32),
    unary main_c main_v4 (broadcastInDim S1200000 ![] bcast_S_S1200000 : (⟨S_, .i32⟩ : BufTy).Contents (Elt F) → (⟨S1200000, .i32⟩ : BufTy).Contents (Elt F)),
    binary main_v1 main_v4 main_v5 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v6 (broadcastInDim S1200000 ![] bcast_S_S1200000 : (⟨S_, .i32⟩ : BufTy).Contents (Elt F) → (⟨S1200000, .i32⟩ : BufTy).Contents (Elt F)),
    binary main_v1 main_v6 main_v7 (addi : (⟨S1200000, .i32⟩ : BufTy).Contents (Elt F) → (⟨S1200000, .i32⟩ : BufTy).Contents (Elt F) → (⟨S1200000, .i32⟩ : BufTy).Contents (Elt F)),
    ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v8 main_v9 (broadcastInDim S1200000x1 ![0] bcast_S1200000_S1200000x1_0 : (⟨S1200000, .i32⟩ : BufTy).Contents (Elt F) → (⟨S1200000x1, .i32⟩ : BufTy).Contents (Elt F)),
    binary main_arg0 main_v9 main_v10 ((fun x i => Host.gather gather_S100000x128_S1200000x1_S1200000x128_1_0_n_n_0_1_1128 x i) : (⟨S100000x128, .f32⟩ : BufTy).Contents (Elt F) → (⟨S1200000x1, .i32⟩ : BufTy).Contents (Elt F) → (⟨S1200000x128, .f32⟩ : BufTy).Contents (Elt F)),
    binary main_v10 main_arg3 main_v11 ((fun l r => Host.dotGeneral dot_S1200000x128_S128x64_S1200000x64_1_0_0_1_n_n none l r) : (⟨S1200000x128, .f32⟩ : BufTy).Contents (Elt F) → (⟨S128x64, .f32⟩ : BufTy).Contents (Elt F) → (⟨S1200000x64, .f32⟩ : BufTy).Contents (Elt F)),
    unary main_arg4 main_v12 (broadcastInDim S1x64 ![1] bcast_S64_S1x64_1 : (⟨S64, .f32⟩ : BufTy).Contents (Elt F) → (⟨S1x64, .f32⟩ : BufTy).Contents (Elt F)),
    unary main_v12 main_v13 (broadcastInDim S1200000x64 ![0, 1] bcast_S1x64_S1200000x64_0_1 : (⟨S1x64, .f32⟩ : BufTy).Contents (Elt F) → (⟨S1200000x64, .f32⟩ : BufTy).Contents (Elt F)),
    binary main_v11 main_v13 main_v14 (addf : (⟨S1200000x64, .f32⟩ : BufTy).Contents (Elt F) → (⟨S1200000x64, .f32⟩ : BufTy).Contents (Elt F) → (⟨S1200000x64, .f32⟩ : BufTy).Contents (Elt F)),
    binary main_arg2 main_arg5 main_v15 ((fun l r => Host.dotGeneral dot_S1200000x16_S16x64_S1200000x64_1_0_0_1_n_n none l r) : (⟨S1200000x16, .f32⟩ : BufTy).Contents (Elt F) → (⟨S16x64, .f32⟩ : BufTy).Contents (Elt F) → (⟨S1200000x64, .f32⟩ : BufTy).Contents (Elt F)),
    binary main_v14 main_v15 main_v16 (addf : (⟨S1200000x64, .f32⟩ : BufTy).Contents (Elt F) → (⟨S1200000x64, .f32⟩ : BufTy).Contents (Elt F) → (⟨S1200000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S1200000x64 ![0, 1] bcast_S1x64_S1200000x64_0_1 : (⟨S1x64, .f32⟩ : BufTy).Contents (Elt F) → (⟨S1200000x64, .f32⟩ : BufTy).Contents (Elt F)),
    binary main_v16 main_v18 main_v19 (addf : (⟨S1200000x64, .f32⟩ : BufTy).Contents (Elt F) → (⟨S1200000x64, .f32⟩ : BufTy).Contents (Elt F) → (⟨S1200000x64, .f32⟩ : BufTy).Contents (Elt F)),
    nullary main_cst (constant S_ .f32 0x00000000#32),
    unary main_cst main_v20 (broadcastInDim S100000x64 ![] bcast_S_S100000x64 : (⟨S_, .f32⟩ : BufTy).Contents (Elt F) → (⟨S100000x64, .f32⟩ : BufTy).Contents (Elt F)),
    unary main_v3 main_v21 (broadcastInDim S1200000x1 ![0] bcast_S1200000_S1200000x1_0 : (⟨S1200000, .i32⟩ : BufTy).Contents (Elt F) → (⟨S1200000x1, .i32⟩ : BufTy).Contents (Elt F)),
    ternary main_v20 main_v21 main_v19 main_v22 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_arg0 main_arg7 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v22 main_v23 main_v24 (addf : (⟨S100000x64, .f32⟩ : BufTy).Contents (Elt F) → (⟨S100000x64, .f32⟩ : BufTy).Contents (Elt F) → (⟨S100000x64, .f32⟩ : BufTy).Contents (Elt F)),
    unary main_arg8 main_v25 (broadcastInDim S1x64 ![1] bcast_S64_S1x64_1 : (⟨S64, .f32⟩ : BufTy).Contents (Elt F) → (⟨S1x64, .f32⟩ : BufTy).Contents (Elt F)),
    unary main_v25 main_v26 (broadcastInDim S100000x64 ![0, 1] bcast_S1x64_S100000x64_0_1 : (⟨S1x64, .f32⟩ : BufTy).Contents (Elt F) → (⟨S100000x64, .f32⟩ : BufTy).Contents (Elt F)),
    binary main_v24 main_v26 main_v27 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v27) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v27) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v27) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v27) main_call0.v7 main_call0.call1.v0 select,
    nullary main_c_1 (constantI S_ 32 0#32),
    unary main_c_1 main_v29 (broadcastInDim S1200000 ![] bcast_S_S1200000 : (⟨S_, .i32⟩ : BufTy).Contents (Elt F) → (⟨S1200000, .i32⟩ : BufTy).Contents (Elt F)),
    binary main_v1 main_v29 main_v30 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 100000#32),
    unary main_c_2 main_v31 (broadcastInDim S1200000 ![] bcast_S_S1200000 : (⟨S_, .i32⟩ : BufTy).Contents (Elt F) → (⟨S1200000, .i32⟩ : BufTy).Contents (Elt F)),
    binary main_v1 main_v31 main_v32 (addi : (⟨S1200000, .i32⟩ : BufTy).Contents (Elt F) → (⟨S1200000, .i32⟩ : BufTy).Contents (Elt F) → (⟨S1200000, .i32⟩ : BufTy).Contents (Elt F)),
    ternary main_v30 main_v32 main_v1 main_v33 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v33 main_v34 (broadcastInDim S1200000x1 ![0] bcast_S1200000_S1200000x1_0 : (⟨S1200000, .i32⟩ : BufTy).Contents (Elt F) → (⟨S1200000x1, .i32⟩ : BufTy).Contents (Elt F)),
    binary main_v28 main_v34 main_v35 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    binary main_v35 main_arg9 main_v36 ((fun l r => Host.dotGeneral dot_S1200000x64_S64x64_S1200000x64_1_0_0_1_n_n none l r) : (⟨S1200000x64, .f32⟩ : BufTy).Contents (Elt F) → (⟨S64x64, .f32⟩ : BufTy).Contents (Elt F) → (⟨S1200000x64, .f32⟩ : BufTy).Contents (Elt F)),
    unary main_arg10 main_v37 (broadcastInDim S1x64 ![1] bcast_S64_S1x64_1 : (⟨S64, .f32⟩ : BufTy).Contents (Elt F) → (⟨S1x64, .f32⟩ : BufTy).Contents (Elt F)),
    unary main_v37 main_v38 (broadcastInDim S1200000x64 ![0, 1] bcast_S1x64_S1200000x64_0_1 : (⟨S1x64, .f32⟩ : BufTy).Contents (Elt F) → (⟨S1200000x64, .f32⟩ : BufTy).Contents (Elt F)),
    binary main_v36 main_v38 main_v39 (addf : (⟨S1200000x64, .f32⟩ : BufTy).Contents (Elt F) → (⟨S1200000x64, .f32⟩ : BufTy).Contents (Elt F) → (⟨S1200000x64, .f32⟩ : BufTy).Contents (Elt F)),
    binary main_arg2 main_arg11 main_v40 ((fun l r => Host.dotGeneral dot_S1200000x16_S16x64_S1200000x64_1_0_0_1_n_n none l r) : (⟨S1200000x16, .f32⟩ : BufTy).Contents (Elt F) → (⟨S16x64, .f32⟩ : BufTy).Contents (Elt F) → (⟨S1200000x64, .f32⟩ : BufTy).Contents (Elt F)),
    binary main_v39 main_v40 main_v41 (addf : (⟨S1200000x64, .f32⟩ : BufTy).Contents (Elt F) → (⟨S1200000x64, .f32⟩ : BufTy).Contents (Elt F) → (⟨S1200000x64, .f32⟩ : BufTy).Contents (Elt F)),
    unary main_arg12 main_v42 (broadcastInDim S1x64 ![1] bcast_S64_S1x64_1 : (⟨S64, .f32⟩ : BufTy).Contents (Elt F) → (⟨S1x64, .f32⟩ : BufTy).Contents (Elt F)),
    unary main_v42 main_v43 (broadcastInDim S1200000x64 ![0, 1] bcast_S1x64_S1200000x64_0_1 : (⟨S1x64, .f32⟩ : BufTy).Contents (Elt F) → (⟨S1200000x64, .f32⟩ : BufTy).Contents (Elt F)),
    binary main_v41 main_v43 main_v44 (addf : (⟨S1200000x64, .f32⟩ : BufTy).Contents (Elt F) → (⟨S1200000x64, .f32⟩ : BufTy).Contents (Elt F) → (⟨S1200000x64, .f32⟩ : BufTy).Contents (Elt F)),
    nullary main_cst_3 (constant S_ .f32 0x00000000#32),
    unary main_cst_3 main_v45 (broadcastInDim S100000x64 ![] bcast_S_S100000x64 : (⟨S_, .f32⟩ : BufTy).Contents (Elt F) → (⟨S100000x64, .f32⟩ : BufTy).Contents (Elt F)),
    unary main_v3 main_v46 (broadcastInDim S1200000x1 ![0] bcast_S1200000_S1200000x1_0 : (⟨S1200000, .i32⟩ : BufTy).Contents (Elt F) → (⟨S1200000x1, .i32⟩ : BufTy).Contents (Elt F)),
    ternary main_v45 main_v46 main_v44 main_v47 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_v28 main_arg13 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v47 main_v48 main_v49 (addf : (⟨S100000x64, .f32⟩ : BufTy).Contents (Elt F) → (⟨S100000x64, .f32⟩ : BufTy).Contents (Elt F) → (⟨S100000x64, .f32⟩ : BufTy).Contents (Elt F)),
    unary main_arg14 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v52) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v52) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v52) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v52) main_call1.v7 main_call1.call1.v0 select,
    nullary main_c_4 (constantI S_ 32 0#32),
    unary main_c_4 main_v54 (broadcastInDim S1200000 ![] bcast_S_S1200000 : (⟨S_, .i32⟩ : BufTy).Contents (Elt F) → (⟨S1200000, .i32⟩ : BufTy).Contents (Elt F)),
    binary main_v1 main_v54 main_v55 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v56 (broadcastInDim S1200000 ![] bcast_S_S1200000 : (⟨S_, .i32⟩ : BufTy).Contents (Elt F) → (⟨S1200000, .i32⟩ : BufTy).Contents (Elt F)),
    binary main_v1 main_v56 main_v57 (addi : (⟨S1200000, .i32⟩ : BufTy).Contents (Elt F) → (⟨S1200000, .i32⟩ : BufTy).Contents (Elt F) → (⟨S1200000, .i32⟩ : BufTy).Contents (Elt F)),
    ternary main_v55 main_v57 main_v1 main_v58 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v58 main_v59 (broadcastInDim S1200000x1 ![0] bcast_S1200000_S1200000x1_0 : (⟨S1200000, .i32⟩ : BufTy).Contents (Elt F) → (⟨S1200000x1, .i32⟩ : BufTy).Contents (Elt F)),
    binary main_v53 main_v59 main_v60 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    binary main_v60 main_arg15 main_v61 ((fun l r => Host.dotGeneral dot_S1200000x64_S64x64_S1200000x64_1_0_0_1_n_n none l r) : (⟨S1200000x64, .f32⟩ : BufTy).Contents (Elt F) → (⟨S64x64, .f32⟩ : BufTy).Contents (Elt F) → (⟨S1200000x64, .f32⟩ : BufTy).Contents (Elt F)),
    unary main_arg16 main_v62 (broadcastInDim S1x64 ![1] bcast_S64_S1x64_1 : (⟨S64, .f32⟩ : BufTy).Contents (Elt F) → (⟨S1x64, .f32⟩ : BufTy).Contents (Elt F)),
    unary main_v62 main_v63 (broadcastInDim S1200000x64 ![0, 1] bcast_S1x64_S1200000x64_0_1 : (⟨S1x64, .f32⟩ : BufTy).Contents (Elt F) → (⟨S1200000x64, .f32⟩ : BufTy).Contents (Elt F)),
    binary main_v61 main_v63 main_v64 (addf : (⟨S1200000x64, .f32⟩ : BufTy).Contents (Elt F) → (⟨S1200000x64, .f32⟩ : BufTy).Contents (Elt F) → (⟨S1200000x64, .f32⟩ : BufTy).Contents (Elt F)),
    binary main_arg2 main_arg17 main_v65 ((fun l r => Host.dotGeneral dot_S1200000x16_S16x64_S1200000x64_1_0_0_1_n_n none l r) : (⟨S1200000x16, .f32⟩ : BufTy).Contents (Elt F) → (⟨S16x64, .f32⟩ : BufTy).Contents (Elt F) → (⟨S1200000x64, .f32⟩ : BufTy).Contents (Elt F)),
    binary main_v64 main_v65 main_v66 (addf : (⟨S1200000x64, .f32⟩ : BufTy).Contents (Elt F) → (⟨S1200000x64, .f32⟩ : BufTy).Contents (Elt F) → (⟨S1200000x64, .f32⟩ : BufTy).Contents (Elt F)),
    unary main_arg18 main_v67 (broadcastInDim S1x64 ![1] bcast_S64_S1x64_1 : (⟨S64, .f32⟩ : BufTy).Contents (Elt F) → (⟨S1x64, .f32⟩ : BufTy).Contents (Elt F)),
    unary main_v67 main_v68 (broadcastInDim S1200000x64 ![0, 1] bcast_S1x64_S1200000x64_0_1 : (⟨S1x64, .f32⟩ : BufTy).Contents (Elt F) → (⟨S1200000x64, .f32⟩ : BufTy).Contents (Elt F)),
    binary main_v66 main_v68 main_v69 (addf : (⟨S1200000x64, .f32⟩ : BufTy).Contents (Elt F) → (⟨S1200000x64, .f32⟩ : BufTy).Contents (Elt F) → (⟨S1200000x64, .f32⟩ : BufTy).Contents (Elt F)),
    nullary main_cst_6 (constant S_ .f32 0x00000000#32),
    unary main_cst_6 main_v70 (broadcastInDim S100000x64 ![] bcast_S_S100000x64 : (⟨S_, .f32⟩ : BufTy).Contents (Elt F) → (⟨S100000x64, .f32⟩ : BufTy).Contents (Elt F)),
    unary main_v3 main_v71 (broadcastInDim S1200000x1 ![0] bcast_S1200000_S1200000x1_0 : (⟨S1200000, .i32⟩ : BufTy).Contents (Elt F) → (⟨S1200000x1, .i32⟩ : BufTy).Contents (Elt F)),
    ternary main_v70 main_v71 main_v69 main_v72 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_v53 main_arg19 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v72 main_v73 main_v74 (addf : (⟨S100000x64, .f32⟩ : BufTy).Contents (Elt F) → (⟨S100000x64, .f32⟩ : BufTy).Contents (Elt F) → (⟨S100000x64, .f32⟩ : BufTy).Contents (Elt F)),
    unary main_arg20 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v77) main_call2.v0 main_call2.v1 (cmpf .ogt),
    TRef.nullary main_call2.cst_0 (constant S_ .f32 0x00000000#32),
    TRef.unary main_call2.cst_0 main_call2.v2 (broadcastInDim S100000x64 ![] bcast_S_S100000x64),
    TRef.binary (.of main_v77) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x64 ![] bcast_S_S100000x64),
    TRef.ternary main_call2.v3 main_call2.call0.v1 (.of main_v77) main_call2.call0.v2 select,
    TRef.unary main_call2.call0.v2 main_call2.v5 Host.expm1,
    TRef.nullary main_call2.cst_2 (constant S_ .f32 0x3F800000#32),
    TRef.unary main_call2.cst_2 main_call2.v6 (broadcastInDim S100000x64 ![] bcast_S_S100000x64),
    TRef.binary main_call2.v6 main_call2.v5 main_call2.v7 mulf,
    TRef.ternary main_call2.v1 (.of main_v77) main_call2.v7 main_call2.call1.v0 select,
    binary main_v78 main_arg21 main_v79 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg22 main_v80 (broadcastInDim S1x1 ![1] bcast_S1_S1x1_1 : (⟨S1, .f32⟩ : BufTy).Contents (Elt F) → (⟨S1x1, .f32⟩ : BufTy).Contents (Elt F)),
    unary main_v80 main_v81 (broadcastInDim S100000x1 ![0, 1] bcast_S1x1_S100000x1_0_1 : (⟨S1x1, .f32⟩ : BufTy).Contents (Elt F) → (⟨S100000x1, .f32⟩ : BufTy).Contents (Elt F)),
    binary main_v79 main_v81 main_v82 (addf : (⟨S100000x1, .f32⟩ : BufTy).Contents (Elt F) → (⟨S100000x1, .f32⟩ : BufTy).Contents (Elt F) → (⟨S100000x1, .f32⟩ : BufTy).Contents (Elt F)),
    unary main_v82 main_v83 (Host.negf : (⟨S100000x1, .f32⟩ : BufTy).Contents (Elt F) → (⟨S100000x1, .f32⟩ : BufTy).Contents (Elt F)),
    unary main_v83 main_v84 (Host.exp : (⟨S100000x1, .f32⟩ : BufTy).Contents (Elt F) → (⟨S100000x1, .f32⟩ : BufTy).Contents (Elt F)),
    nullary main_cst_7 (constant S_ .f32 0x3F800000#32),
    unary main_cst_7 main_v85 (broadcastInDim S100000x1 ![] bcast_S_S100000x1 : (⟨S_, .f32⟩ : BufTy).Contents (Elt F) → (⟨S100000x1, .f32⟩ : BufTy).Contents (Elt F)),
    binary main_v85 main_v84 main_v86 (addf : (⟨S100000x1, .f32⟩ : BufTy).Contents (Elt F) → (⟨S100000x1, .f32⟩ : BufTy).Contents (Elt F) → (⟨S100000x1, .f32⟩ : BufTy).Contents (Elt F)),
    nullary main_cst_8 (constant S_ .f32 0x3F800000#32),
    unary main_cst_8 main_v87 (broadcastInDim S100000x1 ![] bcast_S_S100000x1 : (⟨S_, .f32⟩ : BufTy).Contents (Elt F) → (⟨S100000x1, .f32⟩ : BufTy).Contents (Elt F)),
    binary main_v87 main_v86 main_v88 (Host.divf : (⟨S100000x1, .f32⟩ : BufTy).Contents (Elt F) → (⟨S100000x1, .f32⟩ : BufTy).Contents (Elt F) → (⟨S100000x1, .f32⟩ : BufTy).Contents (Elt F)),
    binary main_v53 main_v82 main_v89 ((fun a b => concatenate S100000x65 1 [⟨S100000x64, a⟩, ⟨S100000x1, b⟩] concatenates_S100000x64_S100000x1_S100000x65_d1) : (⟨S100000x64, .f32⟩ : BufTy).Contents (Elt F) → (⟨S100000x1, .f32⟩ : BufTy).Contents (Elt F) → (⟨S100000x65, .f32⟩ : BufTy).Contents (Elt F)) ]

/-- The first layer's operations (with the two rows cut out of the edge list). -/
abbrev ops1 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_c (constantI S_ 32 0#32),
    unary main_c main_v4 (broadcastInDim S1200000 ![] bcast_S_S1200000 : (⟨S_, .i32⟩ : BufTy).Contents (Elt F) → (⟨S1200000, .i32⟩ : BufTy).Contents (Elt F)),
    binary main_v1 main_v4 main_v5 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v6 (broadcastInDim S1200000 ![] bcast_S_S1200000 : (⟨S_, .i32⟩ : BufTy).Contents (Elt F) → (⟨S1200000, .i32⟩ : BufTy).Contents (Elt F)),
    binary main_v1 main_v6 main_v7 (addi : (⟨S1200000, .i32⟩ : BufTy).Contents (Elt F) → (⟨S1200000, .i32⟩ : BufTy).Contents (Elt F) → (⟨S1200000, .i32⟩ : BufTy).Contents (Elt F)),
    ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v8 main_v9 (broadcastInDim S1200000x1 ![0] bcast_S1200000_S1200000x1_0 : (⟨S1200000, .i32⟩ : BufTy).Contents (Elt F) → (⟨S1200000x1, .i32⟩ : BufTy).Contents (Elt F)),
    binary main_arg0 main_v9 main_v10 ((fun x i => Host.gather gather_S100000x128_S1200000x1_S1200000x128_1_0_n_n_0_1_1128 x i) : (⟨S100000x128, .f32⟩ : BufTy).Contents (Elt F) → (⟨S1200000x1, .i32⟩ : BufTy).Contents (Elt F) → (⟨S1200000x128, .f32⟩ : BufTy).Contents (Elt F)),
    binary main_v10 main_arg3 main_v11 ((fun l r => Host.dotGeneral dot_S1200000x128_S128x64_S1200000x64_1_0_0_1_n_n none l r) : (⟨S1200000x128, .f32⟩ : BufTy).Contents (Elt F) → (⟨S128x64, .f32⟩ : BufTy).Contents (Elt F) → (⟨S1200000x64, .f32⟩ : BufTy).Contents (Elt F)),
    unary main_arg4 main_v12 (broadcastInDim S1x64 ![1] bcast_S64_S1x64_1 : (⟨S64, .f32⟩ : BufTy).Contents (Elt F) → (⟨S1x64, .f32⟩ : BufTy).Contents (Elt F)),
    unary main_v12 main_v13 (broadcastInDim S1200000x64 ![0, 1] bcast_S1x64_S1200000x64_0_1 : (⟨S1x64, .f32⟩ : BufTy).Contents (Elt F) → (⟨S1200000x64, .f32⟩ : BufTy).Contents (Elt F)),
    binary main_v11 main_v13 main_v14 (addf : (⟨S1200000x64, .f32⟩ : BufTy).Contents (Elt F) → (⟨S1200000x64, .f32⟩ : BufTy).Contents (Elt F) → (⟨S1200000x64, .f32⟩ : BufTy).Contents (Elt F)),
    binary main_arg2 main_arg5 main_v15 ((fun l r => Host.dotGeneral dot_S1200000x16_S16x64_S1200000x64_1_0_0_1_n_n none l r) : (⟨S1200000x16, .f32⟩ : BufTy).Contents (Elt F) → (⟨S16x64, .f32⟩ : BufTy).Contents (Elt F) → (⟨S1200000x64, .f32⟩ : BufTy).Contents (Elt F)),
    binary main_v14 main_v15 main_v16 (addf : (⟨S1200000x64, .f32⟩ : BufTy).Contents (Elt F) → (⟨S1200000x64, .f32⟩ : BufTy).Contents (Elt F) → (⟨S1200000x64, .f32⟩ : BufTy).Contents (Elt F)),
    unary main_arg6 main_v17 (broadcastInDim S1x64 ![1] bcast_S64_S1x64_1 : (⟨S64, .f32⟩ : BufTy).Contents (Elt F) → (⟨S1x64, .f32⟩ : BufTy).Contents (Elt F)),
    unary main_v17 main_v18 (broadcastInDim S1200000x64 ![0, 1] bcast_S1x64_S1200000x64_0_1 : (⟨S1x64, .f32⟩ : BufTy).Contents (Elt F) → (⟨S1200000x64, .f32⟩ : BufTy).Contents (Elt F)),
    binary main_v16 main_v18 main_v19 (addf : (⟨S1200000x64, .f32⟩ : BufTy).Contents (Elt F) → (⟨S1200000x64, .f32⟩ : BufTy).Contents (Elt F) → (⟨S1200000x64, .f32⟩ : BufTy).Contents (Elt F)),
    nullary main_cst (constant S_ .f32 0x00000000#32),
    unary main_cst main_v20 (broadcastInDim S100000x64 ![] bcast_S_S100000x64 : (⟨S_, .f32⟩ : BufTy).Contents (Elt F) → (⟨S100000x64, .f32⟩ : BufTy).Contents (Elt F)),
    unary main_v3 main_v21 (broadcastInDim S1200000x1 ![0] bcast_S1200000_S1200000x1_0 : (⟨S1200000, .i32⟩ : BufTy).Contents (Elt F) → (⟨S1200000x1, .i32⟩ : BufTy).Contents (Elt F)),
    ternary main_v20 main_v21 main_v19 main_v22 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_arg0 main_arg7 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v22 main_v23 main_v24 (addf : (⟨S100000x64, .f32⟩ : BufTy).Contents (Elt F) → (⟨S100000x64, .f32⟩ : BufTy).Contents (Elt F) → (⟨S100000x64, .f32⟩ : BufTy).Contents (Elt F)),
    unary main_arg8 main_v25 (broadcastInDim S1x64 ![1] bcast_S64_S1x64_1 : (⟨S64, .f32⟩ : BufTy).Contents (Elt F) → (⟨S1x64, .f32⟩ : BufTy).Contents (Elt F)),
    unary main_v25 main_v26 (broadcastInDim S100000x64 ![0, 1] bcast_S1x64_S100000x64_0_1 : (⟨S1x64, .f32⟩ : BufTy).Contents (Elt F) → (⟨S100000x64, .f32⟩ : BufTy).Contents (Elt F)),
    binary main_v24 main_v26 main_v27 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v27) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v27) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v27) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v27) main_call0.v7 main_call0.call1.v0 select ]

/-- The second layer's operations. -/
abbrev ops2 : List (HloOp τ sig (Elt F)) :=
  [ nullary main_c_1 (constantI S_ 32 0#32),
    unary main_c_1 main_v29 (broadcastInDim S1200000 ![] bcast_S_S1200000 : (⟨S_, .i32⟩ : BufTy).Contents (Elt F) → (⟨S1200000, .i32⟩ : BufTy).Contents (Elt F)),
    binary main_v1 main_v29 main_v30 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 100000#32),
    unary main_c_2 main_v31 (broadcastInDim S1200000 ![] bcast_S_S1200000 : (⟨S_, .i32⟩ : BufTy).Contents (Elt F) → (⟨S1200000, .i32⟩ : BufTy).Contents (Elt F)),
    binary main_v1 main_v31 main_v32 (addi : (⟨S1200000, .i32⟩ : BufTy).Contents (Elt F) → (⟨S1200000, .i32⟩ : BufTy).Contents (Elt F) → (⟨S1200000, .i32⟩ : BufTy).Contents (Elt F)),
    ternary main_v30 main_v32 main_v1 main_v33 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v33 main_v34 (broadcastInDim S1200000x1 ![0] bcast_S1200000_S1200000x1_0 : (⟨S1200000, .i32⟩ : BufTy).Contents (Elt F) → (⟨S1200000x1, .i32⟩ : BufTy).Contents (Elt F)),
    binary main_v28 main_v34 main_v35 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    binary main_v35 main_arg9 main_v36 ((fun l r => Host.dotGeneral dot_S1200000x64_S64x64_S1200000x64_1_0_0_1_n_n none l r) : (⟨S1200000x64, .f32⟩ : BufTy).Contents (Elt F) → (⟨S64x64, .f32⟩ : BufTy).Contents (Elt F) → (⟨S1200000x64, .f32⟩ : BufTy).Contents (Elt F)),
    unary main_arg10 main_v37 (broadcastInDim S1x64 ![1] bcast_S64_S1x64_1 : (⟨S64, .f32⟩ : BufTy).Contents (Elt F) → (⟨S1x64, .f32⟩ : BufTy).Contents (Elt F)),
    unary main_v37 main_v38 (broadcastInDim S1200000x64 ![0, 1] bcast_S1x64_S1200000x64_0_1 : (⟨S1x64, .f32⟩ : BufTy).Contents (Elt F) → (⟨S1200000x64, .f32⟩ : BufTy).Contents (Elt F)),
    binary main_v36 main_v38 main_v39 (addf : (⟨S1200000x64, .f32⟩ : BufTy).Contents (Elt F) → (⟨S1200000x64, .f32⟩ : BufTy).Contents (Elt F) → (⟨S1200000x64, .f32⟩ : BufTy).Contents (Elt F)),
    binary main_arg2 main_arg11 main_v40 ((fun l r => Host.dotGeneral dot_S1200000x16_S16x64_S1200000x64_1_0_0_1_n_n none l r) : (⟨S1200000x16, .f32⟩ : BufTy).Contents (Elt F) → (⟨S16x64, .f32⟩ : BufTy).Contents (Elt F) → (⟨S1200000x64, .f32⟩ : BufTy).Contents (Elt F)),
    binary main_v39 main_v40 main_v41 (addf : (⟨S1200000x64, .f32⟩ : BufTy).Contents (Elt F) → (⟨S1200000x64, .f32⟩ : BufTy).Contents (Elt F) → (⟨S1200000x64, .f32⟩ : BufTy).Contents (Elt F)),
    unary main_arg12 main_v42 (broadcastInDim S1x64 ![1] bcast_S64_S1x64_1 : (⟨S64, .f32⟩ : BufTy).Contents (Elt F) → (⟨S1x64, .f32⟩ : BufTy).Contents (Elt F)),
    unary main_v42 main_v43 (broadcastInDim S1200000x64 ![0, 1] bcast_S1x64_S1200000x64_0_1 : (⟨S1x64, .f32⟩ : BufTy).Contents (Elt F) → (⟨S1200000x64, .f32⟩ : BufTy).Contents (Elt F)),
    binary main_v41 main_v43 main_v44 (addf : (⟨S1200000x64, .f32⟩ : BufTy).Contents (Elt F) → (⟨S1200000x64, .f32⟩ : BufTy).Contents (Elt F) → (⟨S1200000x64, .f32⟩ : BufTy).Contents (Elt F)),
    nullary main_cst_3 (constant S_ .f32 0x00000000#32),
    unary main_cst_3 main_v45 (broadcastInDim S100000x64 ![] bcast_S_S100000x64 : (⟨S_, .f32⟩ : BufTy).Contents (Elt F) → (⟨S100000x64, .f32⟩ : BufTy).Contents (Elt F)),
    unary main_v3 main_v46 (broadcastInDim S1200000x1 ![0] bcast_S1200000_S1200000x1_0 : (⟨S1200000, .i32⟩ : BufTy).Contents (Elt F) → (⟨S1200000x1, .i32⟩ : BufTy).Contents (Elt F)),
    ternary main_v45 main_v46 main_v44 main_v47 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_v28 main_arg13 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v47 main_v48 main_v49 (addf : (⟨S100000x64, .f32⟩ : BufTy).Contents (Elt F) → (⟨S100000x64, .f32⟩ : BufTy).Contents (Elt F) → (⟨S100000x64, .f32⟩ : BufTy).Contents (Elt F)),
    unary main_arg14 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v52) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v52) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v52) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v52) main_call1.v7 main_call1.call1.v0 select ]

/-- The third layer's operations. -/
abbrev ops3 : List (HloOp τ sig (Elt F)) :=
  [ nullary main_c_4 (constantI S_ 32 0#32),
    unary main_c_4 main_v54 (broadcastInDim S1200000 ![] bcast_S_S1200000 : (⟨S_, .i32⟩ : BufTy).Contents (Elt F) → (⟨S1200000, .i32⟩ : BufTy).Contents (Elt F)),
    binary main_v1 main_v54 main_v55 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v56 (broadcastInDim S1200000 ![] bcast_S_S1200000 : (⟨S_, .i32⟩ : BufTy).Contents (Elt F) → (⟨S1200000, .i32⟩ : BufTy).Contents (Elt F)),
    binary main_v1 main_v56 main_v57 (addi : (⟨S1200000, .i32⟩ : BufTy).Contents (Elt F) → (⟨S1200000, .i32⟩ : BufTy).Contents (Elt F) → (⟨S1200000, .i32⟩ : BufTy).Contents (Elt F)),
    ternary main_v55 main_v57 main_v1 main_v58 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v58 main_v59 (broadcastInDim S1200000x1 ![0] bcast_S1200000_S1200000x1_0 : (⟨S1200000, .i32⟩ : BufTy).Contents (Elt F) → (⟨S1200000x1, .i32⟩ : BufTy).Contents (Elt F)),
    binary main_v53 main_v59 main_v60 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    binary main_v60 main_arg15 main_v61 ((fun l r => Host.dotGeneral dot_S1200000x64_S64x64_S1200000x64_1_0_0_1_n_n none l r) : (⟨S1200000x64, .f32⟩ : BufTy).Contents (Elt F) → (⟨S64x64, .f32⟩ : BufTy).Contents (Elt F) → (⟨S1200000x64, .f32⟩ : BufTy).Contents (Elt F)),
    unary main_arg16 main_v62 (broadcastInDim S1x64 ![1] bcast_S64_S1x64_1 : (⟨S64, .f32⟩ : BufTy).Contents (Elt F) → (⟨S1x64, .f32⟩ : BufTy).Contents (Elt F)),
    unary main_v62 main_v63 (broadcastInDim S1200000x64 ![0, 1] bcast_S1x64_S1200000x64_0_1 : (⟨S1x64, .f32⟩ : BufTy).Contents (Elt F) → (⟨S1200000x64, .f32⟩ : BufTy).Contents (Elt F)),
    binary main_v61 main_v63 main_v64 (addf : (⟨S1200000x64, .f32⟩ : BufTy).Contents (Elt F) → (⟨S1200000x64, .f32⟩ : BufTy).Contents (Elt F) → (⟨S1200000x64, .f32⟩ : BufTy).Contents (Elt F)),
    binary main_arg2 main_arg17 main_v65 ((fun l r => Host.dotGeneral dot_S1200000x16_S16x64_S1200000x64_1_0_0_1_n_n none l r) : (⟨S1200000x16, .f32⟩ : BufTy).Contents (Elt F) → (⟨S16x64, .f32⟩ : BufTy).Contents (Elt F) → (⟨S1200000x64, .f32⟩ : BufTy).Contents (Elt F)),
    binary main_v64 main_v65 main_v66 (addf : (⟨S1200000x64, .f32⟩ : BufTy).Contents (Elt F) → (⟨S1200000x64, .f32⟩ : BufTy).Contents (Elt F) → (⟨S1200000x64, .f32⟩ : BufTy).Contents (Elt F)),
    unary main_arg18 main_v67 (broadcastInDim S1x64 ![1] bcast_S64_S1x64_1 : (⟨S64, .f32⟩ : BufTy).Contents (Elt F) → (⟨S1x64, .f32⟩ : BufTy).Contents (Elt F)),
    unary main_v67 main_v68 (broadcastInDim S1200000x64 ![0, 1] bcast_S1x64_S1200000x64_0_1 : (⟨S1x64, .f32⟩ : BufTy).Contents (Elt F) → (⟨S1200000x64, .f32⟩ : BufTy).Contents (Elt F)),
    binary main_v66 main_v68 main_v69 (addf : (⟨S1200000x64, .f32⟩ : BufTy).Contents (Elt F) → (⟨S1200000x64, .f32⟩ : BufTy).Contents (Elt F) → (⟨S1200000x64, .f32⟩ : BufTy).Contents (Elt F)),
    nullary main_cst_6 (constant S_ .f32 0x00000000#32),
    unary main_cst_6 main_v70 (broadcastInDim S100000x64 ![] bcast_S_S100000x64 : (⟨S_, .f32⟩ : BufTy).Contents (Elt F) → (⟨S100000x64, .f32⟩ : BufTy).Contents (Elt F)),
    unary main_v3 main_v71 (broadcastInDim S1200000x1 ![0] bcast_S1200000_S1200000x1_0 : (⟨S1200000, .i32⟩ : BufTy).Contents (Elt F) → (⟨S1200000x1, .i32⟩ : BufTy).Contents (Elt F)),
    ternary main_v70 main_v71 main_v69 main_v72 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_v53 main_arg19 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v72 main_v73 main_v74 (addf : (⟨S100000x64, .f32⟩ : BufTy).Contents (Elt F) → (⟨S100000x64, .f32⟩ : BufTy).Contents (Elt F) → (⟨S100000x64, .f32⟩ : BufTy).Contents (Elt F)),
    unary main_arg20 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v77) main_call2.v0 main_call2.v1 (cmpf .ogt),
    TRef.nullary main_call2.cst_0 (constant S_ .f32 0x00000000#32),
    TRef.unary main_call2.cst_0 main_call2.v2 (broadcastInDim S100000x64 ![] bcast_S_S100000x64),
    TRef.binary (.of main_v77) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x64 ![] bcast_S_S100000x64),
    TRef.ternary main_call2.v3 main_call2.call0.v1 (.of main_v77) main_call2.call0.v2 select,
    TRef.unary main_call2.call0.v2 main_call2.v5 Host.expm1,
    TRef.nullary main_call2.cst_2 (constant S_ .f32 0x3F800000#32),
    TRef.unary main_call2.cst_2 main_call2.v6 (broadcastInDim S100000x64 ![] bcast_S_S100000x64),
    TRef.binary main_call2.v6 main_call2.v5 main_call2.v7 mulf,
    TRef.ternary main_call2.v1 (.of main_v77) main_call2.v7 main_call2.call1.v0 select ]

/-- The closing operations: the logit, its squashing, the concatenation. -/
abbrev ops4 : List (HloOp τ sig (Elt F)) :=
  [ binary main_v78 main_arg21 main_v79 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg22 main_v80 (broadcastInDim S1x1 ![1] bcast_S1_S1x1_1 : (⟨S1, .f32⟩ : BufTy).Contents (Elt F) → (⟨S1x1, .f32⟩ : BufTy).Contents (Elt F)),
    unary main_v80 main_v81 (broadcastInDim S100000x1 ![0, 1] bcast_S1x1_S100000x1_0_1 : (⟨S1x1, .f32⟩ : BufTy).Contents (Elt F) → (⟨S100000x1, .f32⟩ : BufTy).Contents (Elt F)),
    binary main_v79 main_v81 main_v82 (addf : (⟨S100000x1, .f32⟩ : BufTy).Contents (Elt F) → (⟨S100000x1, .f32⟩ : BufTy).Contents (Elt F) → (⟨S100000x1, .f32⟩ : BufTy).Contents (Elt F)),
    unary main_v82 main_v83 (Host.negf : (⟨S100000x1, .f32⟩ : BufTy).Contents (Elt F) → (⟨S100000x1, .f32⟩ : BufTy).Contents (Elt F)),
    unary main_v83 main_v84 (Host.exp : (⟨S100000x1, .f32⟩ : BufTy).Contents (Elt F) → (⟨S100000x1, .f32⟩ : BufTy).Contents (Elt F)),
    nullary main_cst_7 (constant S_ .f32 0x3F800000#32),
    unary main_cst_7 main_v85 (broadcastInDim S100000x1 ![] bcast_S_S100000x1 : (⟨S_, .f32⟩ : BufTy).Contents (Elt F) → (⟨S100000x1, .f32⟩ : BufTy).Contents (Elt F)),
    binary main_v85 main_v84 main_v86 (addf : (⟨S100000x1, .f32⟩ : BufTy).Contents (Elt F) → (⟨S100000x1, .f32⟩ : BufTy).Contents (Elt F) → (⟨S100000x1, .f32⟩ : BufTy).Contents (Elt F)),
    nullary main_cst_8 (constant S_ .f32 0x3F800000#32),
    unary main_cst_8 main_v87 (broadcastInDim S100000x1 ![] bcast_S_S100000x1 : (⟨S_, .f32⟩ : BufTy).Contents (Elt F) → (⟨S100000x1, .f32⟩ : BufTy).Contents (Elt F)),
    binary main_v87 main_v86 main_v88 (Host.divf : (⟨S100000x1, .f32⟩ : BufTy).Contents (Elt F) → (⟨S100000x1, .f32⟩ : BufTy).Contents (Elt F) → (⟨S100000x1, .f32⟩ : BufTy).Contents (Elt F)),
    binary main_v53 main_v82 main_v89 ((fun a b => concatenate S100000x65 1 [⟨S100000x64, a⟩, ⟨S100000x1, b⟩] concatenates_S100000x64_S100000x1_S100000x65_d1) : (⟨S100000x64, .f32⟩ : BufTy).Contents (Elt F) → (⟨S100000x1, .f32⟩ : BufTy).Contents (Elt F) → (⟨S100000x65, .f32⟩ : BufTy).Contents (Elt F)) ]

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

end Cert.ReferenceIdeal.Ops

end
-- ==== Proof.ReferenceRun.lean ====
/-
  THE REFERENCE'S RUN. Its @main is a straight line of host operations: the outlined exponential linear unit and the
  two selects it calls are plain operation sequences over each call's buffer record, so with their definitions
  unfolded at the three calls @main is the sequence of one list of operations. Every weakly fair execution then
  terminates with each TensorCore buffer at the fold of those operations over the launch contents; the fold over the
  whole list is the fold over its four consecutive parts, one after the other.
-/
import proofs.«168661_j64132451664027_1_alg».proof.Proof.ReferenceOps

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The fold over a concatenation is the fold over the second list from the fold over the first. -/
theorem after_append {Val : EltTy → Type} (a b : List (HloOp τ sig Val)) (V : Valuation τ sig Val) :
    after (a ++ b) V = after b (after a V) := by
  induction a generalizing V with
  | nil => rfl
  | cons op l ih => exact ih _

/-- The whole list is its four parts in order. -/
theorem ops_eq : (ops : List (HloOp τ sig (Elt F))) = ops1 ++ (ops2 ++ (ops3 ++ ops4)) := rfl

theorem after_ops (V : Valuation τ sig (Elt F)) : after ops V = after ops4 (after ops3 (after ops2 (after ops1 V))) := by
  rw [ops_eq, after_append, after_append, after_append]

set_option maxRecDepth 4096 in
/-- @main is that straight line: the outlined functions' definitions unfolded at their calls, both sides are one chain
    of operation steps once sequencing is reassociated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has each
    TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.ReferenceStages.lean ====
/-
  The irregular and the closing host stages of the graph convolution as this program spells them, and the program's
  arguments read off a memory: what `Cert.GraphConv`'s network is instantiated at.

  The source index of an edge is wrapped once when negative (an index below zero counts from the end of the 100000
  rows) before the row gather; the destination index is used as it is by the scatter-add, over a zero array. The
  logit is the last layer against the [64, 1] weight plus the scalar bias; the first result is 1 / (1 + exp (-logit)).
-/
import proofs.«168661_j64132451664027_1_alg».proof.Proof.Gen.ReferenceIdeal
import proofs.«168661_j64132451664027_1_alg».proof.Proof.GraphConv

noncomputable section
namespace Cert.ReferenceIdeal.Net
open Cert.ReferenceIdeal Cert.ReferenceIdeal.Gen
open Idealize.ShloMosaic Idealize.ShloMosaic.TcCoe Idealize.SL.Sem
open Cert.GraphConv (Arr Row EdgeIdx RowIdx HostStages Inputs)

/-- Row `r` of the [2, 1200000] edge list, as a vector of 1200000 indices. -/
def edgeRow0 (ei : EdgeIdx) : IVec S1200000 32 :=
  shapeCast S1200000 (extractStridedSlice S1x1200000 ![0, 0] ei slices_S2x1200000_S1x1200000_0_0) shapeCasts_S1x1200000_S1200000
def edgeRow1 (ei : EdgeIdx) : IVec S1200000 32 :=
  shapeCast S1200000 (extractStridedSlice S1x1200000 ![1, 0] ei slices_S2x1200000_S1x1200000_1_0) shapeCasts_S1x1200000_S1200000

/-- A negative index wrapped by the row count, then made a column of start indices. -/
def wrapIdx (b : IVec S1200000 32) : RowIdx :=
  broadcastInDim S1200000x1 ![0] bcast_S1200000_S1200000x1_0
    (select (cmpi .slt b (broadcastInDim S1200000 ![] bcast_S_S1200000 (constantI S_ 32 0#32)))
      (addi b (broadcastInDim S1200000 ![] bcast_S_S1200000 (constantI S_ 32 100000#32))) b)

def colIdx (b : IVec S1200000 32) : RowIdx := broadcastInDim S1200000x1 ![0] bcast_S1200000_S1200000x1_0 b

def logitOf (h : Arr 100000 64) (Wl : Arr 64 1) (bl : Row 1) : Arr 100000 1 :=
  addf (F := Ideal) (φ := .f32) (Host.dotGeneral (F := Ideal) (φ₁ := .f32) (φ₂ := .f32) dot_S100000x64_S64x1_S100000x1_1_0_0_1_n_n none h Wl)
    (broadcastInDim S100000x1 ![0, 1] bcast_S1x1_S100000x1_0_1 (broadcastInDim S1x1 ![1] bcast_S1_S1x1_1 bl))

def sigmOf (z : Arr 100000 1) : Arr 100000 1 :=
  Host.divf (F := Ideal) (φ := .f32) (broadcastInDim S100000x1 ![] bcast_S_S100000x1 (constant (F := Ideal) S_ .f32 0x3F800000#32))
    (addf (F := Ideal) (φ := .f32) (broadcastInDim S100000x1 ![] bcast_S_S100000x1 (constant (F := Ideal) S_ .f32 0x3F800000#32))
      (Host.exp (F := Ideal) (φ := .f32) (Host.negf (F := Ideal) (φ := .f32) z)))

def catOf (a : Arr 100000 64) (b : Arr 100000 1) : Arr 100000 65 :=
  concatenate S100000x65 1 [⟨S100000x64, a⟩, ⟨S100000x1, b⟩] concatenates_S100000x64_S100000x1_S100000x65_d1

/-- The host stages as this program spells them. -/
def stages : HostStages where
  src ei := wrapIdx (edgeRow0 ei)
  dst ei := colIdx (edgeRow1 ei)
  gather128 x i := Host.gather gather_S100000x128_S1200000x1_S1200000x128_1_0_n_n_0_1_1128 x i
  gather64 x i := Host.gather gather_S100000x64_S1200000x1_S1200000x64_1_0_n_n_0_1_164 x i
  zero := broadcastInDim S100000x64 ![] bcast_S_S100000x64 (constant (F := Ideal) S_ .f32 0x00000000#32)
  scatter x i u := Host.scatterAdd (F := Ideal) (φ := .f32) scatter_S100000x64_S1200000x1_S1200000x64_1_0_0_1 x i u
  logit := logitOf
  sigm := sigmOf
  cat := catOf

/-- The program's arguments on core `c` of a memory. -/
def inputs (m : (ℓ : Loc nD τ sig) → Buf (Elt Ideal) ℓ) (c : Dev nD) : Inputs where
  x := m ((c.tc : Thread nD τ).loc main_arg0)
  ei := m ((c.tc : Thread nD τ).loc main_arg1)
  ea := m ((c.tc : Thread nD τ).loc main_arg2)
  Wm1 := m ((c.tc : Thread nD τ).loc main_arg3)
  bm1 := m ((c.tc : Thread nD τ).loc main_arg4)
  We1 := m ((c.tc : Thread nD τ).loc main_arg5)
  be1 := m ((c.tc : Thread nD τ).loc main_arg6)
  Ws1 := m ((c.tc : Thread nD τ).loc main_arg7)
  bs1 := m ((c.tc : Thread nD τ).loc main_arg8)
  Wm2 := m ((c.tc : Thread nD τ).loc main_arg9)
  bm2 := m ((c.tc : Thread nD τ).loc main_arg10)
  We2 := m ((c.tc : Thread nD τ).loc main_arg11)
  be2 := m ((c.tc : Thread nD τ).loc main_arg12)
  Ws2 := m ((c.tc : Thread nD τ).loc main_arg13)
  bs2 := m ((c.tc : Thread nD τ).loc main_arg14)
  Wm3 := m ((c.tc : Thread nD τ).loc main_arg15)
  bm3 := m ((c.tc : Thread nD τ).loc main_arg16)
  We3 := m ((c.tc : Thread nD τ).loc main_arg17)
  be3 := m ((c.tc : Thread nD τ).loc main_arg18)
  Ws3 := m ((c.tc : Thread nD τ).loc main_arg19)
  bs3 := m ((c.tc : Thread nD τ).loc main_arg20)
  Wl := m ((c.tc : Thread nD τ).loc main_arg21)
  bl := m ((c.tc : Thread nD τ).loc main_arg22)

end Cert.ReferenceIdeal.Net
-- ==== Proof.HostLayer.lean ====
/-
  THE REFERENCE'S HOST OPERATIONS FOR ONE LAYER, as whole arrays, are the layer's two stages entry by entry.
  The message: two host dot products, each followed by its bias vector made a row and repeated down the rows, added
  as ((a + bm) + s) + be. The update: the aggregate plus a host dot product plus the repeated bias, then the outlined
  exponential linear unit: `where (t > 0) t (1 * expm1 (where (t > 0) 0 t))`, which is `elu` entry by entry
  (expm1 is exp - 1 at the extended reals; where t > 0 fails the inner select hands t on; 1 * z = z).
  The message's four summands regroup by associativity of the sum of extended reals; the f32 word of 1.0 is the real 1.
-/
import proofs.«168661_j64132451664027_1_alg».proof.Proof.GraphConv
import Idealize.ShloMosaic.Lib.ValueLayout

noncomputable section
namespace Cert.GraphConv
open Idealize.ShloMosaic
open Idealize.ShloMosaic.ValueIdx
open Cert.Lib.Dense

/-- The f32 word of 1.0 denotes the real 1. -/
private theorem one_word : (Scalar.ofBits .f32 0x3F800000#32 : Ideal .f32) = 1 := by
  show Ideal.ofBits .f32 0x3F800000#32 = 1
  simp [Ideal.ofBits, Ideal.ieee, -EReal.coe_mul]; norm_num

/-- The reference's message array: the gathered rows against the message weights plus the message bias, plus the edge
    attributes against the edge weights, plus the edge bias. -/
theorem host_edge {M K : Nat} (X : FVec Ideal ⟨2, ![M, K]⟩ .f32) (E : FVec Ideal ⟨2, ![M, 16]⟩ .f32)
    (Wm : FVec Ideal ⟨2, ![K, 64]⟩ .f32) (bm : FVec Ideal ⟨1, ![64]⟩ .f32)
    (We : FVec Ideal ⟨2, ![16, 64]⟩ .f32) (be : FVec Ideal ⟨1, ![64]⟩ .f32)
    (dm : DotDims ⟨2, ![M, K]⟩ ⟨2, ![K, 64]⟩ ⟨2, ![M, 64]⟩) (hdm : dm = DotDims.plain M K 64)
    (de : DotDims ⟨2, ![M, 16]⟩ ⟨2, ![16, 64]⟩ ⟨2, ![M, 64]⟩) (hde : de = DotDims.plain M 16 64)
    (e1 e1' : (⟨1, ![64]⟩ : Shape).BroadcastsInDim ⟨2, ![1, 64]⟩ (![1] : Fin 1 → Fin 2))
    (e2 e2' : (⟨2, ![1, 64]⟩ : Shape).BroadcastsInDim ⟨2, ![M, 64]⟩ (![0, 1] : Fin 2 → Fin 2)) :
    addf (addf (addf (Host.dotGeneral dm none X Wm)
          (broadcastInDim ⟨2, ![M, 64]⟩ ![0, 1] e2 (broadcastInDim ⟨2, ![1, 64]⟩ ![1] e1 bm)))
        (Host.dotGeneral de none E We))
      (broadcastInDim ⟨2, ![M, 64]⟩ ![0, 1] e2' (broadcastInDim ⟨2, ![1, 64]⟩ ![1] e1' be))
      = edge X E Wm (biasRow bm) We (biasRow be) := by
  subst hdm hde
  rw [host_affine_row X Wm bm e1 e2]
  funext j
  have h2 := congrFun (host_affine_row E We be e1' e2') j
  rw [addf_apply] at h2
  unfold edge
  -- ((a + bm) + s) + be = (a + bm) + (s + be)
  rw [← h2, addf_apply, addf_apply, add_assoc]

/-- The reference's exponential linear unit, as its outlined function computes it, entry by entry. -/
theorem host_elu {S : Shape} (T : FVec Ideal S .f32)
    (z z' z'' o : (⟨0, ![]⟩ : Shape).BroadcastsInDim S (![] : Fin 0 → Fin S.rank)) (j : S.Idx) :
    select (cmpf .ogt T (broadcastInDim S ![] z (constant ⟨0, ![]⟩ .f32 0x00000000#32))) T
      (mulf (broadcastInDim S ![] o (constant ⟨0, ![]⟩ .f32 0x3F800000#32))
        (Host.expm1 (select (cmpf .ogt T (broadcastInDim S ![] z' (constant ⟨0, ![]⟩ .f32 0x00000000#32)))
          (broadcastInDim S ![] z'' (id (constant (F := Ideal) ⟨0, ![]⟩ .f32 0x00000000#32))) T))) j
      = elu (T j) := by
  show Scalar.select (FloatOps.cmpf .ogt (T j) (broadcastInDim S ![] z (constant (F := Ideal) ⟨0, ![]⟩ .f32 0x00000000#32) j)) (T j)
      (broadcastInDim S ![] o (constant (F := Ideal) ⟨0, ![]⟩ .f32 0x3F800000#32) j *
        FloatOps.hostUnary .expm1 (Scalar.select (FloatOps.cmpf .ogt (T j) (broadcastInDim S ![] z' (constant (F := Ideal) ⟨0, ![]⟩ .f32 0x00000000#32) j))
          (broadcastInDim S ![] z'' (constant (F := Ideal) ⟨0, ![]⟩ .f32 0x00000000#32) j) (T j))) = _
  simp only [splat0_apply]
  unfold elu
  by_cases hc : FloatOps.cmpf (F := Ideal) (φ := .f32) .ogt (T j) (Scalar.ofBits .f32 0x00000000#32) = 1#1
  · -- t > 0: both sides are t
    rw [hc, select_one, select_one]
  · -- otherwise the inner select hands t on, and 1 * (exp t - 1) = exp t - 1
    rw [eq_zero_of_ne_one hc, select_zero, select_zero, select_zero, one_word]
    show (1 : EReal) * (Ideal.exp (T j) - 1) = Ideal.exp (T j) - 1
    rw [one_mul]

/-- The reference's node update: the aggregate plus the node's own affine layer, added as (agg + p) + bs, through the
    exponential linear unit. -/
theorem host_node {M K : Nat} (H : FVec Ideal ⟨2, ![M, K]⟩ .f32) (A : FVec Ideal ⟨2, ![M, 64]⟩ .f32)
    (Ws : FVec Ideal ⟨2, ![K, 64]⟩ .f32) (bs : FVec Ideal ⟨1, ![64]⟩ .f32)
    (ds : DotDims ⟨2, ![M, K]⟩ ⟨2, ![K, 64]⟩ ⟨2, ![M, 64]⟩) (hds : ds = DotDims.plain M K 64)
    (e1 : (⟨1, ![64]⟩ : Shape).BroadcastsInDim ⟨2, ![1, 64]⟩ (![1] : Fin 1 → Fin 2))
    (e2 : (⟨2, ![1, 64]⟩ : Shape).BroadcastsInDim ⟨2, ![M, 64]⟩ (![0, 1] : Fin 2 → Fin 2))
    (z z' z'' o : (⟨0, ![]⟩ : Shape).BroadcastsInDim ⟨2, ![M, 64]⟩ (![] : Fin 0 → Fin 2)) :
    (let T : FVec Ideal ⟨2, ![M, 64]⟩ .f32 := addf (addf A (Host.dotGeneral ds none H Ws))
          (broadcastInDim ⟨2, ![M, 64]⟩ ![0, 1] e2 (broadcastInDim ⟨2, ![1, 64]⟩ ![1] e1 bs))
     select (cmpf .ogt T (broadcastInDim ⟨2, ![M, 64]⟩ ![] z (constant ⟨0, ![]⟩ .f32 0x00000000#32))) T
      (mulf (broadcastInDim ⟨2, ![M, 64]⟩ ![] o (constant ⟨0, ![]⟩ .f32 0x3F800000#32))
        (Host.expm1 (select (cmpf .ogt T (broadcastInDim ⟨2, ![M, 64]⟩ ![] z' (constant ⟨0, ![]⟩ .f32 0x00000000#32)))
          (broadcastInDim ⟨2, ![M, 64]⟩ ![] z'' (id (constant (F := Ideal) ⟨0, ![]⟩ .f32 0x00000000#32))) T))))
      = node H A Ws (biasRow bs) := by
  subst hds
  funext j
  dsimp only
  rw [host_elu]
  show elu _ = elu _
  refine congrArg elu ?_
  -- (agg + p) + bs = agg + (p + bs)
  rw [addf_apply, addf_apply, add_assoc]
  refine congrArg (A j + ·) ?_
  exact congrFun (host_affine_row H Ws bs e1 e2) j

end Cert.GraphConv
-- ==== Proof.ReferenceLayer1.lean ====
/-
  THE FIRST LAYER in the reference: the fold of its operations (`Ops.ops1`) over any buffer contents. The first
  node array is the first layer of the contents' arguments; the two rows of the edge list are cut out here; no argument
  is written.

  The node array is read in stages, each buffer over the buffers before it: the wrapped source indices and the
  destination indices as columns, the gathered source rows, the message array (two products, each with its bias row
  repeated down the rows), the messages summed at their destination rows over a zero array, the pre-activation (the
  aggregate plus the node's own product plus its bias row), and the exponential linear unit over the pre-activation.
  The message array is then an edge's message entry by entry (`host_edge`) and the unit over the pre-activation a
  node's update entry by entry (`host_node`), at the program's own spelling of the gather, the scatter-add and the
  index preparation.
-/
import proofs.«168661_j64132451664027_1_alg».proof.Proof.ReferenceRun
import proofs.«168661_j64132451664027_1_alg».proof.Proof.ReferenceStages
import proofs.«168661_j64132451664027_1_alg».proof.Proof.HostLayer

noncomputable section
namespace Cert.ReferenceIdeal.Layer1
open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo
open Cert.GraphConv (layer128 layer64 h1 feat h3 logits out0 out1 out2)
open Cert.ReferenceIdeal.Net (stages inputs edgeRow0 edgeRow1)

/-! ## The first layer read in stages

Each stage states one buffer after the fold over the buffers before it; both sides are the same composed term of the
contents' arguments. -/

/-- The source indices: row 0 of the edge list, wrapped, as a column. -/
private theorem v9_eq (V : Valuation τ sig (Elt Ideal)) :
    after ops1 V (main_v9 : DevRef τ sig) = Net.wrapIdx (edgeRow0 (V (main_arg1 : DevRef τ sig))) := by
  after_results_simp
  rfl

/-- The destination indices: row 1 of the edge list as a column. -/
private theorem v21_eq (V : Valuation τ sig (Elt Ideal)) :
    after ops1 V (main_v21 : DevRef τ sig) = Net.colIdx (edgeRow1 (V (main_arg1 : DevRef τ sig))) := by
  after_results_simp
  rfl

/-- The gathered source rows. -/
private theorem v10_eq (V : Valuation τ sig (Elt Ideal)) :
    after ops1 V (main_v10 : DevRef τ sig)
      = Host.gather gather_S100000x128_S1200000x1_S1200000x128_1_0_n_n_0_1_1128 (V (main_arg0 : DevRef τ sig)) (after ops1 V (main_v9 : DevRef τ sig)) := by
  after_results_simp

/-- The message array over the gathered rows. -/
private theorem v19_eq (V : Valuation τ sig (Elt Ideal)) :
    after ops1 V (main_v19 : DevRef τ sig)
      = (addf (addf (addf (Host.dotGeneral (F := Ideal) (φ₁ := .f32) (φ₂ := .f32) dot_S1200000x128_S128x64_S1200000x64_1_0_0_1_n_n none (after ops1 V (main_v10 : DevRef τ sig)) (V (main_arg3 : DevRef τ sig)))
            (broadcastInDim S1200000x64 ![0, 1] bcast_S1x64_S1200000x64_0_1 (broadcastInDim S1x64 ![1] bcast_S64_S1x64_1 (V (main_arg4 : DevRef τ sig)))))
          (Host.dotGeneral (F := Ideal) (φ₁ := .f32) (φ₂ := .f32) dot_S1200000x16_S16x64_S1200000x64_1_0_0_1_n_n none (V (main_arg2 : DevRef τ sig)) (V (main_arg5 : DevRef τ sig))))
        (broadcastInDim S1200000x64 ![0, 1] bcast_S1x64_S1200000x64_0_1 (broadcastInDim S1x64 ![1] bcast_S64_S1x64_1 (V (main_arg6 : DevRef τ sig))))
          : FVec Ideal S1200000x64 .f32) := by
  after_results_simp

/-- The messages summed at their destination rows. -/
private theorem v22_eq (V : Valuation τ sig (Elt Ideal)) :
    after ops1 V (main_v22 : DevRef τ sig)
      = (Host.scatterAdd scatter_S100000x64_S1200000x1_S1200000x64_1_0_0_1
          (broadcastInDim S100000x64 ![] bcast_S_S100000x64 (constant S_ .f32 0x00000000#32)) (after ops1 V (main_v21 : DevRef τ sig)) (after ops1 V (main_v19 : DevRef τ sig))
          : FVec Ideal S100000x64 .f32) := by
  after_results_simp

/-- The pre-activation. -/
private theorem v27_eq (V : Valuation τ sig (Elt Ideal)) :
    after ops1 V (main_v27 : DevRef τ sig)
      = (addf (addf (after ops1 V (main_v22 : DevRef τ sig)) (Host.dotGeneral (F := Ideal) (φ₁ := .f32) (φ₂ := .f32) dot_S100000x128_S128x64_S100000x64_1_0_0_1_n_n none (V (main_arg0 : DevRef τ sig)) (V (main_arg7 : DevRef τ sig))))
          (broadcastInDim S100000x64 ![0, 1] bcast_S1x64_S100000x64_0_1 (broadcastInDim S1x64 ![1] bcast_S64_S1x64_1 (V (main_arg8 : DevRef τ sig))))
          : FVec Ideal S100000x64 .f32) := by
  after_results_simp

/-- A typed reference's two transports undo each other. -/
private theorem ofBuf_toBuf {T : BufTy} (x : TRef sig T) (v : T.Contents (Elt Ideal)) : x.ofBuf (x.toBuf v) = v := by
  obtain ⟨r, h, h2, h3⟩ := x
  subst h
  rfl

/-- At a literal reference the transport is the identity. -/
private theorem toBuf_v28 (X : (⟨S100000x64, .f32⟩ : BufTy).Contents (Elt Ideal)) :
    (TRef.of (T := ⟨S100000x64, .f32⟩) main_v28).toBuf (Val := Elt Ideal) X = X := rfl

/-- The unit over the pre-activation: the outlined function's operations. -/
private theorem v28_eq (V : Valuation τ sig (Elt Ideal)) :
    after ops1 V (main_v28 : DevRef τ sig)
      = (select (α := EReal) (cmpf (F := Ideal) (s := S100000x64) (φ := .f32) .ogt (after ops1 V (main_v27 : DevRef τ sig)) (broadcastInDim S100000x64 ![] bcast_S_S100000x64 (constant S_ .f32 0x00000000#32)))
          (after ops1 V (main_v27 : DevRef τ sig))
          (mulf (F := Ideal) (s := S100000x64) (φ := .f32) (broadcastInDim S100000x64 ![] bcast_S_S100000x64 (constant S_ .f32 0x3F800000#32))
            (Host.expm1 (select (α := EReal) (cmpf (F := Ideal) (s := S100000x64) (φ := .f32) .ogt (after ops1 V (main_v27 : DevRef τ sig)) (broadcastInDim S100000x64 ![] bcast_S_S100000x64 (constant S_ .f32 0x00000000#32)))
              (broadcastInDim S100000x64 ![] bcast_S_S100000x64 (id (constant (F := Ideal) S_ .f32 0x00000000#32)))
              (after ops1 V (main_v27 : DevRef τ sig)))))
          : FVec Ideal S100000x64 .f32) := by
  after_results_simp
  simp only [ofBuf_toBuf, toBuf_v28]
  rfl

theorem h1_eq (V : Valuation τ sig (Elt Ideal)) :
    after ops1 V (main_v28 : DevRef τ sig)
      = layer128 stages (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (V (main_arg7 : DevRef τ sig)) (V (main_arg8 : DevRef τ sig)) := by
  -- the message array is an edge's message entry by entry
  have hm : Cert.GraphConv.msg128 stages (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) = _ :=
    (Cert.GraphConv.host_edge (M := 1200000) (K := 128)
      (stages.gather128 (V (main_arg0 : DevRef τ sig)) (stages.src (V (main_arg1 : DevRef τ sig))))
      (V (main_arg2 : DevRef τ sig)) (V (main_arg3 : DevRef τ sig)) (V (main_arg4 : DevRef τ sig)) (V (main_arg5 : DevRef τ sig)) (V (main_arg6 : DevRef τ sig))
      dot_S1200000x128_S128x64_S1200000x64_1_0_0_1_n_n rfl dot_S1200000x16_S16x64_S1200000x64_1_0_0_1_n_n rfl
      bcast_S64_S1x64_1 bcast_S64_S1x64_1 bcast_S1x64_S1200000x64_0_1 bcast_S1x64_S1200000x64_0_1).symm
  -- the stages' gather and scatter-add as the program spells them
  have hg : stages.gather128 (V (main_arg0 : DevRef τ sig)) (stages.src (V (main_arg1 : DevRef τ sig)))
      = Host.gather gather_S100000x128_S1200000x1_S1200000x128_1_0_n_n_0_1_1128 (V (main_arg0 : DevRef τ sig)) (Net.wrapIdx (edgeRow0 (V (main_arg1 : DevRef τ sig)))) := rfl
  have ha : ∀ msg : Cert.GraphConv.Arr 1200000 64, Cert.GraphConv.agg stages (V (main_arg1 : DevRef τ sig)) msg
      = Host.scatterAdd (F := Ideal) (φ := .f32) scatter_S100000x64_S1200000x1_S1200000x64_1_0_0_1
          (broadcastInDim S100000x64 ![] bcast_S_S100000x64 (constant (F := Ideal) S_ .f32 0x00000000#32))
          (Net.colIdx (edgeRow1 (V (main_arg1 : DevRef τ sig)))) msg := fun _ => rfl
  rw [v28_eq V, v27_eq V, v22_eq V, v21_eq V, v19_eq V, v10_eq V, v9_eq V]
  -- the unit over the pre-activation is a node's update entry by entry
  refine Eq.trans ?_ (Cert.GraphConv.host_node (M := 100000) (K := 128) (V (main_arg0 : DevRef τ sig))
    (Cert.GraphConv.agg stages (V (main_arg1 : DevRef τ sig)) (Cert.GraphConv.msg128 stages (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))))
    (V (main_arg7 : DevRef τ sig)) (V (main_arg8 : DevRef τ sig))
    dot_S100000x128_S128x64_S100000x64_1_0_0_1_n_n rfl bcast_S64_S1x64_1 bcast_S1x64_S100000x64_0_1
    bcast_S_S100000x64 bcast_S_S100000x64 bcast_S_S100000x64 bcast_S_S100000x64)
  rw [hm, hg, ha]

/-- Row 0 of the edge list, as the reshape of its slice leaves it. -/
theorem v1_eq (V : Valuation τ sig (Elt Ideal)) : after ops1 V (main_v1 : DevRef τ sig) = edgeRow0 (V (main_arg1 : DevRef τ sig)) := by
  after_results_simp
  rfl
/-- Row 1 of the edge list, as the reshape of its slice leaves it. -/
theorem v3_eq (V : Valuation τ sig (Elt Ideal)) : after ops1 V (main_v3 : DevRef τ sig) = edgeRow1 (V (main_arg1 : DevRef τ sig)) := by
  after_results_simp
  rfl

/-! ## No operation of the layer writes an argument -/

theorem ops1_keep_main_arg0 (V : Valuation τ sig (Elt Ideal)) : after ops1 V (main_arg0 : DevRef τ sig) = V (main_arg0 : DevRef τ sig) := by
  after_results_simp
theorem ops1_keep_main_arg1 (V : Valuation τ sig (Elt Ideal)) : after ops1 V (main_arg1 : DevRef τ sig) = V (main_arg1 : DevRef τ sig) := by
  after_results_simp
theorem ops1_keep_main_arg2 (V : Valuation τ sig (Elt Ideal)) : after ops1 V (main_arg2 : DevRef τ sig) = V (main_arg2 : DevRef τ sig) := by
  after_results_simp
theorem ops1_keep_main_arg3 (V : Valuation τ sig (Elt Ideal)) : after ops1 V (main_arg3 : DevRef τ sig) = V (main_arg3 : DevRef τ sig) := by
  after_results_simp
theorem ops1_keep_main_arg4 (V : Valuation τ sig (Elt Ideal)) : after ops1 V (main_arg4 : DevRef τ sig) = V (main_arg4 : DevRef τ sig) := by
  after_results_simp
theorem ops1_keep_main_arg5 (V : Valuation τ sig (Elt Ideal)) : after ops1 V (main_arg5 : DevRef τ sig) = V (main_arg5 : DevRef τ sig) := by
  after_results_simp
theorem ops1_keep_main_arg6 (V : Valuation τ sig (Elt Ideal)) : after ops1 V (main_arg6 : DevRef τ sig) = V (main_arg6 : DevRef τ sig) := by
  after_results_simp
theorem ops1_keep_main_arg7 (V : Valuation τ sig (Elt Ideal)) : after ops1 V (main_arg7 : DevRef τ sig) = V (main_arg7 : DevRef τ sig) := by
  after_results_simp
theorem ops1_keep_main_arg8 (V : Valuation τ sig (Elt Ideal)) : after ops1 V (main_arg8 : DevRef τ sig) = V (main_arg8 : DevRef τ sig) := by
  after_results_simp
theorem ops1_keep_main_arg9 (V : Valuation τ sig (Elt Ideal)) : after ops1 V (main_arg9 : DevRef τ sig) = V (main_arg9 : DevRef τ sig) := by
  after_results_simp
theorem ops1_keep_main_arg10 (V : Valuation τ sig (Elt Ideal)) : after ops1 V (main_arg10 : DevRef τ sig) = V (main_arg10 : DevRef τ sig) := by
  after_results_simp
theorem ops1_keep_main_arg11 (V : Valuation τ sig (Elt Ideal)) : after ops1 V (main_arg11 : DevRef τ sig) = V (main_arg11 : DevRef τ sig) := by
  after_results_simp
theorem ops1_keep_main_arg12 (V : Valuation τ sig (Elt Ideal)) : after ops1 V (main_arg12 : DevRef τ sig) = V (main_arg12 : DevRef τ sig) := by
  after_results_simp
theorem ops1_keep_main_arg13 (V : Valuation τ sig (Elt Ideal)) : after ops1 V (main_arg13 : DevRef τ sig) = V (main_arg13 : DevRef τ sig) := by
  after_results_simp
theorem ops1_keep_main_arg14 (V : Valuation τ sig (Elt Ideal)) : after ops1 V (main_arg14 : DevRef τ sig) = V (main_arg14 : DevRef τ sig) := by
  after_results_simp
theorem ops1_keep_main_arg15 (V : Valuation τ sig (Elt Ideal)) : after ops1 V (main_arg15 : DevRef τ sig) = V (main_arg15 : DevRef τ sig) := by
  after_results_simp
theorem ops1_keep_main_arg16 (V : Valuation τ sig (Elt Ideal)) : after ops1 V (main_arg16 : DevRef τ sig) = V (main_arg16 : DevRef τ sig) := by
  after_results_simp
theorem ops1_keep_main_arg17 (V : Valuation τ sig (Elt Ideal)) : after ops1 V (main_arg17 : DevRef τ sig) = V (main_arg17 : DevRef τ sig) := by
  after_results_simp
theorem ops1_keep_main_arg18 (V : Valuation τ sig (Elt Ideal)) : after ops1 V (main_arg18 : DevRef τ sig) = V (main_arg18 : DevRef τ sig) := by
  after_results_simp
theorem ops1_keep_main_arg19 (V : Valuation τ sig (Elt Ideal)) : after ops1 V (main_arg19 : DevRef τ sig) = V (main_arg19 : DevRef τ sig) := by
  after_results_simp
theorem ops1_keep_main_arg20 (V : Valuation τ sig (Elt Ideal)) : after ops1 V (main_arg20 : DevRef τ sig) = V (main_arg20 : DevRef τ sig) := by
  after_results_simp
theorem ops1_keep_main_arg21 (V : Valuation τ sig (Elt Ideal)) : after ops1 V (main_arg21 : DevRef τ sig) = V (main_arg21 : DevRef τ sig) := by
  after_results_simp
theorem ops1_keep_main_arg22 (V : Valuation τ sig (Elt Ideal)) : after ops1 V (main_arg22 : DevRef τ sig) = V (main_arg22 : DevRef τ sig) := by
  after_results_simp

end Cert.ReferenceIdeal.Layer1
-- ==== Proof.ReferenceLayer2.lean ====
/-
  A LATER LAYER in the reference (`Ops.ops2`): the fold of its operations over any buffer contents in which the two
  rows of the edge list are already cut out. The layer's node array is the layer of the previous node array and of the
  contents' arguments; the edge rows, the previous node array and the arguments are not written.

  The layer's operations are read in two parts. The first 27 compute the pre-activation (`preLayer`): the source
  row of the edge list wrapped once where negative and made a column, the rows of the previous node array gathered at
  it, the message ((x·Wm + bm) + e·We) + be, the messages added into a zero array at the destination column, the
  node's own product and bias added as (agg + h·Ws) + bs. The rest are the outlined exponential linear unit
  (`eluHost`): `where (t > 0) t (1 * expm1 (where (t > 0) 0 t))` of the pre-activation. The fold over each part at
  the buffer it ends in is that function of the contents by computation (each operation's result at the buffer it
  writes, what was there elsewhere); at the two rows of the edge list the composition is the network's layer by the
  whole-array lemmas of the message and of the update. No operation of the layer writes an argument, an edge row or
  the previous node array, so the fold leaves those as they were.
-/
import proofs.«168661_j64132451664027_1_alg».proof.Proof.ReferenceRun
import proofs.«168661_j64132451664027_1_alg».proof.Proof.ReferenceStages
import proofs.«168661_j64132451664027_1_alg».proof.Proof.HostLayer

noncomputable section
namespace Cert.ReferenceIdeal.Layer2
open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo
open Cert.GraphConv (layer128 layer64 h1 feat h3 logits out0 out1 out2)
open Cert.ReferenceIdeal.Net (stages inputs edgeRow0 edgeRow1)

/-- The pre-activation the layer's first 27 operations compute from the previous node array `h`, the two rows
    `i0` (sources) and `i1` (destinations) of the edge list, the edge attributes and the six parameters. -/
private def preLayer (h : FVec Ideal S100000x64 .f32) (i0 i1 : IVec S1200000 32) (ea : FVec Ideal S1200000x16 .f32)
    (Wm : FVec Ideal S64x64 .f32) (bm : FVec Ideal S64 .f32) (We : FVec Ideal S16x64 .f32) (be : FVec Ideal S64 .f32)
    (Ws : FVec Ideal S64x64 .f32) (bs : FVec Ideal S64 .f32) : FVec Ideal S100000x64 .f32 :=
  addf (addf
      (Host.scatterAdd scatter_S100000x64_S1200000x1_S1200000x64_1_0_0_1
        (broadcastInDim S100000x64 ![] bcast_S_S100000x64 (constant S_ .f32 0x00000000#32))
        (Net.colIdx i1)
        (addf (addf (addf
              (Host.dotGeneral dot_S1200000x64_S64x64_S1200000x64_1_0_0_1_n_n none
                (Host.gather gather_S100000x64_S1200000x1_S1200000x64_1_0_n_n_0_1_164 h (Net.wrapIdx i0)) Wm)
              (broadcastInDim S1200000x64 ![0, 1] bcast_S1x64_S1200000x64_0_1 (broadcastInDim S1x64 ![1] bcast_S64_S1x64_1 bm)))
            (Host.dotGeneral dot_S1200000x16_S16x64_S1200000x64_1_0_0_1_n_n none ea We))
          (broadcastInDim S1200000x64 ![0, 1] bcast_S1x64_S1200000x64_0_1 (broadcastInDim S1x64 ![1] bcast_S64_S1x64_1 be))))
      (Host.dotGeneral dot_S100000x64_S64x64_S100000x64_1_0_0_1_n_n none h Ws))
    (broadcastInDim S100000x64 ![0, 1] bcast_S1x64_S100000x64_0_1 (broadcastInDim S1x64 ![1] bcast_S64_S1x64_1 bs))

/-- The outlined exponential linear unit's operations composed, of a pre-activation `T`. -/
private def eluHost (T : FVec Ideal S100000x64 .f32) : FVec Ideal S100000x64 .f32 :=
  select (cmpf .ogt T (broadcastInDim S100000x64 ![] bcast_S_S100000x64 (constant S_ .f32 0x00000000#32))) T
    (mulf (broadcastInDim S100000x64 ![] bcast_S_S100000x64 (constant S_ .f32 0x3F800000#32))
      (Host.expm1 (select (cmpf .ogt T (broadcastInDim S100000x64 ![] bcast_S_S100000x64 (constant S_ .f32 0x00000000#32)))
        (broadcastInDim S100000x64 ![] bcast_S_S100000x64 (id (constant (F := Ideal) S_ .f32 0x00000000#32))) T)))

/-- At the two rows of an edge list the composed operations are the network's layer: the message array by the
    whole-array lemma of the message, then the update by the whole-array lemma of the node's stage; the gather, the
    scatter-add, the zero array and the two index columns are the stages' own spellings. -/
private theorem hostLayer_eq (h : FVec Ideal S100000x64 .f32) (ei : Cert.GraphConv.EdgeIdx) (ea : FVec Ideal S1200000x16 .f32)
    (Wm : FVec Ideal S64x64 .f32) (bm : FVec Ideal S64 .f32) (We : FVec Ideal S16x64 .f32) (be : FVec Ideal S64 .f32)
    (Ws : FVec Ideal S64x64 .f32) (bs : FVec Ideal S64 .f32) :
    eluHost (preLayer h (edgeRow0 ei) (edgeRow1 ei) ea Wm bm We be Ws bs) = layer64 stages h ei ea Wm bm We be Ws bs := by
  have hm := Cert.GraphConv.host_edge (M := 1200000) (K := 64)
    (Host.gather gather_S100000x64_S1200000x1_S1200000x64_1_0_n_n_0_1_164 h (Net.wrapIdx (edgeRow0 ei))) ea Wm bm We be
    dot_S1200000x64_S64x64_S1200000x64_1_0_0_1_n_n rfl dot_S1200000x16_S16x64_S1200000x64_1_0_0_1_n_n rfl
    bcast_S64_S1x64_1 bcast_S64_S1x64_1 bcast_S1x64_S1200000x64_0_1 bcast_S1x64_S1200000x64_0_1
  have hn := Cert.GraphConv.host_node (M := 100000) (K := 64) h
    (Host.scatterAdd scatter_S100000x64_S1200000x1_S1200000x64_1_0_0_1
      (broadcastInDim S100000x64 ![] bcast_S_S100000x64 (constant S_ .f32 0x00000000#32))
      (Net.colIdx (edgeRow1 ei))
      (Cert.GraphConv.edge (Host.gather gather_S100000x64_S1200000x1_S1200000x64_1_0_n_n_0_1_164 h (Net.wrapIdx (edgeRow0 ei))) ea Wm
        (Cert.Lib.Dense.biasRow bm) We (Cert.Lib.Dense.biasRow be)))
    Ws bs dot_S100000x64_S64x64_S100000x64_1_0_0_1_n_n rfl bcast_S64_S1x64_1 bcast_S1x64_S100000x64_0_1
    bcast_S_S100000x64 bcast_S_S100000x64 bcast_S_S100000x64 bcast_S_S100000x64
  unfold eluHost preLayer
  rw [hm]
  exact hn

/-- The layer's list is its first 27 operations followed by the rest. -/
private theorem ops_split : (ops2 : List (HloOp τ sig (Elt Ideal))) = ops2.take 27 ++ ops2.drop 27 :=
  (List.take_append_drop 27 _).symm

attribute [local irreducible] Host.gather Host.scatterAdd in
/-- The fold over the first 27 operations at the pre-activation's buffer. -/
private theorem pre_run (V : Valuation τ sig (Elt Ideal)) :
    after ((ops2 : List (HloOp τ sig (Elt Ideal))).take 27) V (main_v52 : DevRef τ sig)
      = preLayer (V (main_v28 : DevRef τ sig)) (V (main_v1 : DevRef τ sig)) (V (main_v3 : DevRef τ sig)) (V (main_arg2 : DevRef τ sig))
          (V (main_arg9 : DevRef τ sig)) (V (main_arg10 : DevRef τ sig)) (V (main_arg11 : DevRef τ sig)) (V (main_arg12 : DevRef τ sig))
          (V (main_arg13 : DevRef τ sig)) (V (main_arg14 : DevRef τ sig)) := by
  simp only [List.take_succ_cons, List.take_zero]
  after_results_simp <;> rfl

attribute [local irreducible] Host.expm1 in
set_option maxRecDepth 8192 in
/-- The fold over the unit's operations at the layer's result buffer, from any contents. -/
private theorem elu_run (W : Valuation τ sig (Elt Ideal)) :
    after ((ops2 : List (HloOp τ sig (Elt Ideal))).drop 27) W (main_v53 : DevRef τ sig) = eluHost (W (main_v52 : DevRef τ sig)) := by
  simp only [List.drop_succ_cons, List.drop_zero]
  after_results_simp <;> rfl

theorem layer_eq (V : Valuation τ sig (Elt Ideal)) (ei : Cert.GraphConv.EdgeIdx)
    (hv1 : V (main_v1 : DevRef τ sig) = edgeRow0 ei) (hv3 : V (main_v3 : DevRef τ sig) = edgeRow1 ei) :
    after ops2 V (main_v53 : DevRef τ sig)
      = layer64 stages (V (main_v28 : DevRef τ sig)) ei (V (main_arg2 : DevRef τ sig))
          (V (main_arg9 : DevRef τ sig)) (V (main_arg10 : DevRef τ sig)) (V (main_arg11 : DevRef τ sig)) (V (main_arg12 : DevRef τ sig))
          (V (main_arg13 : DevRef τ sig)) (V (main_arg14 : DevRef τ sig)) := by
  rw [ops_split, StableHlo.after_append, elu_run, pre_run, hv1, hv3]
  exact hostLayer_eq _ ei _ _ _ _ _ _ _
theorem ops2_keep_main_arg0 (V : Valuation τ sig (Elt Ideal)) : after ops2 V (main_arg0 : DevRef τ sig) = V (main_arg0 : DevRef τ sig) := by
  after_results_simp
theorem ops2_keep_main_arg1 (V : Valuation τ sig (Elt Ideal)) : after ops2 V (main_arg1 : DevRef τ sig) = V (main_arg1 : DevRef τ sig) := by
  after_results_simp
theorem ops2_keep_main_arg2 (V : Valuation τ sig (Elt Ideal)) : after ops2 V (main_arg2 : DevRef τ sig) = V (main_arg2 : DevRef τ sig) := by
  after_results_simp
theorem ops2_keep_main_arg3 (V : Valuation τ sig (Elt Ideal)) : after ops2 V (main_arg3 : DevRef τ sig) = V (main_arg3 : DevRef τ sig) := by
  after_results_simp
theorem ops2_keep_main_arg4 (V : Valuation τ sig (Elt Ideal)) : after ops2 V (main_arg4 : DevRef τ sig) = V (main_arg4 : DevRef τ sig) := by
  after_results_simp
theorem ops2_keep_main_arg5 (V : Valuation τ sig (Elt Ideal)) : after ops2 V (main_arg5 : DevRef τ sig) = V (main_arg5 : DevRef τ sig) := by
  after_results_simp
theorem ops2_keep_main_arg6 (V : Valuation τ sig (Elt Ideal)) : after ops2 V (main_arg6 : DevRef τ sig) = V (main_arg6 : DevRef τ sig) := by
  after_results_simp
theorem ops2_keep_main_arg7 (V : Valuation τ sig (Elt Ideal)) : after ops2 V (main_arg7 : DevRef τ sig) = V (main_arg7 : DevRef τ sig) := by
  after_results_simp
theorem ops2_keep_main_arg8 (V : Valuation τ sig (Elt Ideal)) : after ops2 V (main_arg8 : DevRef τ sig) = V (main_arg8 : DevRef τ sig) := by
  after_results_simp
theorem ops2_keep_main_arg9 (V : Valuation τ sig (Elt Ideal)) : after ops2 V (main_arg9 : DevRef τ sig) = V (main_arg9 : DevRef τ sig) := by
  after_results_simp
theorem ops2_keep_main_arg10 (V : Valuation τ sig (Elt Ideal)) : after ops2 V (main_arg10 : DevRef τ sig) = V (main_arg10 : DevRef τ sig) := by
  after_results_simp
theorem ops2_keep_main_arg11 (V : Valuation τ sig (Elt Ideal)) : after ops2 V (main_arg11 : DevRef τ sig) = V (main_arg11 : DevRef τ sig) := by
  after_results_simp
theorem ops2_keep_main_arg12 (V : Valuation τ sig (Elt Ideal)) : after ops2 V (main_arg12 : DevRef τ sig) = V (main_arg12 : DevRef τ sig) := by
  after_results_simp
theorem ops2_keep_main_arg13 (V : Valuation τ sig (Elt Ideal)) : after ops2 V (main_arg13 : DevRef τ sig) = V (main_arg13 : DevRef τ sig) := by
  after_results_simp
theorem ops2_keep_main_arg14 (V : Valuation τ sig (Elt Ideal)) : after ops2 V (main_arg14 : DevRef τ sig) = V (main_arg14 : DevRef τ sig) := by
  after_results_simp
theorem ops2_keep_main_arg15 (V : Valuation τ sig (Elt Ideal)) : after ops2 V (main_arg15 : DevRef τ sig) = V (main_arg15 : DevRef τ sig) := by
  after_results_simp
theorem ops2_keep_main_arg16 (V : Valuation τ sig (Elt Ideal)) : after ops2 V (main_arg16 : DevRef τ sig) = V (main_arg16 : DevRef τ sig) := by
  after_results_simp
theorem ops2_keep_main_arg17 (V : Valuation τ sig (Elt Ideal)) : after ops2 V (main_arg17 : DevRef τ sig) = V (main_arg17 : DevRef τ sig) := by
  after_results_simp
theorem ops2_keep_main_arg18 (V : Valuation τ sig (Elt Ideal)) : after ops2 V (main_arg18 : DevRef τ sig) = V (main_arg18 : DevRef τ sig) := by
  after_results_simp
theorem ops2_keep_main_arg19 (V : Valuation τ sig (Elt Ideal)) : after ops2 V (main_arg19 : DevRef τ sig) = V (main_arg19 : DevRef τ sig) := by
  after_results_simp
theorem ops2_keep_main_arg20 (V : Valuation τ sig (Elt Ideal)) : after ops2 V (main_arg20 : DevRef τ sig) = V (main_arg20 : DevRef τ sig) := by
  after_results_simp
theorem ops2_keep_main_arg21 (V : Valuation τ sig (Elt Ideal)) : after ops2 V (main_arg21 : DevRef τ sig) = V (main_arg21 : DevRef τ sig) := by
  after_results_simp
theorem ops2_keep_main_arg22 (V : Valuation τ sig (Elt Ideal)) : after ops2 V (main_arg22 : DevRef τ sig) = V (main_arg22 : DevRef τ sig) := by
  after_results_simp
theorem ops2_keep_main_v1 (V : Valuation τ sig (Elt Ideal)) : after ops2 V (main_v1 : DevRef τ sig) = V (main_v1 : DevRef τ sig) := by
  after_results_simp
theorem ops2_keep_main_v3 (V : Valuation τ sig (Elt Ideal)) : after ops2 V (main_v3 : DevRef τ sig) = V (main_v3 : DevRef τ sig) := by
  after_results_simp
theorem ops2_keep_main_v28 (V : Valuation τ sig (Elt Ideal)) : after ops2 V (main_v28 : DevRef τ sig) = V (main_v28 : DevRef τ sig) := by
  after_results_simp

end Cert.ReferenceIdeal.Layer2
-- ==== Proof.ReferenceLayer3.lean ====
/-
  A LATER LAYER in the reference (`Ops.ops3`): the fold of its operations over any buffer contents in which the two
  rows of the edge list are already cut out. The layer's node array is the layer of the previous node array and of the
  contents' arguments; the edge rows, the previous node array and the arguments are not written.

  The layer's operations are read in two parts. The first 27 compute the pre-activation (`preLayer`): the source
  row of the edge list wrapped once where negative and made a column, the rows of the previous node array gathered at
  it, the message ((x·Wm + bm) + e·We) + be, the messages added into a zero array at the destination column, the
  node's own product and bias added as (agg + h·Ws) + bs. The rest are the outlined exponential linear unit
  (`eluHost`): `where (t > 0) t (1 * expm1 (where (t > 0) 0 t))` of the pre-activation. The fold over each part at
  the buffer it ends in is that function of the contents by computation (each operation's result at the buffer it
  writes, what was there elsewhere); at the two rows of the edge list the composition is the network's layer by the
  whole-array lemmas of the message and of the update. No operation of the layer writes an argument, an edge row or
  the previous node array, so the fold leaves those as they were.
-/
import proofs.«168661_j64132451664027_1_alg».proof.Proof.ReferenceRun
import proofs.«168661_j64132451664027_1_alg».proof.Proof.ReferenceStages
import proofs.«168661_j64132451664027_1_alg».proof.Proof.HostLayer

noncomputable section
namespace Cert.ReferenceIdeal.Layer3
open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo
open Cert.GraphConv (layer128 layer64 h1 feat h3 logits out0 out1 out2)
open Cert.ReferenceIdeal.Net (stages inputs edgeRow0 edgeRow1)

/-- The pre-activation the layer's first 27 operations compute from the previous node array `h`, the two rows
    `i0` (sources) and `i1` (destinations) of the edge list, the edge attributes and the six parameters. -/
private def preLayer (h : FVec Ideal S100000x64 .f32) (i0 i1 : IVec S1200000 32) (ea : FVec Ideal S1200000x16 .f32)
    (Wm : FVec Ideal S64x64 .f32) (bm : FVec Ideal S64 .f32) (We : FVec Ideal S16x64 .f32) (be : FVec Ideal S64 .f32)
    (Ws : FVec Ideal S64x64 .f32) (bs : FVec Ideal S64 .f32) : FVec Ideal S100000x64 .f32 :=
  addf (addf
      (Host.scatterAdd scatter_S100000x64_S1200000x1_S1200000x64_1_0_0_1
        (broadcastInDim S100000x64 ![] bcast_S_S100000x64 (constant S_ .f32 0x00000000#32))
        (Net.colIdx i1)
        (addf (addf (addf
              (Host.dotGeneral dot_S1200000x64_S64x64_S1200000x64_1_0_0_1_n_n none
                (Host.gather gather_S100000x64_S1200000x1_S1200000x64_1_0_n_n_0_1_164 h (Net.wrapIdx i0)) Wm)
              (broadcastInDim S1200000x64 ![0, 1] bcast_S1x64_S1200000x64_0_1 (broadcastInDim S1x64 ![1] bcast_S64_S1x64_1 bm)))
            (Host.dotGeneral dot_S1200000x16_S16x64_S1200000x64_1_0_0_1_n_n none ea We))
          (broadcastInDim S1200000x64 ![0, 1] bcast_S1x64_S1200000x64_0_1 (broadcastInDim S1x64 ![1] bcast_S64_S1x64_1 be))))
      (Host.dotGeneral dot_S100000x64_S64x64_S100000x64_1_0_0_1_n_n none h Ws))
    (broadcastInDim S100000x64 ![0, 1] bcast_S1x64_S100000x64_0_1 (broadcastInDim S1x64 ![1] bcast_S64_S1x64_1 bs))

/-- The outlined exponential linear unit's operations composed, of a pre-activation `T`. -/
private def eluHost (T : FVec Ideal S100000x64 .f32) : FVec Ideal S100000x64 .f32 :=
  select (cmpf .ogt T (broadcastInDim S100000x64 ![] bcast_S_S100000x64 (constant S_ .f32 0x00000000#32))) T
    (mulf (broadcastInDim S100000x64 ![] bcast_S_S100000x64 (constant S_ .f32 0x3F800000#32))
      (Host.expm1 (select (cmpf .ogt T (broadcastInDim S100000x64 ![] bcast_S_S100000x64 (constant S_ .f32 0x00000000#32)))
        (broadcastInDim S100000x64 ![] bcast_S_S100000x64 (id (constant (F := Ideal) S_ .f32 0x00000000#32))) T)))

/-- At the two rows of an edge list the composed operations are the network's layer: the message array by the
    whole-array lemma of the message, then the update by the whole-array lemma of the node's stage; the gather, the
    scatter-add, the zero array and the two index columns are the stages' own spellings. -/
private theorem hostLayer_eq (h : FVec Ideal S100000x64 .f32) (ei : Cert.GraphConv.EdgeIdx) (ea : FVec Ideal S1200000x16 .f32)
    (Wm : FVec Ideal S64x64 .f32) (bm : FVec Ideal S64 .f32) (We : FVec Ideal S16x64 .f32) (be : FVec Ideal S64 .f32)
    (Ws : FVec Ideal S64x64 .f32) (bs : FVec Ideal S64 .f32) :
    eluHost (preLayer h (edgeRow0 ei) (edgeRow1 ei) ea Wm bm We be Ws bs) = layer64 stages h ei ea Wm bm We be Ws bs := by
  have hm := Cert.GraphConv.host_edge (M := 1200000) (K := 64)
    (Host.gather gather_S100000x64_S1200000x1_S1200000x64_1_0_n_n_0_1_164 h (Net.wrapIdx (edgeRow0 ei))) ea Wm bm We be
    dot_S1200000x64_S64x64_S1200000x64_1_0_0_1_n_n rfl dot_S1200000x16_S16x64_S1200000x64_1_0_0_1_n_n rfl
    bcast_S64_S1x64_1 bcast_S64_S1x64_1 bcast_S1x64_S1200000x64_0_1 bcast_S1x64_S1200000x64_0_1
  have hn := Cert.GraphConv.host_node (M := 100000) (K := 64) h
    (Host.scatterAdd scatter_S100000x64_S1200000x1_S1200000x64_1_0_0_1
      (broadcastInDim S100000x64 ![] bcast_S_S100000x64 (constant S_ .f32 0x00000000#32))
      (Net.colIdx (edgeRow1 ei))
      (Cert.GraphConv.edge (Host.gather gather_S100000x64_S1200000x1_S1200000x64_1_0_n_n_0_1_164 h (Net.wrapIdx (edgeRow0 ei))) ea Wm
        (Cert.Lib.Dense.biasRow bm) We (Cert.Lib.Dense.biasRow be)))
    Ws bs dot_S100000x64_S64x64_S100000x64_1_0_0_1_n_n rfl bcast_S64_S1x64_1 bcast_S1x64_S100000x64_0_1
    bcast_S_S100000x64 bcast_S_S100000x64 bcast_S_S100000x64 bcast_S_S100000x64
  unfold eluHost preLayer
  rw [hm]
  exact hn

/-- The layer's list is its first 27 operations followed by the rest. -/
private theorem ops_split : (ops3 : List (HloOp τ sig (Elt Ideal))) = ops3.take 27 ++ ops3.drop 27 :=
  (List.take_append_drop 27 _).symm

attribute [local irreducible] Host.gather Host.scatterAdd in
/-- The fold over the first 27 operations at the pre-activation's buffer. -/
private theorem pre_run (V : Valuation τ sig (Elt Ideal)) :
    after ((ops3 : List (HloOp τ sig (Elt Ideal))).take 27) V (main_v77 : DevRef τ sig)
      = preLayer (V (main_v53 : DevRef τ sig)) (V (main_v1 : DevRef τ sig)) (V (main_v3 : DevRef τ sig)) (V (main_arg2 : DevRef τ sig))
          (V (main_arg15 : DevRef τ sig)) (V (main_arg16 : DevRef τ sig)) (V (main_arg17 : DevRef τ sig)) (V (main_arg18 : DevRef τ sig))
          (V (main_arg19 : DevRef τ sig)) (V (main_arg20 : DevRef τ sig)) := by
  simp only [List.take_succ_cons, List.take_zero]
  after_results_simp <;> rfl

attribute [local irreducible] Host.expm1 in
set_option maxRecDepth 8192 in
/-- The fold over the unit's operations at the layer's result buffer, from any contents. -/
private theorem elu_run (W : Valuation τ sig (Elt Ideal)) :
    after ((ops3 : List (HloOp τ sig (Elt Ideal))).drop 27) W (main_v78 : DevRef τ sig) = eluHost (W (main_v77 : DevRef τ sig)) := by
  simp only [List.drop_succ_cons, List.drop_zero]
  after_results_simp <;> rfl

theorem layer_eq (V : Valuation τ sig (Elt Ideal)) (ei : Cert.GraphConv.EdgeIdx)
    (hv1 : V (main_v1 : DevRef τ sig) = edgeRow0 ei) (hv3 : V (main_v3 : DevRef τ sig) = edgeRow1 ei) :
    after ops3 V (main_v78 : DevRef τ sig)
      = layer64 stages (V (main_v53 : DevRef τ sig)) ei (V (main_arg2 : DevRef τ sig))
          (V (main_arg15 : DevRef τ sig)) (V (main_arg16 : DevRef τ sig)) (V (main_arg17 : DevRef τ sig)) (V (main_arg18 : DevRef τ sig))
          (V (main_arg19 : DevRef τ sig)) (V (main_arg20 : DevRef τ sig)) := by
  rw [ops_split, StableHlo.after_append, elu_run, pre_run, hv1, hv3]
  exact hostLayer_eq _ ei _ _ _ _ _ _ _
theorem ops3_keep_main_arg0 (V : Valuation τ sig (Elt Ideal)) : after ops3 V (main_arg0 : DevRef τ sig) = V (main_arg0 : DevRef τ sig) := by
  after_results_simp
theorem ops3_keep_main_arg1 (V : Valuation τ sig (Elt Ideal)) : after ops3 V (main_arg1 : DevRef τ sig) = V (main_arg1 : DevRef τ sig) := by
  after_results_simp
theorem ops3_keep_main_arg2 (V : Valuation τ sig (Elt Ideal)) : after ops3 V (main_arg2 : DevRef τ sig) = V (main_arg2 : DevRef τ sig) := by
  after_results_simp
theorem ops3_keep_main_arg3 (V : Valuation τ sig (Elt Ideal)) : after ops3 V (main_arg3 : DevRef τ sig) = V (main_arg3 : DevRef τ sig) := by
  after_results_simp
theorem ops3_keep_main_arg4 (V : Valuation τ sig (Elt Ideal)) : after ops3 V (main_arg4 : DevRef τ sig) = V (main_arg4 : DevRef τ sig) := by
  after_results_simp
theorem ops3_keep_main_arg5 (V : Valuation τ sig (Elt Ideal)) : after ops3 V (main_arg5 : DevRef τ sig) = V (main_arg5 : DevRef τ sig) := by
  after_results_simp
theorem ops3_keep_main_arg6 (V : Valuation τ sig (Elt Ideal)) : after ops3 V (main_arg6 : DevRef τ sig) = V (main_arg6 : DevRef τ sig) := by
  after_results_simp
theorem ops3_keep_main_arg7 (V : Valuation τ sig (Elt Ideal)) : after ops3 V (main_arg7 : DevRef τ sig) = V (main_arg7 : DevRef τ sig) := by
  after_results_simp
theorem ops3_keep_main_arg8 (V : Valuation τ sig (Elt Ideal)) : after ops3 V (main_arg8 : DevRef τ sig) = V (main_arg8 : DevRef τ sig) := by
  after_results_simp
theorem ops3_keep_main_arg9 (V : Valuation τ sig (Elt Ideal)) : after ops3 V (main_arg9 : DevRef τ sig) = V (main_arg9 : DevRef τ sig) := by
  after_results_simp
theorem ops3_keep_main_arg10 (V : Valuation τ sig (Elt Ideal)) : after ops3 V (main_arg10 : DevRef τ sig) = V (main_arg10 : DevRef τ sig) := by
  after_results_simp
theorem ops3_keep_main_arg11 (V : Valuation τ sig (Elt Ideal)) : after ops3 V (main_arg11 : DevRef τ sig) = V (main_arg11 : DevRef τ sig) := by
  after_results_simp
theorem ops3_keep_main_arg12 (V : Valuation τ sig (Elt Ideal)) : after ops3 V (main_arg12 : DevRef τ sig) = V (main_arg12 : DevRef τ sig) := by
  after_results_simp
theorem ops3_keep_main_arg13 (V : Valuation τ sig (Elt Ideal)) : after ops3 V (main_arg13 : DevRef τ sig) = V (main_arg13 : DevRef τ sig) := by
  after_results_simp
theorem ops3_keep_main_arg14 (V : Valuation τ sig (Elt Ideal)) : after ops3 V (main_arg14 : DevRef τ sig) = V (main_arg14 : DevRef τ sig) := by
  after_results_simp
theorem ops3_keep_main_arg15 (V : Valuation τ sig (Elt Ideal)) : after ops3 V (main_arg15 : DevRef τ sig) = V (main_arg15 : DevRef τ sig) := by
  after_results_simp
theorem ops3_keep_main_arg16 (V : Valuation τ sig (Elt Ideal)) : after ops3 V (main_arg16 : DevRef τ sig) = V (main_arg16 : DevRef τ sig) := by
  after_results_simp
theorem ops3_keep_main_arg17 (V : Valuation τ sig (Elt Ideal)) : after ops3 V (main_arg17 : DevRef τ sig) = V (main_arg17 : DevRef τ sig) := by
  after_results_simp
theorem ops3_keep_main_arg18 (V : Valuation τ sig (Elt Ideal)) : after ops3 V (main_arg18 : DevRef τ sig) = V (main_arg18 : DevRef τ sig) := by
  after_results_simp
theorem ops3_keep_main_arg19 (V : Valuation τ sig (Elt Ideal)) : after ops3 V (main_arg19 : DevRef τ sig) = V (main_arg19 : DevRef τ sig) := by
  after_results_simp
theorem ops3_keep_main_arg20 (V : Valuation τ sig (Elt Ideal)) : after ops3 V (main_arg20 : DevRef τ sig) = V (main_arg20 : DevRef τ sig) := by
  after_results_simp
theorem ops3_keep_main_arg21 (V : Valuation τ sig (Elt Ideal)) : after ops3 V (main_arg21 : DevRef τ sig) = V (main_arg21 : DevRef τ sig) := by
  after_results_simp
theorem ops3_keep_main_arg22 (V : Valuation τ sig (Elt Ideal)) : after ops3 V (main_arg22 : DevRef τ sig) = V (main_arg22 : DevRef τ sig) := by
  after_results_simp
theorem ops3_keep_main_v1 (V : Valuation τ sig (Elt Ideal)) : after ops3 V (main_v1 : DevRef τ sig) = V (main_v1 : DevRef τ sig) := by
  after_results_simp
theorem ops3_keep_main_v3 (V : Valuation τ sig (Elt Ideal)) : after ops3 V (main_v3 : DevRef τ sig) = V (main_v3 : DevRef τ sig) := by
  after_results_simp
theorem ops3_keep_main_v53 (V : Valuation τ sig (Elt Ideal)) : after ops3 V (main_v53 : DevRef τ sig) = V (main_v53 : DevRef τ sig) := by
  after_results_simp

end Cert.ReferenceIdeal.Layer3
-- ==== Proof.ReferenceTail.lean ====
/-
  THE CLOSING OPERATIONS in the reference (`Ops.ops4`): the logit of the last node array, its squashing, and the
  second layer's features beside the logit; the second layer's features and the arguments are not written.
  Each buffer's contents after the thirteen operations is read off the fold: an operation's result at its own result
  buffer is its function of the operands' contents, and at any other buffer what was there. The squashed logit and
  the concatenation are then the stages' definitions, which compose the same operations in the same order.
-/
import proofs.«168661_j64132451664027_1_alg».proof.Proof.ReferenceRun
import proofs.«168661_j64132451664027_1_alg».proof.Proof.ReferenceStages
import proofs.«168661_j64132451664027_1_alg».proof.Proof.HostLayer

noncomputable section
namespace Cert.ReferenceIdeal.Tail
open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo
open Cert.GraphConv (layer128 layer64 h1 feat h3 logits out0 out1 out2)
open Cert.ReferenceIdeal.Net (stages inputs edgeRow0 edgeRow1)

theorem sig_eq (V : Valuation τ sig (Elt Ideal)) :
    after ops4 V (main_v88 : DevRef τ sig)
      = stages.sigm (stages.logit (V (main_v78 : DevRef τ sig)) (V (main_arg21 : DevRef τ sig)) (V (main_arg22 : DevRef τ sig))) := by
  after_results_simp
  rfl
theorem cat_eq (V : Valuation τ sig (Elt Ideal)) :
    after ops4 V (main_v89 : DevRef τ sig)
      = stages.cat (V (main_v53 : DevRef τ sig)) (stages.logit (V (main_v78 : DevRef τ sig)) (V (main_arg21 : DevRef τ sig)) (V (main_arg22 : DevRef τ sig))) := by
  after_results_simp
  rfl
theorem ops4_keep_main_arg0 (V : Valuation τ sig (Elt Ideal)) : after ops4 V (main_arg0 : DevRef τ sig) = V (main_arg0 : DevRef τ sig) := by
  after_results_simp
theorem ops4_keep_main_arg1 (V : Valuation τ sig (Elt Ideal)) : after ops4 V (main_arg1 : DevRef τ sig) = V (main_arg1 : DevRef τ sig) := by
  after_results_simp
theorem ops4_keep_main_arg2 (V : Valuation τ sig (Elt Ideal)) : after ops4 V (main_arg2 : DevRef τ sig) = V (main_arg2 : DevRef τ sig) := by
  after_results_simp
theorem ops4_keep_main_arg3 (V : Valuation τ sig (Elt Ideal)) : after ops4 V (main_arg3 : DevRef τ sig) = V (main_arg3 : DevRef τ sig) := by
  after_results_simp
theorem ops4_keep_main_arg4 (V : Valuation τ sig (Elt Ideal)) : after ops4 V (main_arg4 : DevRef τ sig) = V (main_arg4 : DevRef τ sig) := by
  after_results_simp
theorem ops4_keep_main_arg5 (V : Valuation τ sig (Elt Ideal)) : after ops4 V (main_arg5 : DevRef τ sig) = V (main_arg5 : DevRef τ sig) := by
  after_results_simp
theorem ops4_keep_main_arg6 (V : Valuation τ sig (Elt Ideal)) : after ops4 V (main_arg6 : DevRef τ sig) = V (main_arg6 : DevRef τ sig) := by
  after_results_simp
theorem ops4_keep_main_arg7 (V : Valuation τ sig (Elt Ideal)) : after ops4 V (main_arg7 : DevRef τ sig) = V (main_arg7 : DevRef τ sig) := by
  after_results_simp
theorem ops4_keep_main_arg8 (V : Valuation τ sig (Elt Ideal)) : after ops4 V (main_arg8 : DevRef τ sig) = V (main_arg8 : DevRef τ sig) := by
  after_results_simp
theorem ops4_keep_main_arg9 (V : Valuation τ sig (Elt Ideal)) : after ops4 V (main_arg9 : DevRef τ sig) = V (main_arg9 : DevRef τ sig) := by
  after_results_simp
theorem ops4_keep_main_arg10 (V : Valuation τ sig (Elt Ideal)) : after ops4 V (main_arg10 : DevRef τ sig) = V (main_arg10 : DevRef τ sig) := by
  after_results_simp
theorem ops4_keep_main_arg11 (V : Valuation τ sig (Elt Ideal)) : after ops4 V (main_arg11 : DevRef τ sig) = V (main_arg11 : DevRef τ sig) := by
  after_results_simp
theorem ops4_keep_main_arg12 (V : Valuation τ sig (Elt Ideal)) : after ops4 V (main_arg12 : DevRef τ sig) = V (main_arg12 : DevRef τ sig) := by
  after_results_simp
theorem ops4_keep_main_arg13 (V : Valuation τ sig (Elt Ideal)) : after ops4 V (main_arg13 : DevRef τ sig) = V (main_arg13 : DevRef τ sig) := by
  after_results_simp
theorem ops4_keep_main_arg14 (V : Valuation τ sig (Elt Ideal)) : after ops4 V (main_arg14 : DevRef τ sig) = V (main_arg14 : DevRef τ sig) := by
  after_results_simp
theorem ops4_keep_main_arg15 (V : Valuation τ sig (Elt Ideal)) : after ops4 V (main_arg15 : DevRef τ sig) = V (main_arg15 : DevRef τ sig) := by
  after_results_simp
theorem ops4_keep_main_arg16 (V : Valuation τ sig (Elt Ideal)) : after ops4 V (main_arg16 : DevRef τ sig) = V (main_arg16 : DevRef τ sig) := by
  after_results_simp
theorem ops4_keep_main_arg17 (V : Valuation τ sig (Elt Ideal)) : after ops4 V (main_arg17 : DevRef τ sig) = V (main_arg17 : DevRef τ sig) := by
  after_results_simp
theorem ops4_keep_main_arg18 (V : Valuation τ sig (Elt Ideal)) : after ops4 V (main_arg18 : DevRef τ sig) = V (main_arg18 : DevRef τ sig) := by
  after_results_simp
theorem ops4_keep_main_arg19 (V : Valuation τ sig (Elt Ideal)) : after ops4 V (main_arg19 : DevRef τ sig) = V (main_arg19 : DevRef τ sig) := by
  after_results_simp
theorem ops4_keep_main_arg20 (V : Valuation τ sig (Elt Ideal)) : after ops4 V (main_arg20 : DevRef τ sig) = V (main_arg20 : DevRef τ sig) := by
  after_results_simp
theorem ops4_keep_main_arg21 (V : Valuation τ sig (Elt Ideal)) : after ops4 V (main_arg21 : DevRef τ sig) = V (main_arg21 : DevRef τ sig) := by
  after_results_simp
theorem ops4_keep_main_arg22 (V : Valuation τ sig (Elt Ideal)) : after ops4 V (main_arg22 : DevRef τ sig) = V (main_arg22 : DevRef τ sig) := by
  after_results_simp
theorem ops4_keep_main_v53 (V : Valuation τ sig (Elt Ideal)) : after ops4 V (main_v53 : DevRef τ sig) = V (main_v53 : DevRef τ sig) := by
  after_results_simp

end Cert.ReferenceIdeal.Tail
-- ==== Proof.ReferenceChain.lean ====
/-
  THE REFERENCE'S RESULTS: the fold of all its operations over a memory's launch contents has the three result buffers
  at the network's three results of the memory's arguments, and the arguments as launched. The four parts' facts one
  after the other.
  The fold over all operations is the fold over the four parts in order. Going from the last part to the first, each
  part's result buffer is that part's stage of the contents before it, and a buffer a part does not write is read
  through it; the edge list's two rows, cut out in the first part, are carried through the later parts unchanged. At
  the launch contents the arguments are the memory's, which is what the network's inputs are defined to be.
-/
import proofs.«168661_j64132451664027_1_alg».proof.Proof.ReferenceRun
import proofs.«168661_j64132451664027_1_alg».proof.Proof.ReferenceStages
import proofs.«168661_j64132451664027_1_alg».proof.Proof.HostLayer
import proofs.«168661_j64132451664027_1_alg».proof.Proof.ReferenceLayer1
import proofs.«168661_j64132451664027_1_alg».proof.Proof.ReferenceLayer2
import proofs.«168661_j64132451664027_1_alg».proof.Proof.ReferenceLayer3
import proofs.«168661_j64132451664027_1_alg».proof.Proof.ReferenceTail

noncomputable section
namespace Cert.ReferenceIdeal.Chain
open Cert.ReferenceIdeal Cert.ReferenceIdeal.Gen Cert.ReferenceIdeal.Ops Cert.ReferenceIdeal.Run
open Idealize.ShloMosaic Idealize.ShloMosaic.TcCoe Idealize.SL.Sem Idealize.ShloMosaic.StableHlo
open Cert.GraphConv (layer128 layer64 h1 feat h3 logits out0 out1 out2)
open Cert.ReferenceIdeal.Net (stages inputs edgeRow0 edgeRow1)

variable (m : (ℓ : Loc nD τ sig) → Buf (Elt Ideal) ℓ)

/-- The second layer's features after the first two parts. -/
private theorem feat_eq (c : Dev nD) :
    after ops2 (after ops1 (launchContents m c)) (main_v53 : DevRef τ sig) = feat stages (inputs m c) := by
  rw [Layer2.layer_eq (after ops1 (launchContents m c)) ((launchContents m c) (main_arg1 : DevRef τ sig)) (Layer1.v1_eq _) (Layer1.v3_eq _),
    Layer1.h1_eq, Layer1.ops1_keep_main_arg2, Layer1.ops1_keep_main_arg9, Layer1.ops1_keep_main_arg10,
    Layer1.ops1_keep_main_arg11, Layer1.ops1_keep_main_arg12, Layer1.ops1_keep_main_arg13, Layer1.ops1_keep_main_arg14]
  rfl

/-- The last node array after the first three parts. -/
private theorem h3_eq (c : Dev nD) :
    after ops3 (after ops2 (after ops1 (launchContents m c))) (main_v78 : DevRef τ sig) = h3 stages (inputs m c) := by
  rw [Layer3.layer_eq (after ops2 (after ops1 (launchContents m c))) ((launchContents m c) (main_arg1 : DevRef τ sig))
      (by rw [Layer2.ops2_keep_main_v1, Layer1.v1_eq]) (by rw [Layer2.ops2_keep_main_v3, Layer1.v3_eq]),
    feat_eq,
    Layer2.ops2_keep_main_arg2, Layer2.ops2_keep_main_arg15, Layer2.ops2_keep_main_arg16, Layer2.ops2_keep_main_arg17,
    Layer2.ops2_keep_main_arg18, Layer2.ops2_keep_main_arg19, Layer2.ops2_keep_main_arg20,
    Layer1.ops1_keep_main_arg2, Layer1.ops1_keep_main_arg15, Layer1.ops1_keep_main_arg16, Layer1.ops1_keep_main_arg17,
    Layer1.ops1_keep_main_arg18, Layer1.ops1_keep_main_arg19, Layer1.ops1_keep_main_arg20]
  rfl

/-- The logit after the first three parts' contents. -/
private theorem logits_eq (c : Dev nD) :
    stages.logit (after ops3 (after ops2 (after ops1 (launchContents m c))) (main_v78 : DevRef τ sig))
        (after ops3 (after ops2 (after ops1 (launchContents m c))) (main_arg21 : DevRef τ sig)) (after ops3 (after ops2 (after ops1 (launchContents m c))) (main_arg22 : DevRef τ sig))
      = logits stages (inputs m c) := by
  rw [h3_eq, Layer3.ops3_keep_main_arg21, Layer3.ops3_keep_main_arg22, Layer2.ops2_keep_main_arg21, Layer2.ops2_keep_main_arg22,
    Layer1.ops1_keep_main_arg21, Layer1.ops1_keep_main_arg22]
  rfl

theorem ref_out0 (c : Dev nD) : after ops (launchContents m c) (main_v88 : DevRef τ sig) = out0 stages (inputs m c) := by
  rw [after_ops, Tail.sig_eq, logits_eq]
  rfl
theorem ref_out1 (c : Dev nD) : after ops (launchContents m c) (main_v53 : DevRef τ sig) = out1 stages (inputs m c) := by
  rw [after_ops, Tail.ops4_keep_main_v53, Layer3.ops3_keep_main_v53, feat_eq]
  rfl
theorem ref_out2 (c : Dev nD) : after ops (launchContents m c) (main_v89 : DevRef τ sig) = out2 stages (inputs m c) := by
  rw [after_ops, Tail.cat_eq, logits_eq, Layer3.ops3_keep_main_v53, feat_eq]
  rfl
theorem ref_arg0 (c : Dev nD) : after ops (launchContents m c) (main_arg0 : DevRef τ sig) = m ((c.tc : Thread nD τ).loc main_arg0) := by
  rw [after_ops, Tail.ops4_keep_main_arg0, Layer3.ops3_keep_main_arg0, Layer2.ops2_keep_main_arg0, Layer1.ops1_keep_main_arg0]
theorem ref_arg1 (c : Dev nD) : after ops (launchContents m c) (main_arg1 : DevRef τ sig) = m ((c.tc : Thread nD τ).loc main_arg1) := by
  rw [after_ops, Tail.ops4_keep_main_arg1, Layer3.ops3_keep_main_arg1, Layer2.ops2_keep_main_arg1, Layer1.ops1_keep_main_arg1]
theorem ref_arg2 (c : Dev nD) : after ops (launchContents m c) (main_arg2 : DevRef τ sig) = m ((c.tc : Thread nD τ).loc main_arg2) := by
  rw [after_ops, Tail.ops4_keep_main_arg2, Layer3.ops3_keep_main_arg2, Layer2.ops2_keep_main_arg2, Layer1.ops1_keep_main_arg2]
theorem ref_arg3 (c : Dev nD) : after ops (launchContents m c) (main_arg3 : DevRef τ sig) = m ((c.tc : Thread nD τ).loc main_arg3) := by
  rw [after_ops, Tail.ops4_keep_main_arg3, Layer3.ops3_keep_main_arg3, Layer2.ops2_keep_main_arg3, Layer1.ops1_keep_main_arg3]
theorem ref_arg4 (c : Dev nD) : after ops (launchContents m c) (main_arg4 : DevRef τ sig) = m ((c.tc : Thread nD τ).loc main_arg4) := by
  rw [after_ops, Tail.ops4_keep_main_arg4, Layer3.ops3_keep_main_arg4, Layer2.ops2_keep_main_arg4, Layer1.ops1_keep_main_arg4]
theorem ref_arg5 (c : Dev nD) : after ops (launchContents m c) (main_arg5 : DevRef τ sig) = m ((c.tc : Thread nD τ).loc main_arg5) := by
  rw [after_ops, Tail.ops4_keep_main_arg5, Layer3.ops3_keep_main_arg5, Layer2.ops2_keep_main_arg5, Layer1.ops1_keep_main_arg5]
theorem ref_arg6 (c : Dev nD) : after ops (launchContents m c) (main_arg6 : DevRef τ sig) = m ((c.tc : Thread nD τ).loc main_arg6) := by
  rw [after_ops, Tail.ops4_keep_main_arg6, Layer3.ops3_keep_main_arg6, Layer2.ops2_keep_main_arg6, Layer1.ops1_keep_main_arg6]
theorem ref_arg7 (c : Dev nD) : after ops (launchContents m c) (main_arg7 : DevRef τ sig) = m ((c.tc : Thread nD τ).loc main_arg7) := by
  rw [after_ops, Tail.ops4_keep_main_arg7, Layer3.ops3_keep_main_arg7, Layer2.ops2_keep_main_arg7, Layer1.ops1_keep_main_arg7]
theorem ref_arg8 (c : Dev nD) : after ops (launchContents m c) (main_arg8 : DevRef τ sig) = m ((c.tc : Thread nD τ).loc main_arg8) := by
  rw [after_ops, Tail.ops4_keep_main_arg8, Layer3.ops3_keep_main_arg8, Layer2.ops2_keep_main_arg8, Layer1.ops1_keep_main_arg8]
theorem ref_arg9 (c : Dev nD) : after ops (launchContents m c) (main_arg9 : DevRef τ sig) = m ((c.tc : Thread nD τ).loc main_arg9) := by
  rw [after_ops, Tail.ops4_keep_main_arg9, Layer3.ops3_keep_main_arg9, Layer2.ops2_keep_main_arg9, Layer1.ops1_keep_main_arg9]
theorem ref_arg10 (c : Dev nD) : after ops (launchContents m c) (main_arg10 : DevRef τ sig) = m ((c.tc : Thread nD τ).loc main_arg10) := by
  rw [after_ops, Tail.ops4_keep_main_arg10, Layer3.ops3_keep_main_arg10, Layer2.ops2_keep_main_arg10, Layer1.ops1_keep_main_arg10]
theorem ref_arg11 (c : Dev nD) : after ops (launchContents m c) (main_arg11 : DevRef τ sig) = m ((c.tc : Thread nD τ).loc main_arg11) := by
  rw [after_ops, Tail.ops4_keep_main_arg11, Layer3.ops3_keep_main_arg11, Layer2.ops2_keep_main_arg11, Layer1.ops1_keep_main_arg11]
theorem ref_arg12 (c : Dev nD) : after ops (launchContents m c) (main_arg12 : DevRef τ sig) = m ((c.tc : Thread nD τ).loc main_arg12) := by
  rw [after_ops, Tail.ops4_keep_main_arg12, Layer3.ops3_keep_main_arg12, Layer2.ops2_keep_main_arg12, Layer1.ops1_keep_main_arg12]
theorem ref_arg13 (c : Dev nD) : after ops (launchContents m c) (main_arg13 : DevRef τ sig) = m ((c.tc : Thread nD τ).loc main_arg13) := by
  rw [after_ops, Tail.ops4_keep_main_arg13, Layer3.ops3_keep_main_arg13, Layer2.ops2_keep_main_arg13, Layer1.ops1_keep_main_arg13]
theorem ref_arg14 (c : Dev nD) : after ops (launchContents m c) (main_arg14 : DevRef τ sig) = m ((c.tc : Thread nD τ).loc main_arg14) := by
  rw [after_ops, Tail.ops4_keep_main_arg14, Layer3.ops3_keep_main_arg14, Layer2.ops2_keep_main_arg14, Layer1.ops1_keep_main_arg14]
theorem ref_arg15 (c : Dev nD) : after ops (launchContents m c) (main_arg15 : DevRef τ sig) = m ((c.tc : Thread nD τ).loc main_arg15) := by
  rw [after_ops, Tail.ops4_keep_main_arg15, Layer3.ops3_keep_main_arg15, Layer2.ops2_keep_main_arg15, Layer1.ops1_keep_main_arg15]
theorem ref_arg16 (c : Dev nD) : after ops (launchContents m c) (main_arg16 : DevRef τ sig) = m ((c.tc : Thread nD τ).loc main_arg16) := by
  rw [after_ops, Tail.ops4_keep_main_arg16, Layer3.ops3_keep_main_arg16, Layer2.ops2_keep_main_arg16, Layer1.ops1_keep_main_arg16]
theorem ref_arg17 (c : Dev nD) : after ops (launchContents m c) (main_arg17 : DevRef τ sig) = m ((c.tc : Thread nD τ).loc main_arg17) := by
  rw [after_ops, Tail.ops4_keep_main_arg17, Layer3.ops3_keep_main_arg17, Layer2.ops2_keep_main_arg17, Layer1.ops1_keep_main_arg17]
theorem ref_arg18 (c : Dev nD) : after ops (launchContents m c) (main_arg18 : DevRef τ sig) = m ((c.tc : Thread nD τ).loc main_arg18) := by
  rw [after_ops, Tail.ops4_keep_main_arg18, Layer3.ops3_keep_main_arg18, Layer2.ops2_keep_main_arg18, Layer1.ops1_keep_main_arg18]
theorem ref_arg19 (c : Dev nD) : after ops (launchContents m c) (main_arg19 : DevRef τ sig) = m ((c.tc : Thread nD τ).loc main_arg19) := by
  rw [after_ops, Tail.ops4_keep_main_arg19, Layer3.ops3_keep_main_arg19, Layer2.ops2_keep_main_arg19, Layer1.ops1_keep_main_arg19]
theorem ref_arg20 (c : Dev nD) : after ops (launchContents m c) (main_arg20 : DevRef τ sig) = m ((c.tc : Thread nD τ).loc main_arg20) := by
  rw [after_ops, Tail.ops4_keep_main_arg20, Layer3.ops3_keep_main_arg20, Layer2.ops2_keep_main_arg20, Layer1.ops1_keep_main_arg20]
theorem ref_arg21 (c : Dev nD) : after ops (launchContents m c) (main_arg21 : DevRef τ sig) = m ((c.tc : Thread nD τ).loc main_arg21) := by
  rw [after_ops, Tail.ops4_keep_main_arg21, Layer3.ops3_keep_main_arg21, Layer2.ops2_keep_main_arg21, Layer1.ops1_keep_main_arg21]
theorem ref_arg22 (c : Dev nD) : after ops (launchContents m c) (main_arg22 : DevRef τ sig) = m ((c.tc : Thread nD τ).loc main_arg22) := by
  rw [after_ops, Tail.ops4_keep_main_arg22, Layer3.ops3_keep_main_arg22, Layer2.ops2_keep_main_arg22, Layer1.ops1_keep_main_arg22]

end Cert.ReferenceIdeal.Chain
-- ==== Proof.Bridge.lean ====
/-
  THE TWO PROGRAMS SPELL THE SAME HOST STAGES — the index preparation, the row gather, the scatter-add over a zero
  array, the logit, its squashing and the concatenation are one text in both — and from memories that agree on the
  arguments they read the same inputs: the network's results are then the same on both sides.
-/
import proofs.«168661_j64132451664027_1_alg».proof.Proof.KernelStages
import proofs.«168661_j64132451664027_1_alg».proof.Proof.ReferenceStages

noncomputable section
namespace Cert.Bridge
open Idealize.ShloMosaic Idealize.ShloMosaic.TcCoe Idealize.SL.Sem

/-- The host stages of the two programs are the same record of functions. -/
theorem stages_eq : Cert.ReferenceIdeal.Net.stages = Cert.KernelIdeal.Net.stages := rfl

/-- Memories that agree on the 23 argument arrays give the same inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.Net.inputs m' c = Cert.KernelIdeal.Net.inputs m c := by
  obtain ⟨h0, h1, h2, h3, h4, h5, h6, h7, h8, h9, h10, h11, h12, h13, h14, h15, h16, h17, h18, h19, h20, h21, h22⟩ := h
  unfold Cert.ReferenceIdeal.Net.inputs Cert.KernelIdeal.Net.inputs
  rw [Cert.GraphConv.Inputs.mk.injEq]
  exact ⟨h0, h1, h2, h3, h4, h5, h6, h7, h8, h9, h10, h11, h12, h13, h14, h15, h16, h17, h18, h19, h20, h21, h22⟩

end Cert.Bridge
-- ==== Proof.lean ====
/-
  THE CLAIMS. A three-layer graph convolution: per layer, a Pallas kernel computes every edge's message (two affine
  layers of the gathered source row and of the edge's attributes), the host sums the messages at their destination
  rows, and a second Pallas kernel adds the node's own affine layer and applies the exponential linear unit; the host
  then takes a logit of the last layer, squashes it, and concatenates the second layer's features with the logit. The
  reference does the same with host operations only.

  At the extended reals both programs compute ONE function of the arguments (`Cert.GraphConv.out0 / out1 / out2`):
  * the kernel's program: its run ends with every buffer at the last segment boundary's contents, and the three result
    buffers there are the network's results, read through the six kernel regions (each region's output array is the
    stage's function of its arrays, entry by entry: the blocks of rows tile the array) and the host stretches between;
  * the reference: its @main is a straight line of host operations whose fold has the result buffers at the same
    results (its dot products, broadcasts and outlined unit read entry by entry);
  * the irregular stages (gather, scatter-add, index preparation) and the closing operations are the same text in both
    programs, so they enter the network as parameters and are never opened.
  The sums are regrouped by associativity of the extended reals' addition only: the precondition is not used.
  The frames of the two kernel programs are the generated ones; the reference's frame is its run with the results dropped.
  `preserves` is trivial: the ideal pass rewrote no operation.
-/
import proofs.«168661_j64132451664027_1_alg».proof.Defs
import proofs.«168661_j64132451664027_1_alg».proof.Proof.Gen.Kernel
import proofs.«168661_j64132451664027_1_alg».proof.Proof.Gen.Kernel.Frame
import proofs.«168661_j64132451664027_1_alg».proof.Proof.Gen.KernelIdeal
import proofs.«168661_j64132451664027_1_alg».proof.Proof.Gen.KernelIdeal.Frame
import proofs.«168661_j64132451664027_1_alg».proof.Proof.Gen.ReferenceIdeal
import proofs.«168661_j64132451664027_1_alg».proof.Proof.Gen.Pre_finite_inputs
import proofs.«168661_j64132451664027_1_alg».proof.Proof.KernelRun
import proofs.«168661_j64132451664027_1_alg».proof.Proof.KernelChain3
import proofs.«168661_j64132451664027_1_alg».proof.Proof.ReferenceChain
import proofs.«168661_j64132451664027_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.Chain.ref_arg0 m c),
     (h c Cert.ReferenceIdeal.main_arg1).trans (Cert.ReferenceIdeal.Chain.ref_arg1 m c),
     (h c Cert.ReferenceIdeal.main_arg2).trans (Cert.ReferenceIdeal.Chain.ref_arg2 m c),
     (h c Cert.ReferenceIdeal.main_arg3).trans (Cert.ReferenceIdeal.Chain.ref_arg3 m c),
     (h c Cert.ReferenceIdeal.main_arg4).trans (Cert.ReferenceIdeal.Chain.ref_arg4 m c),
     (h c Cert.ReferenceIdeal.main_arg5).trans (Cert.ReferenceIdeal.Chain.ref_arg5 m c),
     (h c Cert.ReferenceIdeal.main_arg6).trans (Cert.ReferenceIdeal.Chain.ref_arg6 m c),
     (h c Cert.ReferenceIdeal.main_arg7).trans (Cert.ReferenceIdeal.Chain.ref_arg7 m c),
     (h c Cert.ReferenceIdeal.main_arg8).trans (Cert.ReferenceIdeal.Chain.ref_arg8 m c),
     (h c Cert.ReferenceIdeal.main_arg9).trans (Cert.ReferenceIdeal.Chain.ref_arg9 m c),
     (h c Cert.ReferenceIdeal.main_arg10).trans (Cert.ReferenceIdeal.Chain.ref_arg10 m c),
     (h c Cert.ReferenceIdeal.main_arg11).trans (Cert.ReferenceIdeal.Chain.ref_arg11 m c),
     (h c Cert.ReferenceIdeal.main_arg12).trans (Cert.ReferenceIdeal.Chain.ref_arg12 m c),
     (h c Cert.ReferenceIdeal.main_arg13).trans (Cert.ReferenceIdeal.Chain.ref_arg13 m c),
     (h c Cert.ReferenceIdeal.main_arg14).trans (Cert.ReferenceIdeal.Chain.ref_arg14 m c),
     (h c Cert.ReferenceIdeal.main_arg15).trans (Cert.ReferenceIdeal.Chain.ref_arg15 m c),
     (h c Cert.ReferenceIdeal.main_arg16).trans (Cert.ReferenceIdeal.Chain.ref_arg16 m c),
     (h c Cert.ReferenceIdeal.main_arg17).trans (Cert.ReferenceIdeal.Chain.ref_arg17 m c),
     (h c Cert.ReferenceIdeal.main_arg18).trans (Cert.ReferenceIdeal.Chain.ref_arg18 m c),
     (h c Cert.ReferenceIdeal.main_arg19).trans (Cert.ReferenceIdeal.Chain.ref_arg19 m c),
     (h c Cert.ReferenceIdeal.main_arg20).trans (Cert.ReferenceIdeal.Chain.ref_arg20 m c),
     (h c Cert.ReferenceIdeal.main_arg21).trans (Cert.ReferenceIdeal.Chain.ref_arg21 m c),
     (h c Cert.ReferenceIdeal.main_arg22).trans (Cert.ReferenceIdeal.Chain.ref_arg22 m c)⟩)
    (Cert.ReferenceIdeal.Run.run_all (F := Ideal) m ρ)

theorem preserves : Cert.preserves_Kernel_KernelIdeal := trivial

/-- Both idealized programs end with the network's three results of the arguments. -/
theorem algebraic : Cert.algebraic_KernelIdeal_ReferenceIdeal := by
  intro m ρ m' ρ' _ hagree
  refine ⟨fun c => Cert.GraphConv.out0 Cert.KernelIdeal.Net.stages (Cert.KernelIdeal.Net.inputs m c),
    fun c => Cert.GraphConv.out1 Cert.KernelIdeal.Net.stages (Cert.KernelIdeal.Net.inputs m c),
    fun c => Cert.GraphConv.out2 Cert.KernelIdeal.Net.stages (Cert.KernelIdeal.Net.inputs m c), ?_, ?_⟩
  · exact (θ_run Cert.KernelIdeal.defs _ _).mono (fun r h c =>
      ⟨(h c _ (Cert.KernelIdeal.Gen.mem_uc Cert.KernelIdeal.main_v58 (by decide))).trans (Cert.KernelIdeal.Chain.W13_out0 m ρ c),
       (h c _ (Cert.KernelIdeal.Gen.mem_uc Cert.KernelIdeal.main_v33 (by decide))).trans (Cert.KernelIdeal.Chain.W13_out1 m ρ c),
       (h c _ (Cert.KernelIdeal.Gen.mem_uc Cert.KernelIdeal.main_v59 (by decide))).trans (Cert.KernelIdeal.Chain.W13_out2 m ρ c),
       (h c _ (Cert.KernelIdeal.Gen.mem_uc Cert.KernelIdeal.main_arg0 (by decide))).trans (Cert.KernelIdeal.Gen.W13_main_arg0 m ρ c),
       (h c _ (Cert.KernelIdeal.Gen.mem_uc Cert.KernelIdeal.main_arg1 (by decide))).trans (Cert.KernelIdeal.Gen.W13_main_arg1 m ρ c),
       (h c _ (Cert.KernelIdeal.Gen.mem_uc Cert.KernelIdeal.main_arg2 (by decide))).trans (Cert.KernelIdeal.Gen.W13_main_arg2 m ρ c),
       (h c _ (Cert.KernelIdeal.Gen.mem_uc Cert.KernelIdeal.main_arg3 (by decide))).trans (Cert.KernelIdeal.Gen.W13_main_arg3 m ρ c),
       (h c _ (Cert.KernelIdeal.Gen.mem_uc Cert.KernelIdeal.main_arg4 (by decide))).trans (Cert.KernelIdeal.Gen.W13_main_arg4 m ρ c),
       (h c _ (Cert.KernelIdeal.Gen.mem_uc Cert.KernelIdeal.main_arg5 (by decide))).trans (Cert.KernelIdeal.Gen.W13_main_arg5 m ρ c),
       (h c _ (Cert.KernelIdeal.Gen.mem_uc Cert.KernelIdeal.main_arg6 (by decide))).trans (Cert.KernelIdeal.Gen.W13_main_arg6 m ρ c),
       (h c _ (Cert.KernelIdeal.Gen.mem_uc Cert.KernelIdeal.main_arg7 (by decide))).trans (Cert.KernelIdeal.Gen.W13_main_arg7 m ρ c),
       (h c _ (Cert.KernelIdeal.Gen.mem_uc Cert.KernelIdeal.main_arg8 (by decide))).trans (Cert.KernelIdeal.Gen.W13_main_arg8 m ρ c),
       (h c _ (Cert.KernelIdeal.Gen.mem_uc Cert.KernelIdeal.main_arg9 (by decide))).trans (Cert.KernelIdeal.Gen.W13_main_arg9 m ρ c),
       (h c _ (Cert.KernelIdeal.Gen.mem_uc Cert.KernelIdeal.main_arg10 (by decide))).trans (Cert.KernelIdeal.Gen.W13_main_arg10 m ρ c),
       (h c _ (Cert.KernelIdeal.Gen.mem_uc Cert.KernelIdeal.main_arg11 (by decide))).trans (Cert.KernelIdeal.Gen.W13_main_arg11 m ρ c),
       (h c _ (Cert.KernelIdeal.Gen.mem_uc Cert.KernelIdeal.main_arg12 (by decide))).trans (Cert.KernelIdeal.Gen.W13_main_arg12 m ρ c),
       (h c _ (Cert.KernelIdeal.Gen.mem_uc Cert.KernelIdeal.main_arg13 (by decide))).trans (Cert.KernelIdeal.Gen.W13_main_arg13 m ρ c),
       (h c _ (Cert.KernelIdeal.Gen.mem_uc Cert.KernelIdeal.main_arg14 (by decide))).trans (Cert.KernelIdeal.Gen.W13_main_arg14 m ρ c),
       (h c _ (Cert.KernelIdeal.Gen.mem_uc Cert.KernelIdeal.main_arg15 (by decide))).trans (Cert.KernelIdeal.Gen.W13_main_arg15 m ρ c),
       (h c _ (Cert.KernelIdeal.Gen.mem_uc Cert.KernelIdeal.main_arg16 (by decide))).trans (Cert.KernelIdeal.Gen.W13_main_arg16 m ρ c),
       (h c _ (Cert.KernelIdeal.Gen.mem_uc Cert.KernelIdeal.main_arg17 (by decide))).trans (Cert.KernelIdeal.Gen.W13_main_arg17 m ρ c),
       (h c _ (Cert.KernelIdeal.Gen.mem_uc Cert.KernelIdeal.main_arg18 (by decide))).trans (Cert.KernelIdeal.Gen.W13_main_arg18 m ρ c),
       (h c _ (Cert.KernelIdeal.Gen.mem_uc Cert.KernelIdeal.main_arg19 (by decide))).trans (Cert.KernelIdeal.Gen.W13_main_arg19 m ρ c),
       (h c _ (Cert.KernelIdeal.Gen.mem_uc Cert.KernelIdeal.main_arg20 (by decide))).trans (Cert.KernelIdeal.Gen.W13_main_arg20 m ρ c),
       (h c _ (Cert.KernelIdeal.Gen.mem_uc Cert.KernelIdeal.main_arg21 (by decide))).trans (Cert.KernelIdeal.Gen.W13_main_arg21 m ρ c),
       (h c _ (Cert.KernelIdeal.Gen.mem_uc Cert.KernelIdeal.main_arg22 (by decide))).trans (Cert.KernelIdeal.Gen.W13_main_arg22 m ρ c)⟩)
      (Cert.KernelIdeal.GenRun.run_all (F := Ideal) m ρ)
  · have hin : ∀ c, Cert.ReferenceIdeal.Net.inputs m' c = Cert.KernelIdeal.Net.inputs m c :=
      fun c => Cert.Bridge.inputs_eq m m' c (hagree c)
    exact (θ_run Cert.ReferenceIdeal.defs _ _).mono (fun r h c =>
      ⟨(h c Cert.ReferenceIdeal.main_v88).trans ((Cert.ReferenceIdeal.Chain.ref_out0 m' c).trans (by rw [Cert.Bridge.stages_eq, hin c])),
       (h c Cert.ReferenceIdeal.main_v53).trans ((Cert.ReferenceIdeal.Chain.ref_out1 m' c).trans (by rw [Cert.Bridge.stages_eq, hin c])),
       (h c Cert.ReferenceIdeal.main_v89).trans ((Cert.ReferenceIdeal.Chain.ref_out2 m' c).trans (by rw [Cert.Bridge.stages_eq, hin c])),
       (h c Cert.ReferenceIdeal.main_arg0).trans (Cert.ReferenceIdeal.Chain.ref_arg0 m' c),
       (h c Cert.ReferenceIdeal.main_arg1).trans (Cert.ReferenceIdeal.Chain.ref_arg1 m' c),
       (h c Cert.ReferenceIdeal.main_arg2).trans (Cert.ReferenceIdeal.Chain.ref_arg2 m' c),
       (h c Cert.ReferenceIdeal.main_arg3).trans (Cert.ReferenceIdeal.Chain.ref_arg3 m' c),
       (h c Cert.ReferenceIdeal.main_arg4).trans (Cert.ReferenceIdeal.Chain.ref_arg4 m' c),
       (h c Cert.ReferenceIdeal.main_arg5).trans (Cert.ReferenceIdeal.Chain.ref_arg5 m' c),
       (h c Cert.ReferenceIdeal.main_arg6).trans (Cert.ReferenceIdeal.Chain.ref_arg6 m' c),
       (h c Cert.ReferenceIdeal.main_arg7).trans (Cert.ReferenceIdeal.Chain.ref_arg7 m' c),
       (h c Cert.ReferenceIdeal.main_arg8).trans (Cert.ReferenceIdeal.Chain.ref_arg8 m' c),
       (h c Cert.ReferenceIdeal.main_arg9).trans (Cert.ReferenceIdeal.Chain.ref_arg9 m' c),
       (h c Cert.ReferenceIdeal.main_arg10).trans (Cert.ReferenceIdeal.Chain.ref_arg10 m' c),
       (h c Cert.ReferenceIdeal.main_arg11).trans (Cert.ReferenceIdeal.Chain.ref_arg11 m' c),
       (h c Cert.ReferenceIdeal.main_arg12).trans (Cert.ReferenceIdeal.Chain.ref_arg12 m' c),
       (h c Cert.ReferenceIdeal.main_arg13).trans (Cert.ReferenceIdeal.Chain.ref_arg13 m' c),
       (h c Cert.ReferenceIdeal.main_arg14).trans (Cert.ReferenceIdeal.Chain.ref_arg14 m' c),
       (h c Cert.ReferenceIdeal.main_arg15).trans (Cert.ReferenceIdeal.Chain.ref_arg15 m' c),
       (h c Cert.ReferenceIdeal.main_arg16).trans (Cert.ReferenceIdeal.Chain.ref_arg16 m' c),
       (h c Cert.ReferenceIdeal.main_arg17).trans (Cert.ReferenceIdeal.Chain.ref_arg17 m' c),
       (h c Cert.ReferenceIdeal.main_arg18).trans (Cert.ReferenceIdeal.Chain.ref_arg18 m' c),
       (h c Cert.ReferenceIdeal.main_arg19).trans (Cert.ReferenceIdeal.Chain.ref_arg19 m' c),
       (h c Cert.ReferenceIdeal.main_arg20).trans (Cert.ReferenceIdeal.Chain.ref_arg20 m' c),
       (h c Cert.ReferenceIdeal.main_arg21).trans (Cert.ReferenceIdeal.Chain.ref_arg21 m' c),
       (h c Cert.ReferenceIdeal.main_arg22).trans (Cert.ReferenceIdeal.Chain.ref_arg22 m' c)⟩)
      (Cert.ReferenceIdeal.Run.run_all (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
